-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S85742x512 : Shape := ⟨2, ![85742, 512]⟩
abbrev S4 : Shape := ⟨1, ![4]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S85742x512 : S_.BroadcastsInDim S85742x512 (![] : Fin 0 → Fin S85742x512.rank)
  reducesTo_S85742x512_S_d0_1 : S85742x512.ReducesTo [0, 1] S_
  bcast_S_S4 : S_.BroadcastsInDim S4 (![] : Fin 0 → Fin S4.rank)
  reducesTo_S4_S_d0 : S4.ReducesTo [0] S_
  bcast_S_S512 : S_.BroadcastsInDim S512 (![] : Fin 0 → Fin S512.rank)
  reducesTo_S512_S_d0 : S512.ReducesTo [0] S_

variable [Facts]

def fn_part1 {F : FTy → Type} [FloatOps F] (main_arg1 : IVec S512 32) (main_v13 : IVec S_ 1) (main_v15 : IVec S512 1) (main_c_5 : IVec S_ 32) : IVec S_ 1 :=
  let main_v16 : IVec S512 32 := broadcastInDim S512 ![] bcast_S_S512 main_c_5
  let main_v17 : IVec S512 1 := cmpi .slt main_arg1 main_v16
  let main_v18 : IVec S512 1 := andi main_v15 main_v17
  let main_c_6 : IVec S_ 1 := constantI S_ 1 1#1
  let main_v19 : IVec S_ 1 := (fun x v => Host.reduce IntOp.andi x v reducesTo_S512_S_d0 h_S_) main_v18 main_c_6
  let main_v20 : IVec S_ 1 := andi main_v13 main_v19
  main_v20

def fn {F : FTy → Type} [FloatOps F] (main_arg0 : FVec F S512x512 .f32) (main_arg1 : IVec S512 32) (main_arg2 : IVec S512 32) (main_arg3 : FVec F S85742x512 .f32) (main_arg4 : FVec F S4 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S85742x512 .f32 := Host.absf main_arg3
  let main_cst_0 : FVec F S_ .f32 := constant S_ .f32 0x7F800000#32
  let main_v5 : FVec F S85742x512 .f32 := broadcastInDim S85742x512 ![] bcast_S_S85742x512 main_cst_0
  let main_v6 : IVec S85742x512 1 := cmpf .olt main_v4 main_v5
  let main_c_1 : IVec S_ 1 := constantI S_ 1 1#1
  let main_v7 : IVec S_ 1 := (fun x v => Host.reduce IntOp.andi x v reducesTo_S85742x512_S_d0_1 h_S_) main_v6 main_c_1
  let main_v8 : IVec S_ 1 := andi main_v3 main_v7
  let main_v9 : FVec F S4 .f32 := Host.absf main_arg4
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_c_4 : IVec S_ 32 := constantI S_ 32 0#32
  let main_v14 : IVec S512 32 := broadcastInDim S512 ![] bcast_S_S512 main_c_4
  let main_v15 : IVec S512 1 := cmpi .sge main_arg1 main_v14
  let main_c_5 : IVec S_ 32 := constantI S_ 32 85742#32
  fn_part1 (F := F) main_arg1 main_v13 main_v15 main_c_5
-- ==== Kernel.lean ====
abbrev S512x512 : Shape := ⟨2, ![512, 512]⟩
abbrev S512 : Shape := ⟨1, ![512]⟩
abbrev S85742x512 : Shape := ⟨2, ![85742, 512]⟩
abbrev S4 : Shape := ⟨1, ![4]⟩
abbrev S_ : Shape := ⟨0, ![]⟩
abbrev S512x1 : Shape := ⟨2, ![512, 1]⟩
abbrev S2x512x1 : Shape := ⟨3, ![2, 512, 1]⟩
abbrev S4080x512 : Shape := ⟨2, ![4080, 512]⟩
abbrev S1x512x1 : Shape := ⟨3, ![1, 512, 1]⟩
abbrev S4080 : Shape := ⟨1, ![4080]⟩
abbrev S4080x1 : Shape := ⟨2, ![4080, 1]⟩
abbrev S512x4080 : Shape := ⟨2, ![512, 4080]⟩

abbrev nBuf : Space → Nat
  | .hbm => 87
  | .vmem => 11
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S512, .i32⟩
  | .hbm, ⟨3, _⟩ => ⟨S85742x512, .f32⟩
  | .hbm, ⟨4, _⟩ => ⟨S4, .f32⟩
  | .hbm, ⟨5, _⟩ => ⟨S512x512, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x512, .f32⟩
  | .hbm, ⟨14, _⟩ => ⟨S512x512, .f32⟩
  | .hbm, ⟨15, _⟩ => ⟨S512x512, .bf16⟩
  | .hbm, ⟨16, _⟩ => ⟨S4, .f32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S512, .f32⟩
  | .hbm, ⟨26, _⟩ => ⟨S512x1, .f32⟩
  | .hbm, ⟨27, _⟩ => ⟨S512x1, .i32⟩
  | .hbm, ⟨28, _⟩ => ⟨S2x512x1, .f32⟩
  | .hbm, ⟨29, _⟩ => ⟨S2x512x1, .f32⟩
  | .hbm, ⟨30, _⟩ => ⟨S1x512x1, .f32⟩
  | .hbm, ⟨31, _⟩ => ⟨S512x1, .f32⟩
  | .hbm, ⟨32, _⟩ => ⟨S1x512x1, .f32⟩
  | .hbm, ⟨33, _⟩ => ⟨S512x1, .f32⟩
  | .hbm, ⟨34, _⟩ => ⟨S1x512x1, .f32⟩
  | .hbm, ⟨35, _⟩ => ⟨S512x1, .f32⟩
  | .hbm, ⟨36, _⟩ => ⟨S1x512x1, .f32⟩
  | .hbm, ⟨37, _⟩ => ⟨S512x1, .f32⟩
  | .hbm, ⟨38, _⟩ => ⟨S512x1, .f32⟩
  | .hbm, ⟨39, _⟩ => ⟨S512x1, .f32⟩
  | .hbm, ⟨40, _⟩ => ⟨S512x1, .f32⟩
  | .hbm, ⟨41, _⟩ => ⟨S512x1, .f32⟩
  | .hbm, ⟨42, _⟩ => ⟨S512x1, .f32⟩
  | .hbm, ⟨43, _⟩ => ⟨S512x1, .f32⟩
  | .hbm, ⟨44, _⟩ => ⟨S512x1, .f32⟩
  | .hbm, ⟨45, _⟩ => ⟨S512x1, .f32⟩
  | .hbm, ⟨46, _⟩ => ⟨S512x1, .f32⟩
  | .hbm, ⟨47, _⟩ => ⟨S512x1, .f32⟩
  | .hbm, ⟨48, _⟩ => ⟨S_, .i32⟩
  | .hbm, ⟨49, _⟩ => ⟨S512, .i32⟩
  | .hbm, ⟨50, _⟩ => ⟨S512, .i1⟩
  | .hbm, ⟨51, _⟩ => ⟨S_, .i32⟩
  | .hbm, ⟨52, _⟩ => ⟨S512, .i32⟩
  | .hbm, ⟨53, _⟩ => ⟨S512, .i32⟩
  | .hbm, ⟨54, _⟩ => ⟨S512, .i32⟩
  | .hbm, ⟨55, _⟩ => ⟨S512x1, .i32⟩
  | .hbm, ⟨56, _⟩ => ⟨S512x512, .f32⟩
  | .hbm, ⟨57, _⟩ => ⟨S512x512, .f32⟩
  | .hbm, ⟨58, _⟩ => ⟨S_, .f32⟩
  | .hbm, ⟨59, _⟩ => ⟨S512, .f32⟩
  | .hbm, ⟨60, _⟩ => ⟨S512x1, .f32⟩
  | .hbm, ⟨61, _⟩ => ⟨S512x1, .f32⟩
  | .hbm, ⟨62, _⟩ => ⟨S_, .f32⟩
  | .hbm, ⟨63, _⟩ => ⟨S512x1, .f32⟩
  | .hbm, ⟨64, _⟩ => ⟨S512x1, .f32⟩
  | .hbm, ⟨65, _⟩ => ⟨S512x512, .f32⟩
  | .hbm, ⟨66, _⟩ => ⟨S512x512, .f32⟩
  | .hbm, ⟨67, _⟩ => ⟨S512x512, .f32⟩
  | .hbm, ⟨68, _⟩ => ⟨S_, .f32⟩
  | .hbm, ⟨69, _⟩ => ⟨S512, .f32⟩
  | .hbm, ⟨70, _⟩ => ⟨S512x1, .f32⟩
  | .hbm, ⟨71, _⟩ => ⟨S512x1, .f32⟩
  | .hbm, ⟨72, _⟩ => ⟨S_, .f32⟩
  | .hbm, ⟨73, _⟩ => ⟨S512x1, .f32⟩
  | .hbm, ⟨74, _⟩ => ⟨S512x1, .f32⟩
  | .hbm, ⟨75, _⟩ => ⟨S512x1, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .local _ .vmem, ⟨0, _⟩ => ⟨S512x512, .bf16⟩
  | .local _ .vmem, ⟨1, _⟩ => ⟨S4080x512, .f32⟩
  | .local _ .vmem, ⟨2, _⟩ => ⟨S4080x512, .f32⟩
  | .local _ .vmem, ⟨3, _⟩ => ⟨S512x1, .i32⟩
  | .local _ .vmem, ⟨4, _⟩ => ⟨S512x1, .f32⟩
  | .local _ .vmem, ⟨5, _⟩ => ⟨S1x512x1, .f32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S512x1, .f32⟩
  | .local _ .vmem, ⟨10, _⟩ => ⟨S512x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_1 : Ref sig .tc := ⟨.hbm, 48, rfl⟩
abbrev main_v35 : Ref sig .tc := ⟨.hbm, 49, rfl⟩
abbrev main_v36 : Ref sig .tc := ⟨.hbm, 50, rfl⟩
abbrev main_c_2 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call1_v0 : Ref sig .tc := ⟨.hbm, 57, rfl⟩
abbrev main_call1_cst : Ref sig .tc := ⟨.hbm, 58, rfl⟩
abbrev main_call1_v1 : Ref sig .tc := ⟨.hbm, 59, rfl⟩
abbrev main_call1_v2 : Ref sig .tc := ⟨.hbm, 60, rfl⟩
abbrev main_v42 : Ref sig .tc := ⟨.hbm, 61, rfl⟩
abbrev main_cst_3 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_6 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v58 : BitVec 1 := Scalar.cmpi .eq arg1 c10_i32
  let v59 : BitVec 32 := Scalar.extui v58
  let c0_i32_22 : BitVec 32 := 0#32
  let v60 : BitVec 1 := Scalar.cmpi .ne v59 c0_i32_22
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4080x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bitsLt_bf16_f32 : FTy.bits .bf16 < FTy.bits .f32
  bcast_S_S512 : S_.BroadcastsInDim S512 (![] : Fin 0 → Fin S512.rank)
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S4080x512_S4080x512_0_0 : ∀ a, (![0, 0] : Fin 2 → Nat) a + S4080x512.size a ≤ S4080x512.size a
  h_S4080x512 : 0 < S4080x512.numel
  reduces_S4080x512_S4080 : S4080x512.Reduces [1] S4080
  shapeCasts_S4080_S4080x1 : S4080.ShapeCasts S4080x1
  broadcasts_S4080x1_S4080x512 : S4080x1.Broadcasts S4080x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S512x4080_d1_w32 : S512x4080.Iotas .tc 32 [1]
  broadcasts_S512x1_S512x4080 : S512x1.Broadcasts S512x4080
  reduces_S512x4080_S512 : S512x4080.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  slices_S2x512x1_S1x512x1_0_0_0 : S2x512x1.Slices ![0, 0, 0] S1x512x1
  slices_S2x512x1_S1x512x1_1_0_0 : S2x512x1.Slices ![1, 0, 0] S1x512x1
  reducesTo_S512x1_S_d0_1 : S512x1.ReducesTo [0, 1] S_
  reducesTo_S4_S_d0 : S4.ReducesTo [0] S_
  gather_S4_S512x1_S512_n_0_n_n_0_1_1_wf : GatherDims.WF S4 S512x1 S512 [] [0] [] [0] [] 1 ![1]
  dot_S512x512_S4080x512_S512x4080_1_1_0_0_n_n_wf : DotDims.WF S512x512 S4080x512 S512x4080 [1] [1] [0] [0] [] []
  gather_S85742x512_S512x1_S512x512_1_0_n_n_0_1_1512_wf : GatherDims.WF S85742x512 S512x1 S512x512 [1] [0] [] [0] [] 1 ![1, 512]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4080x512.size a < S85742x512.size a
  hwx0_1 : ∀ i : grid0.Coords, EltTy.bits .f32 = 32 ∨ (Rect.unit (s := S85742x512) (fun a => cc0_transform_1 i a * S4080x512.size a) (fun a => (Pipeline.Clip.of (cc0_transform_1 i a) (S4080x512.size a) (S85742x512.size a)).extent (S4080x512.size a)) fun a => Pipeline.Clip.inb (Pipeline.Clip.ok_of (hstart0_1 i a))).WholeWords (EltTy.packing .f32)
  hwxs0_1 : ∀ i : grid0.Coords, EltTy.bits .f32 = 32 ∨ (Rect.unit (s := S4080x512) (fun _ => 0) (fun a => (Pipeline.Clip.of (cc0_transform_1 i a) (S4080x512.size a) (S85742x512.size a)).extent (S4080x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x512x1.size a
  hwx0_4 : ∀ i : grid0.Coords, EltTy.bits .f32 = 32 ∨ (Rect.block (s := S2x512x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S2x512x1.size a
  hwx0_5 : ∀ i : grid0.Coords, EltTy.bits .f32 = 32 ∨ (Rect.block (s := S2x512x1) S1x512x1.size (cc0_transform_5 i) (hinb0_5 i)).WholeWords (EltTy.packing .f32)

variable [Facts₀]

def gather_S4_S512x1_S512_n_0_n_n_0_1_1 : GatherDims S4 S512x1 S512 where
  offsetDims := []
  collapsedSliceDims := [0]
  operandBatchingDims := []
  startIndicesBatchingDims := []
  startIndexMap := [0]
  indexVectorDim := 1
  sliceSizes := ![1]
  wf := gather_S4_S512x1_S512_n_0_n_n_0_1_1_wf
def dot_S512x512_S4080x512_S512x4080_1_1_0_0_n_n : DotDims S512x512 S4080x512 S512x4080 where
  lhsContracting := [1]
  rhsContracting := [1]
  lhsNonContracting := [0]
  rhsNonContracting := [0]
  lhsBatch := []
  rhsBatch := []
  wf := dot_S512x512_S4080x512_S512x4080_1_1_0_0_n_n_wf
def gather_S85742x512_S512x1_S512x512_1_0_n_n_0_1_1512 : GatherDims S85742x512 S512x1 S512x512 where
  offsetDims := [1]
  collapsedSliceDims := [0]
  operandBatchingDims := []
  startIndicesBatchingDims := []
  startIndexMap := [0]
  indexVectorDim := 1
  sliceSizes := ![1, 512]
  wf := gather_S85742x512_S512x1_S512x512_1_0_n_n_0_1_1512_wf

abbrev win0_0 : Pipeline.Window sig grid0 :=
  Pipeline.Window.ofSpec (Memref.whole main_v5) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg3) S4080x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v15) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16_0) S1x512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_1) S1x512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S512x512 : Shape := ⟨2, ![512, 512]⟩
abbrev S512 : Shape := ⟨1, ![512]⟩
abbrev S85742x512 : Shape := ⟨2, ![85742, 512]⟩
abbrev S4 : Shape := ⟨1, ![4]⟩
abbrev S_ : Shape := ⟨0, ![]⟩
abbrev S512x1 : Shape := ⟨2, ![512, 1]⟩
abbrev S85742 : Shape := ⟨1, ![85742]⟩
abbrev S85742x1 : Shape := ⟨2, ![85742, 1]⟩
abbrev S512x85742 : Shape := ⟨2, ![512, 85742]⟩
abbrev S512x2 : Shape := ⟨2, ![512, 2]⟩

abbrev nBuf : Space → Nat
  | .hbm => 140
  | .vmem => 0
  | .smem => 0
  | _ => 0

abbrev hbmTy0_0 (i : Nat) : BufTy := match i % 128 with
  | 0 => ⟨S512x512, .f32⟩
  | 1 => ⟨S512, .i32⟩
  | 2 => ⟨S512, .i32⟩
  | 3 => ⟨S85742x512, .f32⟩
  | 4 => ⟨S4, .f32⟩
  | 5 => ⟨S512x512, .f32⟩
  | 6 => ⟨S_, .f32⟩
  | 7 => ⟨S512, .f32⟩
  | 8 => ⟨S512x1, .f32⟩
  | 9 => ⟨S512x1, .f32⟩
  | 10 => ⟨S_, .f32⟩
  | 11 => ⟨S512x1, .f32⟩
  | 12 => ⟨S512x1, .f32⟩
  | 13 => ⟨S512x512, .f32⟩
  | 14 => ⟨S512x512, .f32⟩
  | 15 => ⟨S85742x512, .f32⟩
  | 16 => ⟨S_, .f32⟩
  | 17 => ⟨S85742, .f32⟩
  | 18 => ⟨S85742x1, .f32⟩
  | 19 => ⟨S85742x1, .f32⟩
  | 20 => ⟨S_, .f32⟩
  | 21 => ⟨S85742x1, .f32⟩
  | 22 => ⟨S85742x1, .f32⟩
  | 23 => ⟨S85742x512, .f32⟩
  | 24 => ⟨S85742x512, .f32⟩
  | 25 => ⟨S512x85742, .f32⟩
  | 26 => ⟨S4, .f32⟩
  | 27 => ⟨S_, .i32⟩
  | 28 => ⟨S512, .i32⟩
  | 29 => ⟨S512, .i1⟩
  | 30 => ⟨S_, .i32⟩
  | 31 => ⟨S512, .i32⟩
  | 32 => ⟨S512, .i32⟩
  | 33 => ⟨S512, .i32⟩
  | 34 => ⟨S512x1, .i32⟩
  | 35 => ⟨S512, .f32⟩
  | 36 => ⟨S512, .i32⟩
  | 37 => ⟨S_, .f32⟩
  | 38 => ⟨S512, .f32⟩
  | 39 => ⟨S512, .f32⟩
  | 40 => ⟨S_, .f32⟩
  | 41 => ⟨S512, .f32⟩
  | 42 => ⟨S512, .f32⟩
  | 43 => ⟨S_, .f32⟩
  | 44 => ⟨S512, .f32⟩
  | 45 => ⟨S512, .f32⟩
  | 46 => ⟨S_, .f32⟩
  | 47 => ⟨S512, .f32⟩
  | 48 => ⟨S512, .f32⟩
  | 49 => ⟨S_, .f32⟩
  | 50 => ⟨S512, .f32⟩
  | 51 => ⟨S512, .f32⟩
  | 52 => ⟨S_, .i32⟩
  | 53 => ⟨S512, .i32⟩
  | 54 => ⟨S512, .i1⟩
  | 55 => ⟨S_, .i32⟩
  | 56 => ⟨S512, .i32⟩
  | 57 => ⟨S512, .i32⟩
  | 58 => ⟨S512, .i32⟩
  | 59 => ⟨S_, .i32⟩
  | 60 => ⟨S512, .i32⟩
  | 61 => ⟨S512, .i1⟩
  | 62 => ⟨S_, .i32⟩
  | 63 => ⟨S512, .i32⟩
  | 64 => ⟨S512, .i32⟩
  | 65 => ⟨S512, .i32⟩
  | 66 => ⟨S512x1, .i32⟩
  | 67 => ⟨S512x1, .i32⟩
  | 68 => ⟨S512x2, .i32⟩
  | 69 => ⟨S512x85742, .f32⟩
  | 70 => ⟨S_, .f32⟩
  | 71 => ⟨S512x85742, .f32⟩
  | 72 => ⟨S512x85742, .f32⟩
  | 73 => ⟨S512, .f32⟩
  | 74 => ⟨S_, .i32⟩
  | 75 => ⟨S512, .i32⟩
  | 76 => ⟨S512, .i1⟩
  | 77 => ⟨S_, .i32⟩
  | 78 => ⟨S512, .i32⟩
  | 79 => ⟨S512, .i32⟩
  | 80 => ⟨S512, .i32⟩
  | 81 => ⟨S_, .i32⟩
  | 82 => ⟨S512, .i32⟩
  | 83 => ⟨S512, .i1⟩
  | 84 => ⟨S_, .i32⟩
  | 85 => ⟨S512, .i32⟩
  | 86 => ⟨S512, .i32⟩
  | 87 => ⟨S512, .i32⟩
  | 88 => ⟨S512x1, .i32⟩
  | 89 => ⟨S512x1, .i32⟩
  | 90 => ⟨S512x2, .i32⟩
  | 91 => ⟨S512x85742, .f32⟩
  | 92 => ⟨S_, .f32⟩
  | 93 => ⟨S512x85742, .f32⟩
  | 94 => ⟨S512x85742, .f32⟩
  | 95 => ⟨S_, .f32⟩
  | 96 => ⟨S512, .f32⟩
  | 97 => ⟨S_, .f32⟩
  | 98 => ⟨S512, .f32⟩
  | 99 => ⟨S512, .f32⟩
  | 100 => ⟨S512x1, .f32⟩
  | 101 => ⟨S512x85742, .f32⟩
  | 102 => ⟨S512x85742, .f32⟩
  | 103 => ⟨S512x85742, .f32⟩
  | 104 => ⟨S_, .f32⟩
  | 105 => ⟨S512, .f32⟩
  | 106 => ⟨S512x1, .f32⟩
  | 107 => ⟨S512x1, .f32⟩
  | 108 => ⟨S512x85742, .f32⟩
  | 109 => ⟨S512x85742, .f32⟩
  | 110 => ⟨S_, .i32⟩
  | 111 => ⟨S512, .i32⟩
  | 112 => ⟨S512, .i1⟩
  | 113 => ⟨S_, .i32⟩
  | 114 => ⟨S512, .i32⟩
  | 115 => ⟨S512, .i32⟩
  | 116 => ⟨S512, .i32⟩
  | 117 => ⟨S_, .i32⟩
  | 118 => ⟨S512, .i32⟩
  | 119 => ⟨S512, .i1⟩
  | 120 => ⟨S_, .i32⟩
  | 121 => ⟨S512, .i32⟩
  | 122 => ⟨S512, .i32⟩
  | 123 => ⟨S512, .i32⟩
  | 124 => ⟨S512x1, .i32⟩
  | 125 => ⟨S512x1, .i32⟩
  | 126 => ⟨S512x2, .i32⟩
  | 127 => ⟨S512, .f32⟩
  | _ => ⟨S512x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_c_13 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_14 : Ref sig .tc := ⟨.hbm, 81, rfl⟩
abbrev main_v52 : Ref sig .tc := ⟨.hbm, 82, rfl⟩
abbrev main_v53 : Ref sig .tc := ⟨.hbm, 83, rfl⟩
abbrev main_c_15 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_16 : Ref sig .tc := ⟨.hbm, 92, rfl⟩
abbrev main_v61 : Ref sig .tc := ⟨.hbm, 93, rfl⟩
abbrev main_v62 : Ref sig .tc := ⟨.hbm, 94, rfl⟩
abbrev main_call2_cst : Ref sig .tc := ⟨.hbm, 95, rfl⟩
abbrev main_call2_v0 : Ref sig .tc := ⟨.hbm, 96, rfl⟩
abbrev main_call2_cst_0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_cst_1 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_v63 : Ref sig .tc := ⟨.hbm, 109, rfl⟩
abbrev main_c_17 : Ref sig .tc := ⟨.hbm, 110, rfl⟩
abbrev main_v64 : Ref sig .tc := ⟨.hbm, 111, rfl⟩
abbrev main_v65 : Ref sig .tc := ⟨.hbm, 112, rfl⟩
abbrev main_c_18 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_c_19 : Ref sig .tc := ⟨.hbm, 117, rfl⟩
abbrev main_v69 : Ref sig .tc := ⟨.hbm, 118, rfl⟩
abbrev main_v70 : Ref sig .tc := ⟨.hbm, 119, rfl⟩
abbrev main_c_20 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_cst_21 : Ref sig .tc := ⟨.hbm, 128, rfl⟩
abbrev main_v78 : Ref sig .tc := ⟨.hbm, 129, rfl⟩
abbrev main_cst_22 : Ref sig .tc := ⟨.hbm, 130, rfl⟩
abbrev main_v79 : Ref sig .tc := ⟨.hbm, 131, rfl⟩
abbrev main_v80 : Ref sig .tc := ⟨.hbm, 132, rfl⟩
abbrev main_cst_23 : Ref sig .tc := ⟨.hbm, 133, rfl⟩
abbrev main_v81 : Ref sig .tc := ⟨.hbm, 134, rfl⟩
abbrev main_cst_24 : Ref sig .tc := ⟨.hbm, 135, rfl⟩
abbrev main_v82 : Ref sig .tc := ⟨.hbm, 136, rfl⟩
abbrev main_cst_25 : Ref sig .tc := ⟨.hbm, 137, rfl⟩
abbrev main_v83 : Ref sig .tc := ⟨.hbm, 138, rfl⟩
abbrev main_v84 : Ref sig .tc := ⟨.hbm, 139, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S85742x512_S85742_d1 : S85742x512.ReducesTo [1] S85742
  bcast_S85742_S85742x1_0 : S85742.BroadcastsInDim S85742x1 (![0] : Fin 1 → Fin S85742x1.rank)
  bcast_S_S85742x1 : S_.BroadcastsInDim S85742x1 (![] : Fin 0 → Fin S85742x1.rank)
  bcast_S85742x1_S85742x512_0_1 : S85742x1.BroadcastsInDim S85742x512 (![0, 1] : Fin 2 → Fin S85742x512.rank)
  bcast_S_S512 : S_.BroadcastsInDim S512 (![] : Fin 0 → Fin S512.rank)
  concatenates_S512x1_S512x1_S512x2_d1 : Shape.Concatenates [S512x1, S512x1] S512x2 1
  bcast_S_S512x85742 : S_.BroadcastsInDim S512x85742 (![] : Fin 0 → Fin S512x85742.rank)
  reducesTo_S512x85742_S512_d1 : S512x85742.ReducesTo [1] S512
  bcast_S512x1_S512x85742_0_1 : S512x1.BroadcastsInDim S512x85742 (![0, 1] : Fin 2 → Fin S512x85742.rank)
  reducesTo_S512_S_d0 : S512.ReducesTo [0] S_
  reducesTo_S4_S_d0 : S4.ReducesTo [0] S_
  dot_S512x512_S85742x512_S512x85742_1_1_0_0_n_n_wf : DotDims.WF S512x512 S85742x512 S512x85742 [1] [1] [0] [0] [] []
  gather_S4_S512x1_S512_n_0_n_n_0_1_1_wf : GatherDims.WF S4 S512x1 S512 [] [0] [] [0] [] 1 ![1]
  scatter_S512x85742_S512x2_S512_n_01_01_1_wf : ScatterDims.WF S512x85742 S512x2 S512 [] [0, 1] [0, 1] 1
  gather_S512x85742_S512x2_S512_n_01_n_n_01_1_11_wf : GatherDims.WF S512x85742 S512x2 S512 [] [0, 1] [] [0, 1] [] 1 ![1, 1]

variable [Facts₀]

def dot_S512x512_S85742x512_S512x85742_1_1_0_0_n_n : DotDims S512x512 S85742x512 S512x85742 where
  lhsContracting := [1]
  rhsContracting := [1]
  lhsNonContracting := [0]
  rhsNonContracting := [0]
  lhsBatch := []
  rhsBatch := []
  wf := dot_S512x512_S85742x512_S512x85742_1_1_0_0_n_n_wf
def gather_S4_S512x1_S512_n_0_n_n_0_1_1 : GatherDims S4 S512x1 S512 where
  offsetDims := []
  collapsedSliceDims := [0]
  operandBatchingDims := []
  startIndicesBatchingDims := []
  startIndexMap := [0]
  indexVectorDim := 1
  sliceSizes := ![1]
  wf := gather_S4_S512x1_S512_n_0_n_n_0_1_1_wf
def scatter_S512x85742_S512x2_S512_n_01_01_1 : ScatterDims S512x85742 S512x2 S512 where
  updateWindowDims := []
  insertedWindowDims := [0, 1]
  scatterDimsToOperandDims := [0, 1]
  indexVectorDim := 1
  wf := scatter_S512x85742_S512x2_S512_n_01_01_1_wf
def gather_S512x85742_S512x2_S512_n_01_n_n_01_1_11 : GatherDims S512x85742 S512x2 S512 where
  offsetDims := []
  collapsedSliceDims := [0, 1]
  operandBatchingDims := []
  startIndicesBatchingDims := []
  startIndexMap := [0, 1]
  indexVectorDim := 1
  sliceSizes := ![1, 1]
  wf := gather_S512x85742_S512x2_S512_n_01_n_n_01_1_11_wf

class Facts : Prop extends Facts₀ where

variable [Facts]
-- ==== Proof.BitsBody.lean ====
/- The body of the word-level program's frame: relational proof data for its one pipeline (six windows, two scratch
   buffers carried across the 22 grid points), the kernel function's triple on any whole memrefs at any grid
   coordinates (the two conditionals on the coordinates decided case by case; nothing the body computes is named),
   and from it the body obligation at every point. Stated at any float family. -/
import proofs.«421507_j48103633715511_2_alg».proof.Proof.Gen.Kernel.Frame
import proofs.«421507_j48103633715511_2_alg».proof.Proof.Gen.Kernel.Skeleton

set_option maxRecDepth 16384

noncomputable section

namespace Cert.BitsFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data of the one pipeline on core `c`: the arrays as the region finds them; the inputs
    the body reads again at later points that do not fetch them (windows 0, 2, 3) are left as found; of window 1
    (fetched at every point) and of the two outputs nothing is said; the invariant is the class's (the two
    scratch buffers at some contents, the generator register at some state); nothing owed; full shares. -/
def rdat (c : Dev nD) : RDat τ (Elt F) Unit ℕ (UR sig nD τ) ℕ cfg0 c where
  A w := V m c (Pipeline.arrRef spec0 w)
  after w _ Y X := match w with
    | ⟨0, _⟩ => X = Y
    | ⟨2, _⟩ => X = Y
    | ⟨3, _⟩ => X = Y
    | _ => True
  Φ _ := Pipeline.ΦA spec0 c
  q _ := fullShare
  owed _ := 0

/-- The condition of the body's first `scf.if` (the reset of the two scratch buffers), from the grid coordinates. -/
abbrev cond1 (i : grid0.Coords) : Prop :=
  (Scalar.cmpi .ne (Scalar.extui (Scalar.cmpi .eq (BitVec.ofNat 32 (i 1).val) 0#32)) 0#32) = 1#1
/-- The condition of its second (the copy of the scratch buffers to the outputs' buffers). -/
abbrev cond2 (i : grid0.Coords) : Prop := k0_cond2 i = 1#1

/-- THE BODY's triple at grid coordinates `i`, on any whole memrefs: from the four input buffers at any contents and
    the two output buffers and the two scratch buffers at some contents, the kernel function runs and hands back
    the inputs as they were and the other four at some contents. -/
def KernelTriple (c : Dev nD) (i : grid0.Coords) : Prop :=
  ∀ (arg2 : Memref sig .tc .vmem S512x512 .bf16) (harg2 : arg2.IsWhole) (arg3 : Memref sig .tc .vmem S4080x512 .f32) (harg3 : arg3.IsWhole)
    (arg4 : Memref sig .tc .vmem S512x1 .i32) (harg4 : arg4.IsWhole) (arg5 : Memref sig .tc .vmem S512x1 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S512x1 .f32) (harg8 : arg8.IsWhole) (arg9 : Memref sig .tc .vmem S512x1 .f32) (harg9 : arg9.IsWhole)
    (x0 : Vec F S512x512 .bf16) (x1 : Vec F S4080x512 .f32) (x2 : Vec F S512x1 .i32) (x3 : Vec F S512x1 .f32)
    (E : Set ℕ) (K : PUnit → sProp 𝕄),
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)) -∗ K ⟨⟩))
      ⊢ wp frame (wpE (defs₀ (F := F)) Variants.none c none) E
          (cc0__main_kernel i arg2 harg2 arg3 harg3 arg4 harg4 arg5 harg5 arg6 harg6 arg7 harg7 arg8 harg8 arg9 harg9) K

/-- At the first tile of a run (the scratch buffers reset, nothing copied out) the body runs, each conditional decided by the case's hypotheses. -/
theorem kernel_first (c : Dev nD) (i : grid0.Coords) (h1 : cond1 i) (h2 : ¬cond2 i) : KernelTriple (F := F) c i := by
  unfold KernelTriple
  intro arg2 harg2 arg3 harg3 arg4 harg4 arg5 harg5 arg6 harg6 arg7 harg7 arg8 harg8 arg9 harg9 x0 x1 x2 x3 E K
  simp only [cc0__main_kernel_eq_skeleton]; unfold cc0__main_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; iexists _; isplitr
    swap; · iexact H4
    ipureintro; rfl
  isplitl [H5]
  · iexists _; iexists _; isplitr
    swap; · iexact H5
    ipureintro; rfl
  isplitl [H8]
  · iexists _; iexists _; isplitr
    swap; · iexact H8
    ipureintro; rfl
  iexists _; iexists _; isplitr
  swap; · iexact H9
  ipureintro; rfl

/-- At a middle tile (no reset, nothing copied out). -/
theorem kernel_middle (c : Dev nD) (i : grid0.Coords) (h1 : ¬cond1 i) (h2 : ¬cond2 i) : KernelTriple (F := F) c i := by
  unfold KernelTriple
  intro arg2 harg2 arg3 harg3 arg4 harg4 arg5 harg5 arg6 harg6 arg7 harg7 arg8 harg8 arg9 harg9 x0 x1 x2 x3 E K
  simp only [cc0__main_kernel_eq_skeleton]; unfold cc0__main_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; iexists _; isplitr
    swap; · iexact H4
    ipureintro; rfl
  isplitl [H5]
  · iexists _; iexists _; isplitr
    swap; · iexact H5
    ipureintro; rfl
  isplitl [H8]
  · iexists _; iexists _; isplitr
    swap; · iexact H8
    ipureintro; rfl
  iexists _; iexists _; isplitr
  swap; · iexact H9
  ipureintro; rfl

/-- At the last tile of a run (no reset, the scratch buffers copied to the outputs' buffers). -/
theorem kernel_last (c : Dev nD) (i : grid0.Coords) (h1 : ¬cond1 i) (h2 : cond2 i) : KernelTriple (F := F) c i := by
  unfold KernelTriple
  intro arg2 harg2 arg3 harg3 arg4 harg4 arg5 harg5 arg6 harg6 arg7 harg7 arg8 harg8 arg9 harg9 x0 x1 x2 x3 E K
  simp only [cc0__main_kernel_eq_skeleton]; unfold cc0__main_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; iexists _; isplitr
    swap; · iexact H4
    ipureintro; rfl
  isplitl [H5]
  · iexists _; iexists _; isplitr
    swap; · iexact H5
    ipureintro; rfl
  isplitl [H8]
  · iexists _; iexists _; isplitr
    swap; · iexact H8
    ipureintro; rfl
  iexists _; iexists _; isplitr
  swap; · iexact H9
  ipureintro; rfl

/-- Both conditions (no point of this grid meets them together; the body runs all the same). -/
theorem kernel_both (c : Dev nD) (i : grid0.Coords) (h1 : cond1 i) (h2 : cond2 i) : KernelTriple (F := F) c i := by
  unfold KernelTriple
  intro arg2 harg2 arg3 harg3 arg4 harg4 arg5 harg5 arg6 harg6 arg7 harg7 arg8 harg8 arg9 harg9 x0 x1 x2 x3 E K
  simp only [cc0__main_kernel_eq_skeleton]; unfold cc0__main_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; iexists _; isplitr
    swap; · iexact H4
    ipureintro; rfl
  isplitl [H5]
  · iexists _; iexists _; isplitr
    swap; · iexact H5
    ipureintro; rfl
  isplitl [H8]
  · iexists _; iexists _; isplitr
    swap; · iexact H8
    ipureintro; rfl
  iexists _; iexists _; isplitr
  swap; · iexact H9
  ipureintro; rfl

/-- The body's triple at every grid coordinate: the two conditions decided either way. -/
theorem sound_kernel (c : Dev nD) (i : grid0.Coords) : KernelTriple (F := F) c i := by
  by_cases h1 : cond1 i <;> by_cases h2 : cond2 i
  · exact kernel_both c i h1 h2
  · exact kernel_first c i h1 h2
  · exact kernel_last c i h1 h2
  · exact kernel_middle c i h1 h2

/-- The class's invariant with the two scratch operands as memrefs owned at some contents. -/
theorem PhiA0_eq (c : Dev nD) :
    (Pipeline.ΦA spec0 c : sProp 𝕄)
      = iprop(iprop((∃ d, owns (c : Thread nD τ) (Memref.whole cc0_scratch0 : Memref sig .tc .vmem S512x1 .f32) fullShare d)
          ∗ (∃ d, owns (c : Thread nD τ) (Memref.whole cc0_scratch1 : Memref sig .tc .vmem S512x1 .f32) fullShare d)) ∗ (∃ r, prngReg c r)) := by
  unfold Pipeline.ΦA; rw [scopedRest0_eq]; simp only [owns_whole]; try rfl

/-- What the body is called with at point `t`, the windows one by one, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3)
    ∗ owns (c : Thread nD τ) (st0_4 t) fullShare (Y 4) ∗ owns (c : Thread nD τ) (st0_5 t) fullShare (Y 5))

/-- and what it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X))

/-- The body at any point: the invariant hands the run the two scratch buffers at some contents and the generator
    register, and takes them back at some contents; the inputs come back as they were; the core owes nothing
    throughout. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).owesAt () t.succ = (rdat m c).owesAt () t.castSucc from rfl]
  rw [show (rdat m c).Φ t.succ = Pipeline.ΦA spec0 c from rfl, show (rdat m c).Φ t.castSucc = Pipeline.ΦA spec0 c from rfl, PhiA0_eq]
  iintro ⟨⟨⟨HS0, HS1⟩, Hg⟩, Ho, H0, H1, H2, H3, H4, H5⟩
  iapply (sound_kernel c (grid0.coords t) _ _ _ _ _ _ _ _ _ _ _ _ _ _ _ _ (Y 0) (Y 1) (Y 2) (Y 3) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  iintro ⟨H0, H1, H2, H3, ⟨%X4, H4⟩, ⟨%X5, H5⟩, HS0, HS1⟩
  isplitl [HS0 HS1 Hg]
  · isplitl [HS0 HS1]
    · isplitl [HS0]; · iexact HS0
      iexact HS1
    iexact Hg
  isplitl [Ho]; · iexact Ho
  isplitl [H0]
  · iexists (Y 0); isplitr; · ipureintro; exact rfl
    iexact H0
  isplitl [H1]
  · iexists (Y 1); isplitr; · ipureintro; exact trivial
    iexact H1
  isplitl [H2]
  · iexists (Y 2); isplitr; · ipureintro; exact rfl
    iexact H2
  isplitl [H3]
  · iexists (Y 3); isplitr; · ipureintro; exact rfl
    iexact H3
  isplitl [H4]
  · iexists X4; isplitr; · ipureintro; exact trivial
    iexact H4
  iexists X5; isplitr; · ipureintro; exact trivial
  iexact H5

/-- The library's body obligation, at every point. -/
theorem body_obligation (c : Dev nD) : (rdat (F := F) m c).BodyObligation (defs₀ (F := F)) Variants.none () Set.univ := fun t Y _ => by
  rw [bigSep_W0, bigSep_W0]
  exact sound_body m c t Y

/-- The proof data's arrays are the region-entry contents. -/
theorem A_eq (c : Dev nD) (w : Fin cfg0.W) : (rdat m c).A w = V m c (Pipeline.arrRef spec0 w) := by
  dsimp only [rdat]

/-- Every array is held at the full share. -/
theorem share_eq (c : Dev nD) (w : Fin cfg0.W) : (rdat m c).share w = fullShare := by
  unfold RDat.share; split <;> rfl

end Cert.BitsFrame

end
-- ==== Proof.BitsFrame.lean ====
/- The frame of the word-level program: the run of @main — host lines, the one region, host lines — to a post that has
   every windowed array at contents the relational data allow and every other unscoped buffer the later host lines do
   not write as the region found it; read at the five argument arrays, each ends as launched. -/
import proofs.«421507_j48103633715511_2_alg».proof.Proof.BitsBody
import Idealize.ShloMosaic.PureOps.BitExact

set_option maxRecDepth 16384

noncomputable section

namespace Cert.BitsFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the region write none of the arguments that no window stages -/

/-- No host operation after the region writes `main_arg0`. -/
theorem tail_keeps_arg0 : ∀ op ∈ (List.flatten [hostOps1, hostOps1_1, hostOps1_2] : List (HloOp τ sig (Elt F))), Proc.devRef .tc main_arg0 ∉ op.writes :=
  List.forall_iff_forall_mem.mp (by
    simp only [hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation after the region writes `main_arg1`. -/
theorem tail_keeps_arg1 : ∀ op ∈ (List.flatten [hostOps1, hostOps1_1, hostOps1_2] : List (HloOp τ sig (Elt F))), Proc.devRef .tc main_arg1 ∉ op.writes :=
  List.forall_iff_forall_mem.mp (by
    simp only [hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation after the region writes `main_arg2`. -/
theorem tail_keeps_arg2 : ∀ op ∈ (List.flatten [hostOps1, hostOps1_1, hostOps1_2] : List (HloOp τ sig (Elt F))), Proc.devRef .tc main_arg2 ∉ op.writes :=
  List.forall_iff_forall_mem.mp (by
    simp only [hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation after the region writes `main_arg4`. -/
theorem tail_keeps_arg4 : ∀ op ∈ (List.flatten [hostOps1, hostOps1_1, hostOps1_2] : List (HloOp τ sig (Elt F))), Proc.devRef .tc main_arg4 ∉ op.writes :=
  List.forall_iff_forall_mem.mp (by
    simp only [hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- The buffers the host lines after the region may write: every TensorCore buffer but the four arguments that
    no window stages. -/
def T : Finset (Ref sig .tc) :=
  Finset.univ.filter fun b : Ref sig .tc => b ≠ main_arg0 ∧ b ≠ main_arg1 ∧ b ≠ main_arg2 ∧ b ≠ main_arg4

/-- Each buffer a host line after the region writes is in `T`. -/
theorem tail_writes_T : ∀ ops ∈ ([hostOps1, hostOps1_1, hostOps1_2] : List (List (HloOp τ sig (Elt F)))), ∀ op ∈ ops,
    ∀ b : Ref sig .tc, Proc.devRef .tc b ∈ op.writes → b ∈ T := by
  intro ops hops op hop b hb
  have hmem : op ∈ (List.flatten [hostOps1, hostOps1_1, hostOps1_2] : List (HloOp τ sig (Elt F))) :=
    List.mem_flatten.mpr ⟨ops, hops, hop⟩
  unfold T
  rw [Finset.mem_filter]
  refine ⟨Finset.mem_univ _, ?_, ?_, ?_, ?_⟩
  · rintro rfl; exact tail_keeps_arg0 op hmem hb
  · rintro rfl; exact tail_keeps_arg1 op hmem hb
  · rintro rfl; exact tail_keeps_arg2 op hmem hb
  · rintro rfl; exact tail_keeps_arg4 op hmem hb

theorem arg0_mem : main_arg0 ∈ Pipeline.restRefs sig spec0 \ T :=
  Finset.mem_sdiff.mpr ⟨Pipeline.mem_restRefs_of main_arg0 (by decide) (by decide), fun h => (Finset.mem_filter.mp h).2.1 rfl⟩
theorem arg1_mem : main_arg1 ∈ Pipeline.restRefs sig spec0 \ T :=
  Finset.mem_sdiff.mpr ⟨Pipeline.mem_restRefs_of main_arg1 (by decide) (by decide), fun h => (Finset.mem_filter.mp h).2.2.1 rfl⟩
theorem arg2_mem : main_arg2 ∈ Pipeline.restRefs sig spec0 \ T :=
  Finset.mem_sdiff.mpr ⟨Pipeline.mem_restRefs_of main_arg2 (by decide) (by decide), fun h => (Finset.mem_filter.mp h).2.2.2.1 rfl⟩
theorem arg4_mem : main_arg4 ∈ Pipeline.restRefs sig spec0 \ T :=
  Finset.mem_sdiff.mpr ⟨Pipeline.mem_restRefs_of main_arg4 (by decide) (by decide), fun h => (Finset.mem_filter.mp h).2.2.2.2 rfl⟩

/-! ## The run and the frame -/

set_option backward.isDefEq.respectTransparency.types false in
/-- At the compiled mesh, for any values, from any memory with zero counters: every weakly fair execution of @main on
    the TensorCores terminates, and every final state has every array of the pipeline at some contents the relational
    data allow after every write-back and every other unscoped buffer the later host lines do not write at its
    region-entry contents. -/
theorem run_main : θ_run defs (onTc (τ := τ) (main (F := F))) (s₀ m ρ)
    (RDat.FramePostR cfg0 (rdat m) T (fun c b => V0 m c (Proc.devRef .tc b))) :=
  Pipeline.RDat.θ_run_frame_around_T cfgs (0 : Fin 1) launch0 defs₀ Variants.none (rdat m) T m ρ main
    (hbody := body_obligation m) (hshare := share_eq m) (howed := fun _ _ => rfl) (V₀ := V0 m)
    (opss := [hostOps1, hostOps1_1, hostOps1_2]) (hsub := sfx_sub) (hfresh := sfx_fresh) (hkeep := sfx_keeps)
    (hT := tail_writes_T) (hmain := hmain m Variants.none) (hA := A_eq m) (hΦ := fun _ _ => rfl)

/-- THE FRAME at any `F`: the program runs and its five argument arrays end unchanged — the weights' array, an
    input window's, by the relational data (an input array is never written), the other four by the post's second
    clause, each then as launched (no host line before the region writes it). -/
theorem frame_gen : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 arg0_mem).trans (V_main_arg0 m c),
      ((h c).2 main_arg1 arg1_mem).trans (V_main_arg1 m c),
      ((h c).2 main_arg2 arg2_mem).trans (V_main_arg2 m c),
      (RDat.FramePostR.arr_in h c 1 rfl).trans ((A_eq m c 1).trans (V_main_arg3 m c)),
      ((h c).2 main_arg4 arg4_mem).trans (V_main_arg4 m c)⟩) (run_main m ρ)

/-- THE FRAME of the word-level program: from any memory, `Cert.Kernel` runs and keeps its five arguments. -/
theorem frame (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)) :=
  frame_gen (F := Bits) m ρ

end Cert.BitsFrame

end
-- ==== Proof.Spec.lean ====
/-
  The mathematics both programs compute, as plain functions of index families over the extended reals.

  A sample's features are divided by their Euclidean norm clamped below by a small word; a class's weight row likewise; the
  cosine of sample n against class j is the sum over the 512 features of the products; the logit is 64 times the cosine, the
  sample's margin subtracted in the column of the sample's label. The loss of a row is the logarithm of the sum over all 85742
  classes of the exponentials of its logits, minus the logit in the label's column; the result is the mean row loss minus one
  hundred times the mean of the four exponentiated margins.

  The kernel walks the classes in 22 tiles of 4080 columns, two runs of 11 tiles, keeping for each row a running maximum and a
  running sum of exponentials shifted by it; the columns of the last tile past class 85741 hold bottom, whose exponential is zero.
  The reference shifts every logit by the row's maximum over all classes. Both are stated here in their own arithmetic, and a
  third, plain form over the reals is what each is shown equal to.
-/
import Idealize.ShloMosaic.PureOps.Ideal
import Idealize.ShloMosaic.PureOps.Ideal.Laws

noncomputable section

namespace Cert.Spec

open Idealize.ShloMosaic

/-- The word both programs clamp a norm below by. -/
def eps : EReal := Ideal.ofBits .f32 0x2B8CBCCC#32
/-- The logit scale, the word for 64. -/
def scale : EReal := Ideal.ofBits .f32 0x42800000#32
/-- The words for 512, 4 and 100 of the two means and the regulariser. -/
def c512 : EReal := Ideal.ofBits .f32 0x44000000#32
def c4 : EReal := Ideal.ofBits .f32 0x40800000#32
def c100 : EReal := Ideal.ofBits .f32 0x42C80000#32

/-- Row r of a divided by its Euclidean norm, the norm clamped below by eps. -/
def normRow {R : ℕ} (a : Fin R → Fin 512 → EReal) (r : Fin R) (k : Fin 512) : EReal :=
  Ideal.div (a r k) (max (Ideal.sqrt (∑ k' : Fin 512, a r k' * a r k')) eps)

/-- The cosine of sample n, its row xn n already normalised, against class j. -/
def cosine (xn : Fin 512 → Fin 512 → EReal) (w : Fin 85742 → Fin 512 → EReal) (n : Fin 512) (j : Fin 85742) : EReal :=
  ∑ k : Fin 512, xn n k * normRow w j k

/-- The scaled logit: the margin mg n comes off in the column whose number, as a 32-bit word, is the label word lab n. -/
def logit (xn : Fin 512 → Fin 512 → EReal) (w : Fin 85742 → Fin 512 → EReal) (lab : Fin 512 → BitVec 32)
    (mg : Fin 512 → EReal) (n : Fin 512) (j : Fin 85742) : EReal :=
  scale * (if BitVec.ofNat 32 j.val = lab n then cosine xn w n j - mg n else cosine xn w n j)

/-- Tile g of a row of s: its 4080 columns g*4080 .. g*4080+4079, bottom past the last class. -/
def tile (s : Fin 512 → Fin 85742 → EReal) (g : ℕ) (n : Fin 512) (q : Fin 4080) : EReal :=
  if h : g * 4080 + q.val < 85742 then s n ⟨g * 4080 + q.val, h⟩ else ⊥

/-- One step of the running maximum over a tile v. -/
def stepM (v : Fin 512 → Fin 4080 → EReal) (M : Fin 512 → EReal) (n : Fin 512) : EReal :=
  max (M n) ((Finset.univ : Finset (Fin 4080)).fold max ⊥ (v n))

/-- One step of the running sum of shifted exponentials over a tile v. -/
def stepL (v : Fin 512 → Fin 4080 → EReal) (M L : Fin 512 → EReal) (n : Fin 512) : EReal :=
  Ideal.exp (M n - stepM v M n) * L n + ∑ q : Fin 4080, Ideal.exp (v n q - stepM v M n)

/-- The running maximum and sum of run c0 (tiles 11*c0 .. 11*c0+10) after its first k tiles, from bottom and zero. -/
def mlAt (s : Fin 512 → Fin 85742 → EReal) (c0 : ℕ) : ℕ → (Fin 512 → EReal) × (Fin 512 → EReal)
  | 0 => (fun _ => ⊥, fun _ => 0)
  | k + 1 => (stepM (tile s (11 * c0 + k)) (mlAt s c0 k).1, stepL (tile s (11 * c0 + k)) (mlAt s c0 k).1 (mlAt s c0 k).2)

/-- Two runs' maxima and sums joined: the larger maximum plus the logarithm of the sums rescaled to it. -/
def lse2 (m0 m1 l0 l1 : EReal) : EReal :=
  max m0 m1 + Ideal.log (l0 * Ideal.exp (m0 - max m0 m1) + l1 * Ideal.exp (m1 - max m0 m1))

/-- The kernel's logarithm of a row's sum of exponentials. -/
def klse (s : Fin 512 → Fin 85742 → EReal) (n : Fin 512) : EReal :=
  lse2 ((mlAt s 0 11).1 n) ((mlAt s 1 11).1 n) ((mlAt s 0 11).2 n) ((mlAt s 1 11).2 n)

/-- The kernel's result: the mean over the rows of (log-sum-exp minus the label's logit tl n), less the regulariser. -/
def kloss (s : Fin 512 → Fin 85742 → EReal) (tl : Fin 512 → EReal) (temp : Fin 4 → EReal) : EReal :=
  Ideal.div (∑ n : Fin 512, (klse s n - tl n)) c512 - c100 * Ideal.div (∑ d : Fin 4, temp d) c4

/-- The reference's row maximum (a fold of max from bottom, joined with bottom once more). -/
def rmax (s : Fin 512 → Fin 85742 → EReal) (n : Fin 512) : EReal :=
  max ⊥ ((Finset.univ : Finset (Fin 85742)).fold max ⊥ (s n))

/-- The reference's log-softmax of row n at column j. -/
def rlogp (s : Fin 512 → Fin 85742 → EReal) (n : Fin 512) (j : Fin 85742) : EReal :=
  (s n j - rmax s n) - Ideal.log (∑ j' : Fin 85742, Ideal.exp (s n j' - rmax s n))

/-- The reference's result: minus the mean of the log-softmax at the labels lb, less the regulariser. -/
def rloss (s : Fin 512 → Fin 85742 → EReal) (lb : Fin 512 → Fin 85742) (temp : Fin 4 → EReal) : EReal :=
  -(Ideal.div (∑ n : Fin 512, rlogp s n (lb n)) c512) - c100 * Ideal.div (∑ d : Fin 4, temp d) c4

end Cert.Spec

end
-- ==== Proof.KDefs.lean ====
/-
  The arrays the kernel region finds, as index families: the normalised samples, the class weights, the label words and the
  per-sample margins; and the scaled logits they determine.
-/
import proofs.«421507_j48103633715511_2_alg».proof.Proof.Spec
import proofs.«421507_j48103633715511_2_alg».proof.Proof.Gen.KernelIdeal.Frame
import Idealize.ShloMosaic.Lib.ValueIdx

noncomputable section

namespace Cert.KDefs

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- The samples the region stages (window 0's array): sample n, feature k. -/
def xnK (c : Dev nD) (n k : Fin 512) : EReal := (Gen.V m c main_v5 : S512x512.Idx → EReal) (ix2 n k)
/-- The class weights (window 1's array): class j, feature k. -/
def wK (c : Dev nD) (j : Fin 85742) (k : Fin 512) : EReal := (Gen.V m c main_arg3 : S85742x512.Idx → EReal) (ix2 j k)
/-- The label words (window 2's array, a column). -/
def labK (c : Dev nD) (n : Fin 512) : BitVec 32 := (Gen.V m c main_v15 : S512x1.Idx → BitVec 32) (ix2 n 0)
/-- The per-sample margins (window 3's array, a column). -/
def mgK (c : Dev nD) (n : Fin 512) : EReal := (Gen.V m c main_v14 : S512x1.Idx → EReal) (ix2 n 0)
/-- The scaled logits of the arrays the region finds. -/
def SK (c : Dev nD) : Fin 512 → Fin 85742 → EReal := Cert.Spec.logit (xnK m c) (wK m c) (labK m c) (mgK m c)

end Cert.KDefs

end
-- ==== Proof.IdealBody.lean ====
/-
  The kernel body as one step on its buffers: the four input buffers are left as found; the two scratch columns move from
  (M, L) to the running maximum and sum over the staged tile, restarted from (bottom, 0) at the first tile of a run; the two
  output buffers receive the scratch columns at the last tile of a run and are left as found elsewhere.
-/
import proofs.«421507_j48103633715511_2_alg».proof.Proof.Gen.KernelIdeal.Frame
import proofs.«421507_j48103633715511_2_alg».proof.Proof.Gen.KernelIdeal.Skeleton
import Idealize.ShloMosaic.Lib.Pipeline.Kit
import Idealize.ShloMosaic.Lib.Tactic
import Idealize.ShloMosaic.Lib.Pipeline.Value

noncomputable section

namespace Cert.IdealBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The kernel's variants: none. -/
abbrev 𝒱₀ : Variants := Variants.none

/-- The running-maximum column the step starts from: bottom at the first tile of a run. -/
def m0 (i : grid0.Coords) (M : S512x1.Idx → Elt F .f32) : S512x1.Idx → Elt F .f32 :=
  if (i 1).val = 0 then k0_pay6 (F := F) else M
/-- The running-sum column the step starts from: zero at the first tile of a run. -/
def l0 (i : grid0.Coords) (L : S512x1.Idx → Elt F .f32) : S512x1.Idx → Elt F .f32 :=
  if (i 1).val = 0 then k0_pay7 (F := F) else L
/-- The running maximum after the tile staged at point i. -/
def newM (i : grid0.Coords) (X1 : S4080x512.Idx → Elt F .f32) (X0 : S512x512.Idx → Elt F .bf16) (X2 : S512x1.Idx → Elt F .i32)
    (X3 : S512x1.Idx → Elt F .f32) (M : S512x1.Idx → Elt F .f32) : S512x1.Idx → Elt F .f32 :=
  k0_pay3 (k0_pay8 i X1 X0 X2 X3) (m0 i M)
/-- The running sum after the tile staged at point i. -/
def newL (i : grid0.Coords) (X1 : S4080x512.Idx → Elt F .f32) (X0 : S512x512.Idx → Elt F .bf16) (X2 : S512x1.Idx → Elt F .i32)
    (X3 : S512x1.Idx → Elt F .f32) (M L : S512x1.Idx → Elt F .f32) : S512x1.Idx → Elt F .f32 :=
  k0_pay2 (k0_pay8 i X1 X0 X2 X3) (m0 i M) (l0 i L)

/-- The first branch's printed condition, computed from the tile coordinate as 32-bit words, holds exactly at the first tile of a
    run: the coordinate is below 11, so its word is zero only when it is. -/
theorem cond1_iff (i : grid0.Coords) :
    (Scalar.cmpi .ne (Scalar.extui (Scalar.cmpi .eq (BitVec.ofNat 32 (i 1).val) 0#32)) 0#32 = 1#1) ↔ (i 1).val = 0 := by
  have h : (i 1).val < 11 := (i 1).isLt
  generalize (i 1).val = n at h ⊢
  interval_cases n <;> decide

/-! ## Whole-buffer accesses

Every access of the body is of a whole buffer: the rectangle at zero offsets of the buffer's own sizes. A load through it reads
the contents; a store through it, last, leaves its payload whatever came before; a load after such a store reads the payload. -/

/-- The zero offsets of a rank-2 and of a rank-3 whole-buffer access, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

section Whole

variable {Val : EltTy → Type} [∀ e, Nonempty (Val e)] {sg : RefSig} {κ : Kind} {sp : Space} {S : Shape} {e : EltTy}

/-- A buffer whose last store was of its whole shape reads that store's payload, whatever was stored or held before. -/
theorem read_writes_unit_zero (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero h inb y⟩),
    View.canon_cons_unit_zero h]

/-- A load of the whole shape after such a store reads the payload too. -/
theorem readCov_cons_unit_zero (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

end Whole

/-! ## The four cases

In each case the two branch conditions are known, the body is a straight line of whole-buffer loads and stores, and what each
buffer ends holding is the payload of its last store, the loads in between reading the contents found or the payload just stored. -/

/-- The body at a tile neither first nor last of its run: the scratch columns step from (M, L); the outputs are left as found. -/
theorem body_nn (i : grid0.Coords) (h1 : ¬ (i 1).val = 0) (h2 : ¬ k0_cond2 i = 1#1) (c : Dev nD) (E : Set ℕ) (s0 : Fin 1) (s1 : Fin 2) (s2 s3 : Fin 1) (s4 s5 : Fin 2)
    (X0 : S512x512.Idx → Elt F .bf16) (X1 : S4080x512.Idx → Elt F .f32) (X2 : S512x1.Idx → Elt F .i32) (X3 : S512x1.Idx → Elt F .f32)
    (X4 X5 : S1x512x1.Idx → Elt F .f32) (M L : S512x1.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4 ∗ owns (c : Thread nD τ) (stage0_5 s5) fullShare X5
            ∗ owns (c : Thread nD τ) (Memref.whole cc0_scratch0) fullShare M ∗ owns (c : Thread nD τ) (Memref.whole cc0_scratch1) fullShare L)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare X3
                  ∗ owns (c : Thread nD τ) (stage0_4 s4) fullShare (if k0_cond2 i = 1#1 then k0_pay4 (newM i X1 X0 X2 X3 M) else X4)
                  ∗ owns (c : Thread nD τ) (stage0_5 s5) fullShare (if k0_cond2 i = 1#1 then k0_pay5 (newL i X1 X0 X2 X3 M L) else X5)
                  ∗ owns (c : Thread nD τ) (Memref.whole cc0_scratch0) fullShare (newM i X1 X0 X2 X3 M)
                  ∗ owns (c : Thread nD τ) (Memref.whole cc0_scratch1) fullShare (newL i X1 X0 X2 X3 M L)) -∗ K ⟨⟩))
      ⊢ wp frame (wpE (defs₀ (F := F)) 𝒱₀ c none) E
          (cc0__main_kernel i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5)
            (Memref.whole cc0_scratch0) (Memref.isWhole_whole _) (Memref.whole cc0_scratch1) (Memref.isWhole_whole _)) K := by
  have hc1 : ¬ (Scalar.cmpi .ne (Scalar.extui (Scalar.cmpi .eq (BitVec.ofNat 32 (i 1).val) 0#32)) 0#32 = 1#1) :=
    fun h => h1 ((cond1_iff i).mp h)
  simp only [if_neg h2]
  unfold newM newL m0 l0
  simp only [if_neg h1]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩⟩, Hk⟩
  subst hf0 hf1 hf2 hf3 hf4 hf5 hf8 hf9
  sl_unfold [cc0__main_kernel, k0_part1]
  sl_exec (disch := first | exact hc1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr; swap; · iexact H8
    ipureintro; sl_unfold_words
    simp only [read_writes_unit_zero (S := S512x1) _ _ hz2, read_writes_unit_zero (S := S1x512x1) _ _ hz3,
      readCov_cons_unit_zero (S := S512x1) _ hz2, View.readAt_eq_ld,
      View.ld_unit_zero (S := S512x1) hz2, View.ld_unit_zero (S := S4080x512) hz2, View.ld_unit_zero (S := S512x512) hz2]
  · iexists _; isplitr; swap; · iexact H9
    ipureintro; sl_unfold_words
    simp only [read_writes_unit_zero (S := S512x1) _ _ hz2, read_writes_unit_zero (S := S1x512x1) _ _ hz3,
      readCov_cons_unit_zero (S := S512x1) _ hz2, View.readAt_eq_ld,
      View.ld_unit_zero (S := S512x1) hz2, View.ld_unit_zero (S := S4080x512) hz2, View.ld_unit_zero (S := S512x512) hz2]

/-- The body at the first tile of a run, not the last: the scratch columns restart from (bottom, 0) and step; the outputs are left
    as found. -/
theorem body_pn (i : grid0.Coords) (h1 : (i 1).val = 0) (h2 : ¬ k0_cond2 i = 1#1) (c : Dev nD) (E : Set ℕ) (s0 : Fin 1) (s1 : Fin 2) (s2 s3 : Fin 1) (s4 s5 : Fin 2)
    (X0 : S512x512.Idx → Elt F .bf16) (X1 : S4080x512.Idx → Elt F .f32) (X2 : S512x1.Idx → Elt F .i32) (X3 : S512x1.Idx → Elt F .f32)
    (X4 X5 : S1x512x1.Idx → Elt F .f32) (M L : S512x1.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4 ∗ owns (c : Thread nD τ) (stage0_5 s5) fullShare X5
            ∗ owns (c : Thread nD τ) (Memref.whole cc0_scratch0) fullShare M ∗ owns (c : Thread nD τ) (Memref.whole cc0_scratch1) fullShare L)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare X3
                  ∗ owns (c : Thread nD τ) (stage0_4 s4) fullShare (if k0_cond2 i = 1#1 then k0_pay4 (newM i X1 X0 X2 X3 M) else X4)
                  ∗ owns (c : Thread nD τ) (stage0_5 s5) fullShare (if k0_cond2 i = 1#1 then k0_pay5 (newL i X1 X0 X2 X3 M L) else X5)
                  ∗ owns (c : Thread nD τ) (Memref.whole cc0_scratch0) fullShare (newM i X1 X0 X2 X3 M)
                  ∗ owns (c : Thread nD τ) (Memref.whole cc0_scratch1) fullShare (newL i X1 X0 X2 X3 M L)) -∗ K ⟨⟩))
      ⊢ wp frame (wpE (defs₀ (F := F)) 𝒱₀ c none) E
          (cc0__main_kernel i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5)
            (Memref.whole cc0_scratch0) (Memref.isWhole_whole _) (Memref.whole cc0_scratch1) (Memref.isWhole_whole _)) K := by
  have hc1 : (Scalar.cmpi .ne (Scalar.extui (Scalar.cmpi .eq (BitVec.ofNat 32 (i 1).val) 0#32)) 0#32 = 1#1) :=
    (cond1_iff i).mpr h1
  simp only [if_neg h2]
  unfold newM newL m0 l0
  simp only [if_pos h1]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩⟩, Hk⟩
  subst hf0 hf1 hf2 hf3 hf4 hf5 hf8 hf9
  sl_unfold [cc0__main_kernel, k0_part1]
  sl_exec (disch := first | exact hc1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr; swap; · iexact H8
    ipureintro; sl_unfold_words
    simp only [read_writes_unit_zero (S := S512x1) _ _ hz2, read_writes_unit_zero (S := S1x512x1) _ _ hz3,
      readCov_cons_unit_zero (S := S512x1) _ hz2, View.readAt_eq_ld,
      View.ld_unit_zero (S := S512x1) hz2, View.ld_unit_zero (S := S4080x512) hz2, View.ld_unit_zero (S := S512x512) hz2]
  · iexists _; isplitr; swap; · iexact H9
    ipureintro; sl_unfold_words
    simp only [read_writes_unit_zero (S := S512x1) _ _ hz2, read_writes_unit_zero (S := S1x512x1) _ _ hz3,
      readCov_cons_unit_zero (S := S512x1) _ hz2, View.readAt_eq_ld,
      View.ld_unit_zero (S := S512x1) hz2, View.ld_unit_zero (S := S4080x512) hz2, View.ld_unit_zero (S := S512x512) hz2]

/-- The body at the last tile of a run, not the first: the scratch columns step from (M, L) and the outputs receive them. -/
theorem body_np (i : grid0.Coords) (h1 : ¬ (i 1).val = 0) (h2 : k0_cond2 i = 1#1) (c : Dev nD) (E : Set ℕ) (s0 : Fin 1) (s1 : Fin 2) (s2 s3 : Fin 1) (s4 s5 : Fin 2)
    (X0 : S512x512.Idx → Elt F .bf16) (X1 : S4080x512.Idx → Elt F .f32) (X2 : S512x1.Idx → Elt F .i32) (X3 : S512x1.Idx → Elt F .f32)
    (X4 X5 : S1x512x1.Idx → Elt F .f32) (M L : S512x1.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4 ∗ owns (c : Thread nD τ) (stage0_5 s5) fullShare X5
            ∗ owns (c : Thread nD τ) (Memref.whole cc0_scratch0) fullShare M ∗ owns (c : Thread nD τ) (Memref.whole cc0_scratch1) fullShare L)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare X3
                  ∗ owns (c : Thread nD τ) (stage0_4 s4) fullShare (if k0_cond2 i = 1#1 then k0_pay4 (newM i X1 X0 X2 X3 M) else X4)
                  ∗ owns (c : Thread nD τ) (stage0_5 s5) fullShare (if k0_cond2 i = 1#1 then k0_pay5 (newL i X1 X0 X2 X3 M L) else X5)
                  ∗ owns (c : Thread nD τ) (Memref.whole cc0_scratch0) fullShare (newM i X1 X0 X2 X3 M)
                  ∗ owns (c : Thread nD τ) (Memref.whole cc0_scratch1) fullShare (newL i X1 X0 X2 X3 M L)) -∗ K ⟨⟩))
      ⊢ wp frame (wpE (defs₀ (F := F)) 𝒱₀ c none) E
          (cc0__main_kernel i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5)
            (Memref.whole cc0_scratch0) (Memref.isWhole_whole _) (Memref.whole cc0_scratch1) (Memref.isWhole_whole _)) K := by
  have hc1 : ¬ (Scalar.cmpi .ne (Scalar.extui (Scalar.cmpi .eq (BitVec.ofNat 32 (i 1).val) 0#32)) 0#32 = 1#1) :=
    fun h => h1 ((cond1_iff i).mp h)
  simp only [if_pos h2]
  unfold newM newL m0 l0
  simp only [if_neg h1]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩⟩, Hk⟩
  subst hf0 hf1 hf2 hf3 hf4 hf5 hf8 hf9
  sl_unfold [cc0__main_kernel, k0_part1]
  sl_exec (disch := first | exact hc1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr; swap; · iexact H4
    ipureintro; sl_unfold_words
    simp only [read_writes_unit_zero (S := S512x1) _ _ hz2, read_writes_unit_zero (S := S1x512x1) _ _ hz3,
      readCov_cons_unit_zero (S := S512x1) _ hz2, View.readAt_eq_ld,
      View.ld_unit_zero (S := S512x1) hz2, View.ld_unit_zero (S := S4080x512) hz2, View.ld_unit_zero (S := S512x512) hz2]
  isplitl [H5]
  · iexists _; isplitr; swap; · iexact H5
    ipureintro; sl_unfold_words
    simp only [read_writes_unit_zero (S := S512x1) _ _ hz2, read_writes_unit_zero (S := S1x512x1) _ _ hz3,
      readCov_cons_unit_zero (S := S512x1) _ hz2, View.readAt_eq_ld,
      View.ld_unit_zero (S := S512x1) hz2, View.ld_unit_zero (S := S4080x512) hz2, View.ld_unit_zero (S := S512x512) hz2]
  isplitl [H8]
  · iexists _; isplitr; swap; · iexact H8
    ipureintro; sl_unfold_words
    simp only [read_writes_unit_zero (S := S512x1) _ _ hz2, read_writes_unit_zero (S := S1x512x1) _ _ hz3,
      readCov_cons_unit_zero (S := S512x1) _ hz2, View.readAt_eq_ld,
      View.ld_unit_zero (S := S512x1) hz2, View.ld_unit_zero (S := S4080x512) hz2, View.ld_unit_zero (S := S512x512) hz2]
  · iexists _; isplitr; swap; · iexact H9
    ipureintro; sl_unfold_words
    simp only [read_writes_unit_zero (S := S512x1) _ _ hz2, read_writes_unit_zero (S := S1x512x1) _ _ hz3,
      readCov_cons_unit_zero (S := S512x1) _ hz2, View.readAt_eq_ld,
      View.ld_unit_zero (S := S512x1) hz2, View.ld_unit_zero (S := S4080x512) hz2, View.ld_unit_zero (S := S512x512) hz2]

/-- The body at a tile both first and last of its run (no point of this grid is, the runs having eleven tiles; the statement holds
    all the same): the scratch columns restart, step, and the outputs receive them. -/
theorem body_pp (i : grid0.Coords) (h1 : (i 1).val = 0) (h2 : k0_cond2 i = 1#1) (c : Dev nD) (E : Set ℕ) (s0 : Fin 1) (s1 : Fin 2) (s2 s3 : Fin 1) (s4 s5 : Fin 2)
    (X0 : S512x512.Idx → Elt F .bf16) (X1 : S4080x512.Idx → Elt F .f32) (X2 : S512x1.Idx → Elt F .i32) (X3 : S512x1.Idx → Elt F .f32)
    (X4 X5 : S1x512x1.Idx → Elt F .f32) (M L : S512x1.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4 ∗ owns (c : Thread nD τ) (stage0_5 s5) fullShare X5
            ∗ owns (c : Thread nD τ) (Memref.whole cc0_scratch0) fullShare M ∗ owns (c : Thread nD τ) (Memref.whole cc0_scratch1) fullShare L)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare X3
                  ∗ owns (c : Thread nD τ) (stage0_4 s4) fullShare (if k0_cond2 i = 1#1 then k0_pay4 (newM i X1 X0 X2 X3 M) else X4)
                  ∗ owns (c : Thread nD τ) (stage0_5 s5) fullShare (if k0_cond2 i = 1#1 then k0_pay5 (newL i X1 X0 X2 X3 M L) else X5)
                  ∗ owns (c : Thread nD τ) (Memref.whole cc0_scratch0) fullShare (newM i X1 X0 X2 X3 M)
                  ∗ owns (c : Thread nD τ) (Memref.whole cc0_scratch1) fullShare (newL i X1 X0 X2 X3 M L)) -∗ K ⟨⟩))
      ⊢ wp frame (wpE (defs₀ (F := F)) 𝒱₀ c none) E
          (cc0__main_kernel i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5)
            (Memref.whole cc0_scratch0) (Memref.isWhole_whole _) (Memref.whole cc0_scratch1) (Memref.isWhole_whole _)) K := by
  have hc1 : (Scalar.cmpi .ne (Scalar.extui (Scalar.cmpi .eq (BitVec.ofNat 32 (i 1).val) 0#32)) 0#32 = 1#1) :=
    (cond1_iff i).mpr h1
  simp only [if_pos h2]
  unfold newM newL m0 l0
  simp only [if_pos h1]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩⟩, Hk⟩
  subst hf0 hf1 hf2 hf3 hf4 hf5 hf8 hf9
  sl_unfold [cc0__main_kernel, k0_part1]
  sl_exec (disch := first | exact hc1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr; swap; · iexact H4
    ipureintro; sl_unfold_words
    simp only [read_writes_unit_zero (S := S512x1) _ _ hz2, read_writes_unit_zero (S := S1x512x1) _ _ hz3,
      readCov_cons_unit_zero (S := S512x1) _ hz2, View.readAt_eq_ld,
      View.ld_unit_zero (S := S512x1) hz2, View.ld_unit_zero (S := S4080x512) hz2, View.ld_unit_zero (S := S512x512) hz2]
  isplitl [H5]
  · iexists _; isplitr; swap; · iexact H5
    ipureintro; sl_unfold_words
    simp only [read_writes_unit_zero (S := S512x1) _ _ hz2, read_writes_unit_zero (S := S1x512x1) _ _ hz3,
      readCov_cons_unit_zero (S := S512x1) _ hz2, View.readAt_eq_ld,
      View.ld_unit_zero (S := S512x1) hz2, View.ld_unit_zero (S := S4080x512) hz2, View.ld_unit_zero (S := S512x512) hz2]
  isplitl [H8]
  · iexists _; isplitr; swap; · iexact H8
    ipureintro; sl_unfold_words
    simp only [read_writes_unit_zero (S := S512x1) _ _ hz2, read_writes_unit_zero (S := S1x512x1) _ _ hz3,
      readCov_cons_unit_zero (S := S512x1) _ hz2, View.readAt_eq_ld,
      View.ld_unit_zero (S := S512x1) hz2, View.ld_unit_zero (S := S4080x512) hz2, View.ld_unit_zero (S := S512x512) hz2]
  · iexists _; isplitr; swap; · iexact H9
    ipureintro; sl_unfold_words
    simp only [read_writes_unit_zero (S := S512x1) _ _ hz2, read_writes_unit_zero (S := S1x512x1) _ _ hz3,
      readCov_cons_unit_zero (S := S512x1) _ hz2, View.readAt_eq_ld,
      View.ld_unit_zero (S := S512x1) hz2, View.ld_unit_zero (S := S4080x512) hz2, View.ld_unit_zero (S := S512x512) hz2]

/-- The body's triple: the four cases of (first tile of a run?, last tile of a run?) joined. -/
theorem sound_body (c : Dev nD) (E : Set ℕ) (i : grid0.Coords) (s0 : Fin 1) (s1 : Fin 2) (s2 s3 : Fin 1) (s4 s5 : Fin 2)
    (X0 : S512x512.Idx → Elt F .bf16) (X1 : S4080x512.Idx → Elt F .f32) (X2 : S512x1.Idx → Elt F .i32) (X3 : S512x1.Idx → Elt F .f32)
    (X4 X5 : S1x512x1.Idx → Elt F .f32) (M L : S512x1.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4 ∗ owns (c : Thread nD τ) (stage0_5 s5) fullShare X5
            ∗ owns (c : Thread nD τ) (Memref.whole cc0_scratch0) fullShare M ∗ owns (c : Thread nD τ) (Memref.whole cc0_scratch1) fullShare L)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare X3
                  ∗ owns (c : Thread nD τ) (stage0_4 s4) fullShare (if k0_cond2 i = 1#1 then k0_pay4 (newM i X1 X0 X2 X3 M) else X4)
                  ∗ owns (c : Thread nD τ) (stage0_5 s5) fullShare (if k0_cond2 i = 1#1 then k0_pay5 (newL i X1 X0 X2 X3 M L) else X5)
                  ∗ owns (c : Thread nD τ) (Memref.whole cc0_scratch0) fullShare (newM i X1 X0 X2 X3 M)
                  ∗ owns (c : Thread nD τ) (Memref.whole cc0_scratch1) fullShare (newL i X1 X0 X2 X3 M L)) -∗ K ⟨⟩))
      ⊢ wp frame (wpE (defs₀ (F := F)) 𝒱₀ c none) E
          (cc0__main_kernel i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5)
            (Memref.whole cc0_scratch0) (Memref.isWhole_whole _) (Memref.whole cc0_scratch1) (Memref.isWhole_whole _)) K := by
  by_cases h1 : (i 1).val = 0
  · by_cases h2 : k0_cond2 i = 1#1
    · exact body_pp i h1 h2 c E s0 s1 s2 s3 s4 s5 X0 X1 X2 X3 X4 X5 M L K
    · exact body_pn i h1 h2 c E s0 s1 s2 s3 s4 s5 X0 X1 X2 X3 X4 X5 M L K
  · by_cases h2 : k0_cond2 i = 1#1
    · exact body_np i h1 h2 c E s0 s1 s2 s3 s4 s5 X0 X1 X2 X3 X4 X5 M L K
    · exact body_nn i h1 h2 c E s0 s1 s2 s3 s4 s5 X0 X1 X2 X3 X4 X5 M L K

end Cert.IdealBody

end
-- ==== Proof.LibBlockOps.lean ====
/-
  BLOCK OPERATIONS READ AT AN ENTRY — a general lemma file (no program is named here).

  Facts about matrices of extended reals, each at an entry given by its two coordinates:
  • the product of an m×k block by a k×n block accumulated into the zero block — the contraction over the left factor's
    second axis and the right factor's first — is the sum over the contracted coordinate of the products of the entries;
  • a column (an a×1 block) broadcast over b columns reads, at (p, c), the column's entry in row p.
-/
import Idealize.ShloMosaic.PureOps.Ideal.Laws
import Idealize.ShloMosaic.Lib.ValueIdx
import Idealize.ShloMosaic.Lib.ValueLayout

noncomputable section

open scoped BigOperators

namespace BlockOps

open Idealize.ShloMosaic Idealize.ShloMosaic.ValueIdx

variable {m k n : Nat}

/-- The dimension numbers of the plain product of an m×k by a k×n matrix: contract the left factor's axis 1 with the
    right factor's axis 0; rows of the left and columns of the right survive. The argument is their well-formedness. -/
abbrev rowCol (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left factor's index at output entry (a, b) and contracted coordinate c is (a, c). -/
theorem rowCol_lhsIdx (w : DotDims.WF ⟨2, ![m, k]⟩ ⟨2, ![k, n]⟩ ⟨2, ![m, n]⟩ [1] [0] [0] [1] [] [])
    (a : Fin m) (b : Fin n) (c : Fin k) :
    (rowCol w).lhsIdx (ix2 a b) ((contrEquiv1 (rowCol w) k rfl rfl).symm c) = ix2 a c := by
  have c2 := contrEquiv1_symm_val (rowCol w) k rfl rfl c
  funext ax; apply Fin.ext
  match ax with
  | ⟨0, _⟩ => simp [DotDims.lhsIdx]; rfl
  | ⟨1, _⟩ => simp [DotDims.lhsIdx]; exact c2

/-- The right factor's index there is (c, b). -/
theorem rowCol_rhsIdx (w : DotDims.WF ⟨2, ![m, k]⟩ ⟨2, ![k, n]⟩ ⟨2, ![m, n]⟩ [1] [0] [0] [1] [] [])
    (a : Fin m) (b : Fin n) (c : Fin k) :
    (rowCol w).rhsIdx (ix2 a b) ((contrEquiv1 (rowCol w) k rfl rfl).symm c) = ix2 c b := by
  have c2 := contrEquiv1_symm_val (rowCol w) k rfl rfl c
  funext ax; apply Fin.ext
  match ax with
  | ⟨0, _⟩ => simp [DotDims.rhsIdx]; exact c2
  | ⟨1, _⟩ => simp [DotDims.rhsIdx]; rfl

/-- The block product into the zero block, at entry (a, b): the sum over c of A[a, c] · B[c, b]. At the ideal values. -/
theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (rowCol w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (rowCol w) k rfl rfl).symm]
  refine Finset.sum_congr rfl fun c _ => ?_
  rw [rowCol_lhsIdx, rowCol_rhsIdx]

/-- An a×1 column broadcast over b columns reads, at (p, c), the column's entry in row p. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end BlockOps

end
-- ==== Proof.Payloads.lean ====
/-
  What the kernel body's pure values are, entry by entry, on the extended reals.
-/
import proofs.«421507_j48103633715511_2_alg».proof.Proof.Spec
import proofs.«421507_j48103633715511_2_alg».proof.Proof.Gen.KernelIdeal.Skeleton
import proofs.«421507_j48103633715511_2_alg».proof.Proof.LibBlockOps
import Idealize.ShloMosaic.Lib.ValueIdx
import Idealize.ShloMosaic.Lib.ValueLayout
import Idealize.ShloMosaic.Lib.Pipeline.Value
import Idealize.ShloMosaic.PureOps.Ideal.Laws

noncomputable section

namespace Cert.Payloads

open Idealize.ShloMosaic Idealize.ShloMosaic.ValueIdx Cert.KernelIdeal Cert.KernelIdeal.Gen

/-- Row q of a staged block of weights divided by its clamped Euclidean norm. -/
def wnBlk (W : Vec Ideal S4080x512 .f32) (q : Fin 4080) (k : Fin 512) : EReal :=
  Ideal.div (W (ix2 q k)) (max (Ideal.sqrt (∑ k' : Fin 512, W (ix2 q k') * W (ix2 q k'))) Cert.Spec.eps)

/-- The cosine of row n of the staged samples against row q of the staged block of weights. -/
def cosBlk (X : Vec Ideal S512x512 .bf16) (W : Vec Ideal S4080x512 .f32) (n : Fin 512) (q : Fin 4080) : EReal :=
  ∑ k : Fin 512, X (ix2 n k) * wnBlk W q k

/-! ## Layout and reduction operations read at an entry -/

/-- A vector of length a cast to the column of a rows reads, at (r, u), the vector at r. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The word of minus infinity is bottom. -/
theorem negInf_word : Ideal.ofBits .f32 0xFF800000#32 = ⊥ := by simp [Ideal.ofBits, Ideal.ieee]

/-- The index over row r with q inserted on the reduced axis 1 is (r, q). -/
theorem lift_row {a b : ℕ} (h : (⟨2, ![a, b]⟩ : Shape).Reduces [1] ⟨1, ![a]⟩) (r : Fin a) (q : Fin b) :
    h.lift (ix1 r) q = ix2 r q := by
  funext ax
  match ax with
  | ⟨0, _⟩ => rfl
  | ⟨1, _⟩ => rfl

/-- A row's maximum: the reduction of a matrix along its columns from the word of minus infinity, at row r, is the fold
    of max from bottom over the row. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction (F := Ideal) .maximumf [1] ⟨1, ![a]⟩ src 0xFF800000#32 h hφ hacc (ix1 r)
      = (Finset.univ : Finset (Fin b)).fold max ⊥ (fun q => src (ix2 r q)) := by
  refine (Ideal.multiReduction_maximumf_single src 0xFF800000#32 h hφ hacc (ix1 r)).trans ?_
  have key : ∀ (b0 : EReal) (f g : Fin b → EReal), b0 = ⊥ → f = g →
      Finset.fold max b0 f Finset.univ = Finset.fold max ⊥ g Finset.univ := by
    intro b0 f g h1 h2; rw [h1, h2]
  exact key _ _ _ negInf_word (funext fun q => congrArg src (lift_row h r q))

/-- A row's sum: the reduction of a matrix along its columns from the zero word, at row r, is the sum over the row. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ q : Fin b, src (ix2 r q) := by
  refine (Ideal.multiReduction_add_single src 0x00000000#32 h hφ hacc (ix1 r)).trans ?_
  exact Finset.sum_congr rfl fun q _ => congrArg src (lift_row h r q)

/-- An exponential and a square root of a block read at an entry are those of the entry. -/
theorem exp_apply {s : Shape} {φ : FTy} (a : FVec Ideal s φ) (i : s.Idx) : exp a i = Ideal.exp (a i) := rfl
theorem sqrt_apply {s : Shape} {φ : FTy} (a : FVec Ideal s φ) (i : s.Idx) : sqrt a i = Ideal.sqrt (a i) := rfl

/-! ## A block times the transpose of a block, read at an entry -/

section RowRow
variable {m k n : ℕ}

/-- The dimension numbers of the product of an m×k block by the transpose of an n×k block: the second axis of each is
    contracted, the rows of the left and the rows of the right survive. The argument is their well-formedness. -/
abbrev rowRow (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- The left factor's index at output entry (a, b) and contracted coordinate c is (a, c). -/
theorem rowRow_lhsIdx (w : DotDims.WF ⟨2, ![m, k]⟩ ⟨2, ![n, k]⟩ ⟨2, ![m, n]⟩ [1] [1] [0] [0] [] [])
    (a : Fin m) (b : Fin n) (c : Fin k) :
    (rowRow w).lhsIdx (ix2 a b) ((contrEquiv1 (rowRow w) k rfl rfl).symm c) = ix2 a c := by
  funext ax; apply Fin.ext
  match ax with
  | ⟨0, _⟩ => simp [DotDims.lhsIdx]; rfl
  | ⟨1, _⟩ =>
    exact ((rowRow w).lhsIdx_val_of_single (cl := 1) rfl _ _).trans (contrEquiv1_symm_val (rowRow w) k rfl rfl c)

/-- The right factor's index there is (b, c). -/
theorem rowRow_rhsIdx (w : DotDims.WF ⟨2, ![m, k]⟩ ⟨2, ![n, k]⟩ ⟨2, ![m, n]⟩ [1] [1] [0] [0] [] [])
    (a : Fin m) (b : Fin n) (c : Fin k) :
    (rowRow w).rhsIdx (ix2 a b) ((contrEquiv1 (rowRow w) k rfl rfl).symm c) = ix2 b c := by
  funext ax; apply Fin.ext
  match ax with
  | ⟨0, _⟩ => simp [DotDims.rhsIdx]; rfl
  | ⟨1, _⟩ =>
    exact ((rowRow w).rhsIdx_val_of_single (cr := 1) rfl _ _).trans (contrEquiv1_symm_val (rowRow w) k rfl rfl c)

/-- The product into the zero block, at entry (a, b): the sum over c of A[a, c] · B[b, c]. -/
theorem matmul_rowRow_apply {φ₁ φ₂ : FTy} (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (rowRow w) prec A B (constant (F := Ideal) ⟨2, ![m, n]⟩ .f32 0x00000000#32) (ix2 a b)
      = ∑ c : Fin k, A (ix2 a c) * B (ix2 b c) := by
  rw [Ideal.matmul_constant_zero_apply, ← Equiv.sum_comp (contrEquiv1 (rowRow w) k rfl rfl).symm]
  refine Finset.sum_congr rfl fun c _ => ?_
  rw [rowRow_lhsIdx, rowRow_rhsIdx]

end RowRow

/-- The kernel's product of the staged samples by the transposed normalised block, at entry (n, q). -/
theorem matmul_nt_apply (A : FVec Ideal S512x512 .bf16) (B : FVec Ideal S4080x512 .bf16) (n : Fin 512) (q : Fin 4080) :
    matmul dot_S512x512_S4080x512_S512x4080_1_1_0_0_n_n none A B (constant (F := Ideal) S512x4080 .f32 0x00000000#32) (ix2 n q)
      = ∑ c : Fin 512, A (ix2 n c) * B (ix2 q c) :=
  matmul_rowRow_apply dot_S512x512_S4080x512_S512x4080_1_1_0_0_n_n_wf none A B n q

/-! ## The integer side: a column's class number and the two masks -/

/-- Integer operations on blocks read at an entry act on the entries. -/
theorem cmpi_apply {s : Shape} {w : ℕ} (p : CmpIPredicate) (x y : IVec s w) (i : s.Idx) :
    cmpi p x y i = IntOp.cmpi p (x i) (y i) := rfl
theorem addi_apply {s : Shape} {w : ℕ} (x y : IVec s w) (i : s.Idx) : addi x y i = IntOp.addi (x i) (y i) := rfl
theorem andi_apply {s : Shape} {w : ℕ} (x y : IVec s w) (i : s.Idx) : andi x y i = IntOp.andi (x i) (y i) := rfl

/-- The tile's first class number as a word: (a * 11 + b) * 4080, computed on words as the kernel does. -/
theorem base_word (a b : ℕ) :
    Scalar.muli (Scalar.addi (Scalar.muli (BitVec.ofNat 32 a) 11#32) (BitVec.ofNat 32 b)) 4080#32
      = BitVec.ofNat 32 ((a * 11 + b) * 4080) := by
  simp only [Scalar.muli, Scalar.addi, IntOp.muli, IntOp.addi]
  rw [BitVec.ofNat_mul, BitVec.ofNat_add, BitVec.ofNat_mul]

/-- Column q of the tile holds class (a * 11 + b) * 4080 + q, as a word. -/
theorem col_word (a b : ℕ) (h : S512x4080.Iotas .tc 32 [1]) (n : Fin 512) (q : Fin 4080) :
    IntOp.addi (Scalar.muli (Scalar.addi (Scalar.muli (BitVec.ofNat 32 a) 11#32) (BitVec.ofNat 32 b)) 4080#32)
        (iota .tc S512x4080 32 [1] h (ix2 n q))
      = BitVec.ofNat 32 ((a * 11 + b) * 4080 + q.val) := by
  rw [base_word, iota_single_apply]
  show BitVec.ofNat 32 ((a * 11 + b) * 4080) + BitVec.ofNat 32 q.val = _
  rw [← BitVec.ofNat_add]

/-- A word below 2^31 read signed is its number. -/
theorem toInt_small (N : ℕ) (hN : N < 2147483648) : (BitVec.ofNat 32 N).toInt = (N : Int) := by
  rw [BitVec.toInt_eq_toNat_of_lt]
  · rw [BitVec.toNat_ofNat]; congr 1; exact Nat.mod_eq_of_lt (by omega)
  · rw [BitVec.toNat_ofNat, Nat.mod_eq_of_lt (by omega)]; omega

/-- The signed comparison of such a word with 85742 is the comparison of the numbers. -/
theorem slt_word (N : ℕ) (hN : N < 2147483648) :
    IntOp.cmpi .slt (BitVec.ofNat 32 N) 85742#32 = if N < 85742 then 1#1 else 0#1 := by
  have h2 : (85742#32 : BitVec 32).toInt = 85742 := by decide
  unfold IntOp.cmpi
  simp only [BitVec.slt, toInt_small N hN, h2]
  by_cases h : N < 85742
  · have : ((N : Int) < 85742) := by omega
    simp [h, this]
  · have : ¬ ((N : Int) < 85742) := by omega
    simp [h, this]

/-- The equality test of two words. -/
theorem eq_word (x y : BitVec 32) : IntOp.cmpi .eq x y = if x = y then 1#1 else 0#1 := by
  unfold IntOp.cmpi
  by_cases h : x = y
  · simp [h]
  · have hb : (x == y) = false := by simpa using h
    simp [h, hb]

/-- A set bit joined with a bit is that bit. -/
theorem and_one (b : BitVec 1) : IntOp.andi 1#1 b = b := by
  unfold IntOp.andi
  rcases BitVec.eq_zero_or_eq_one b with h | h <;> subst h <;> decide

/-! ## The payloads -/

/-- The tile's masked, scaled logits: at grid point i the tile is number i 0 * 11 + i 1, its column q is class
    tile * 4080 + q; a class past 85741 holds bottom, whatever the block's row q holds. -/
theorem pay8_apply (i : grid0.Coords) (W : Vec Ideal S4080x512 .f32) (X : Vec Ideal S512x512 .bf16) (LAB : Vec Ideal S512x1 .i32)
    (MG : Vec Ideal S512x1 .f32) (n : Fin 512) (q : Fin 4080) :
    k0_pay8 (F := Ideal) i W X LAB MG (ix2 n q) =
      if ((i 0).val * 11 + (i 1).val) * 4080 + q.val < 85742 then
        Cert.Spec.scale * (if BitVec.ofNat 32 (((i 0).val * 11 + (i 1).val) * 4080 + q.val) = LAB (ix2 n 0)
          then cosBlk X W n q - MG (ix2 n 0) else cosBlk X W n q)
      else ⊥ := by
  have h0 : (i 0).val < 2 := (i 0).isLt
  have h1 : (i 1).val < 11 := (i 1).isLt
  have hq : q.val < 4080 := q.isLt
  have hN : ((i 0).val * 11 + (i 1).val) * 4080 + q.val < 2147483648 := by omega
  -- the block's row sum of squares, as a sum over the 512 features
  have hss : multiReduction (F := Ideal) .add [1] S4080 (mulf W W) 0x00000000#32 reduces_S4080x512_S4080 (.inl rfl) rfl (ix1 q)
      = ∑ k' : Fin 512, W (ix2 q k') * W (ix2 q k') := rowSum_apply (mulf W W) _ _ _ q
  unfold k0_pay8
  -- every entrywise and layout operation read at (n, q); the product as the sum over the features
  simp only [select_apply, cmpi_apply, addi_apply, andi_apply, broadcast_apply, mulf_apply, subf_apply, matmul_nt_apply,
    shapeCast_self, BlockOps.broadcastTo_a1_ab_apply, truncf_apply, divf_apply, maximumf_apply, sqrt_apply,
    shapeCast_a_a1_apply]
  -- the column's class number, the two masks as conditions on numbers and words
  rw [col_word, hss, slt_word _ hN, eq_word]
  show Scalar.select (if _ then 1#1 else 0#1)
      (Cert.Spec.scale * Scalar.select (IntOp.andi (if _ then 1#1 else 0#1) (if _ then 1#1 else 0#1))
        (cosBlk X W n q - MG (ix2 n 0)) (cosBlk X W n q)) ⊥ = _
  by_cases hlt : ((i 0).val * 11 + (i 1).val) * 4080 + q.val < 85742
  · rw [if_pos hlt, if_pos hlt, select_one, and_one]
    by_cases he : BitVec.ofNat 32 (((i 0).val * 11 + (i 1).val) * 4080 + q.val) = LAB (ix2 n 0)
    · rw [if_pos he, if_pos he, select_one]
    · rw [if_neg he, if_neg he, select_zero]
  · rw [if_neg hlt, if_neg hlt, select_zero]

/-- The row maximum of the tile joined with the old running maximum. -/
theorem pay1_apply (v37 : FVec Ideal S512x4080 .f32) (v40 : Vec Ideal S512x1 .f32) (n : Fin 512) (u : Fin 1) :
    k0_pay1 (F := Ideal) v37 v40 (ix2 n u) = max (v40 (ix2 n u)) ((Finset.univ : Finset (Fin 4080)).fold max ⊥ (fun q => v37 (ix2 n q))) := by
  unfold k0_pay1
  rw [maximumf_apply, shapeCast_a_a1_apply]
  exact congrArg (max (v40 (ix2 n u))) (rowMax_apply v37 _ _ _ n)

/-- The stored maximum is the joined maximum itself. -/
theorem pay3_eq_pay1 (v37 : FVec Ideal S512x4080 .f32) (v40 : Vec Ideal S512x1 .f32) :
    k0_pay3 (F := Ideal) v37 v40 = k0_pay1 (F := Ideal) v37 v40 := by
  unfold k0_pay3
  rw [shapeCast_self]

/-- The new running maximum of a row: the old one joined with the fold of max over the tile's row. -/
theorem pay3_apply (v37 : FVec Ideal S512x4080 .f32) (v40 : Vec Ideal S512x1 .f32) (n : Fin 512) :
    k0_pay3 (F := Ideal) v37 v40 (ix2 n 0) = max (v40 (ix2 n 0)) ((Finset.univ : Finset (Fin 4080)).fold max ⊥ (fun q => v37 (ix2 n q))) := by
  unfold k0_pay3
  rw [shapeCast_self]
  exact pay1_apply v37 v40 n 0

/-- The new running sum of a row. -/
theorem pay2_apply (v37 : FVec Ideal S512x4080 .f32) (v40 v47 : Vec Ideal S512x1 .f32) (n : Fin 512) :
    k0_pay2 (F := Ideal) v37 v40 v47 (ix2 n 0) =
      Ideal.exp (v40 (ix2 n 0) - k0_pay3 (F := Ideal) v37 v40 (ix2 n 0)) * v47 (ix2 n 0)
        + ∑ q : Fin 4080, Ideal.exp (v37 (ix2 n q) - k0_pay3 (F := Ideal) v37 v40 (ix2 n 0)) := by
  rw [pay3_eq_pay1]
  unfold k0_pay2
  rw [shapeCast_self, addf_apply, mulf_apply, exp_apply, subf_apply, shapeCast_a_a1_apply]
  refine congrArg (Ideal.exp (v40 (ix2 n 0) - k0_pay1 (F := Ideal) v37 v40 (ix2 n 0)) * v47 (ix2 n 0) + ·) ?_
  refine (rowSum_apply _ _ _ _ n).trans (Finset.sum_congr rfl fun q _ => ?_)
  rw [exp_apply, subf_apply, BlockOps.broadcastTo_a1_ab_apply]

/-- The two output blocks are the scratch columns, relaid as 1 x 512 x 1. -/
theorem pay4_apply (v61 : Vec Ideal S512x1 .f32) (n : Fin 512) : k0_pay4 (F := Ideal) v61 (ix3 0 n 0) = v61 (ix2 n 0) := by
  unfold k0_pay4
  exact shapeCast_ab_1ab_apply _ _ _ _ _
theorem pay5_apply (v65 : Vec Ideal S512x1 .f32) (n : Fin 512) : k0_pay5 (F := Ideal) v65 (ix3 0 n 0) = v65 (ix2 n 0) := by
  unfold k0_pay5
  exact shapeCast_ab_1ab_apply _ _ _ _ _

/-- The resets: bottom (the named constant) and zero. -/
theorem pay6_apply (j : S512x1.Idx) : k0_pay6 (F := Ideal) j = ⊥ := by
  unfold k0_pay6
  rw [shapeCast_self, broadcast_apply]
  rfl
theorem pay7_apply (j : S512x1.Idx) : k0_pay7 (F := Ideal) j = 0 := by
  unfold k0_pay7
  rw [shapeCast_self, broadcast_apply]
  exact Ideal.ofBits_zero_f32

end Cert.Payloads

end
-- ==== Proof.Link.lean ====
/-
  One body step in the specification's terms: if the staged buffers hold the samples, the tile's rows of the class weights
  (on the rows that lie inside the array; the others are free), the label words and the margins, then the new scratch columns are
  the specification's running maximum and running sum over that tile's logits.
-/
import proofs.«421507_j48103633715511_2_alg».proof.Proof.Spec
import proofs.«421507_j48103633715511_2_alg».proof.Proof.Payloads

noncomputable section

namespace Cert.Link

open Idealize.ShloMosaic Idealize.ShloMosaic.ValueIdx Cert.KernelIdeal Cert.KernelIdeal.Gen

/-- The tile's staged logits are the specification's tile of the scaled logits, column by column. -/
theorem tile_link (i : grid0.Coords) (g : ℕ) (hg : g = (i 0).val * 11 + (i 1).val)
    (W : Vec Ideal S4080x512 .f32) (X : Vec Ideal S512x512 .bf16) (LAB : Vec Ideal S512x1 .i32) (MG : Vec Ideal S512x1 .f32)
    (xn : Fin 512 → Fin 512 → EReal) (w : Fin 85742 → Fin 512 → EReal) (lab : Fin 512 → BitVec 32) (mg : Fin 512 → EReal)
    (hX : ∀ n k, X (ix2 n k) = xn n k)
    (hW : ∀ (q : Fin 4080) (k : Fin 512) (h : g * 4080 + q.val < 85742), W (ix2 q k) = w ⟨g * 4080 + q.val, h⟩ k)
    (hL : ∀ n, LAB (ix2 n 0) = lab n) (hM : ∀ n, MG (ix2 n 0) = mg n) (n : Fin 512) (q : Fin 4080) :
    k0_pay8 (F := Ideal) i W X LAB MG (ix2 n q) = Cert.Spec.tile (Cert.Spec.logit xn w lab mg) g n q := by
  rw [Cert.Payloads.pay8_apply, ← hg]
  unfold Cert.Spec.tile
  by_cases h : g * 4080 + q.val < 85742
  · rw [if_pos h, dif_pos h]
    unfold Cert.Spec.logit
    -- the block's normalised row q is the normalised row of class g * 4080 + q
    have hnorm : ∀ k : Fin 512, Cert.Payloads.wnBlk W q k = Cert.Spec.normRow w ⟨g * 4080 + q.val, h⟩ k := by
      intro k
      unfold Cert.Payloads.wnBlk Cert.Spec.normRow
      have hsq : (∑ k' : Fin 512, W (ix2 q k') * W (ix2 q k'))
          = ∑ k' : Fin 512, w ⟨g * 4080 + q.val, h⟩ k' * w ⟨g * 4080 + q.val, h⟩ k' :=
        Finset.sum_congr rfl (fun k' _ => by rw [hW q k' h])
      rw [hsq, hW q k h]
    have hcos : Cert.Payloads.cosBlk X W n q = Cert.Spec.cosine xn w n ⟨g * 4080 + q.val, h⟩ := by
      unfold Cert.Payloads.cosBlk Cert.Spec.cosine
      exact Finset.sum_congr rfl (fun k _ => by rw [hX n k, hnorm k])
    rw [hcos, hL n, hM n]
  · rw [if_neg h, dif_neg h]

theorem step_link (i : grid0.Coords) (g : ℕ) (hg : g = (i 0).val * 11 + (i 1).val)
    (W : Vec Ideal S4080x512 .f32) (X : Vec Ideal S512x512 .bf16) (LAB : Vec Ideal S512x1 .i32) (MG : Vec Ideal S512x1 .f32)
    (xn : Fin 512 → Fin 512 → EReal) (w : Fin 85742 → Fin 512 → EReal) (lab : Fin 512 → BitVec 32) (mg : Fin 512 → EReal)
    (hX : ∀ n k, X (ix2 n k) = xn n k)
    (hW : ∀ (q : Fin 4080) (k : Fin 512) (h : g * 4080 + q.val < 85742), W (ix2 q k) = w ⟨g * 4080 + q.val, h⟩ k)
    (hL : ∀ n, LAB (ix2 n 0) = lab n) (hM : ∀ n, MG (ix2 n 0) = mg n)
    (M0 L0 : Vec Ideal S512x1 .f32) (M L : Fin 512 → EReal) (hM0 : ∀ n, M0 (ix2 n 0) = M n) (hL0 : ∀ n, L0 (ix2 n 0) = L n) (n : Fin 512) :
    k0_pay3 (F := Ideal) (k0_pay8 (F := Ideal) i W X LAB MG) M0 (ix2 n 0)
        = Cert.Spec.stepM (Cert.Spec.tile (Cert.Spec.logit xn w lab mg) g) M n
      ∧ k0_pay2 (F := Ideal) (k0_pay8 (F := Ideal) i W X LAB MG) M0 L0 (ix2 n 0)
        = Cert.Spec.stepL (Cert.Spec.tile (Cert.Spec.logit xn w lab mg) g) M L n := by
  -- the tile's row n, as a function of the column
  have hrow : (fun q : Fin 4080 => k0_pay8 (F := Ideal) i W X LAB MG (ix2 n q))
      = Cert.Spec.tile (Cert.Spec.logit xn w lab mg) g n :=
    funext (fun q => tile_link i g hg W X LAB MG xn w lab mg hX hW hL hM n q)
  have h3 : k0_pay3 (F := Ideal) (k0_pay8 (F := Ideal) i W X LAB MG) M0 (ix2 n 0)
      = Cert.Spec.stepM (Cert.Spec.tile (Cert.Spec.logit xn w lab mg) g) M n := by
    rw [Cert.Payloads.pay3_apply, hM0 n, hrow]
    rfl
  refine ⟨h3, ?_⟩
  rw [Cert.Payloads.pay2_apply, h3, hM0 n, hL0 n]
  unfold Cert.Spec.stepL
  have hsum : (∑ q : Fin 4080, Ideal.exp (k0_pay8 (F := Ideal) i W X LAB MG (ix2 n q)
        - Cert.Spec.stepM (Cert.Spec.tile (Cert.Spec.logit xn w lab mg) g) M n))
      = ∑ q : Fin 4080, Ideal.exp (Cert.Spec.tile (Cert.Spec.logit xn w lab mg) g n q
        - Cert.Spec.stepM (Cert.Spec.tile (Cert.Spec.logit xn w lab mg) g) M n) :=
    Finset.sum_congr rfl (fun q _ => by
      rw [tile_link i g hg W X LAB MG xn w lab mg hX hW hL hM n q])
  rw [hsum]

end Cert.Link

end
-- ==== Proof.IdealRun.lean ====
/-
  The exact run of the idealized kernel program through the pipeline's frame rule: the proof data (what every staging buffer
  holds after the body at every grid point), the invariant that tracks the two scratch columns between points, the body's
  obligation at every point, the launch with the host lines after the region, and the two output arrays in closed form: entry
  (core, n, 0) of the first is the running maximum of run `core` after its eleven tiles at row n, of the second the running sum.
-/
import proofs.«421507_j48103633715511_2_alg».proof.Proof.Spec
import proofs.«421507_j48103633715511_2_alg».proof.Proof.KDefs
import proofs.«421507_j48103633715511_2_alg».proof.Proof.IdealBody
import proofs.«421507_j48103633715511_2_alg».proof.Proof.Link
import proofs.«421507_j48103633715511_2_alg».proof.Proof.Payloads
import proofs.«421507_j48103633715511_2_alg».proof.Proof.Gen.KernelIdeal.Frame
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.IdealRun

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the scratch columns and the output blocks hold -/

/-- The running-maximum column after the body at point k: run k / 11 after its first k % 11 + 1 tiles. -/
def colM (c : Dev nD) (k : ℕ) : S512x1.Idx → EReal :=
  fun j => (Cert.Spec.mlAt (Cert.KDefs.SK m c) (k / 11) (k % 11 + 1)).1 (j 0)
/-- The running-sum column after the body at point k. -/
def colL (c : Dev nD) (k : ℕ) : S512x1.Idx → EReal :=
  fun j => (Cert.Spec.mlAt (Cert.KDefs.SK m c) (k / 11) (k % 11 + 1)).2 (j 0)
/-- The first output's block as the last point of run k / 11 leaves it: the run's maximum column, relaid. -/
def outM (c : Dev nD) (k : ℕ) : S1x512x1.Idx → EReal :=
  fun j => (Cert.Spec.mlAt (Cert.KDefs.SK m c) (k / 11) 11).1 (j 1)
/-- The second output's block likewise: the run's sum column. -/
def outL (c : Dev nD) (k : ℕ) : S1x512x1.Idx → EReal :=
  fun j => (Cert.Spec.mlAt (Cert.KDefs.SK m c) (k / 11) 11).2 (j 1)

/-- The two scratch operands as memrefs. -/
abbrev scM0 : Memref sig .tc .vmem S512x1 .f32 := Memref.whole cc0_scratch0
abbrev scM1 : Memref sig .tc .vmem S512x1 .f32 := Memref.whole cc0_scratch1

/-- The invariant before position n: before the first point the class's (every scratch at anything); afterwards the two
    scratch columns at what the point before left in them, and the generator register at some state. -/
def PhiS (c : Dev nD) : (n : ℕ) → n ≤ cfg0.N → sProp 𝕄
  | 0, _ => Pipeline.ΦA spec0 c
  | n + 1, _ => iprop(iprop(owns (c : Thread nD τ) scM0 fullShare (colM m c n) ∗ owns (c : Thread nD τ) scM1 fullShare (colL m c n)) ∗ (∃ r, prngReg c r))

/-! ## The proof data -/

/-- The proof data on core c: the arrays as the region finds them; after the body at point t each input's buffer at its
    block (the clipped weights' block filled out with zeros past the array's end, where nothing is stated), the outputs'
    at the run's columns relaid; the invariant tracking the scratch columns; nothing owed; full shares. -/
def dats (_ : Fin 1) (c : Dev nD) : Dat τ (Elt Ideal) Unit ℕ (UR sig nD τ) ℕ cfg0 c where
  A w := Gen.V m c (Pipeline.arrRef spec0 w)
  after w t := match w with
    | ⟨0, _⟩ => Gen.iblk m c 0 t
    | ⟨1, _⟩ => win0_1.fill (grid0.coords t) (fun _ => (0 : EReal)) (Gen.iblk m c 1 t)
    | ⟨2, _⟩ => Gen.iblk m c 2 t
    | ⟨3, _⟩ => Gen.iblk m c 3 t
    | ⟨4, _⟩ => outM m c t.val
    | ⟨5, _⟩ => outL m c t.val
  Φ t := PhiS m c t.val (Nat.le_of_lt_succ t.isLt)
  q _ := fullShare
  owed _ := 0

theorem dats_A (c : Dev nD) (w : Fin cfg0.W) : (dats m 0 c).A w = Gen.V m c (Pipeline.arrRef spec0 w) := by
  dsimp only [dats]

/-! ## The schedule's facts, decided over the grid -/

/-- The grid's coordinates at point t: the run t / 11 and the tile t % 11 within it. -/
theorem coords_0 : ∀ t : Fin cfg0.N, (grid0.coords t 0).val = t.val / 11 :=
  (by decide +kernel : ∀ t : Fin grid0.N, (grid0.coords t 0).val = t.val / 11)
theorem coords_1 : ∀ t : Fin cfg0.N, (grid0.coords t 1).val = t.val % 11 :=
  (by decide +kernel : ∀ t : Fin grid0.N, (grid0.coords t 1).val = t.val % 11)
/-- The body's condition holds at the last tile of a run. -/
theorem cond2_iff : ∀ t : Fin cfg0.N, k0_cond2 (grid0.coords t) = 1#1 ↔ t.val % 11 = 10 :=
  (by decide +kernel : ∀ t : Fin grid0.N, k0_cond2 (grid0.coords t) = 1#1 ↔ t.val % 11 = 10)
/-- The output windows are idle except there, where they are written back. -/
theorem idle_4 : ∀ t : Fin cfg0.N, ¬t.val % 11 = 10 → cfg0.idle 4 (grid0.coords t) = true :=
  (by decide +kernel : ∀ t : Fin grid0.N, ¬t.val % 11 = 10 → idle0 4 (grid0.coords t) = true)
theorem idle_5 : ∀ t : Fin cfg0.N, ¬t.val % 11 = 10 → cfg0.idle 5 (grid0.coords t) = true :=
  (by decide +kernel : ∀ t : Fin grid0.N, ¬t.val % 11 = 10 → idle0 5 (grid0.coords t) = true)
theorem live_4 : ∀ t : Fin cfg0.N, t.val % 11 = 10 → cfg0.idle 4 (grid0.coords t) = false :=
  (by decide +kernel : ∀ t : Fin grid0.N, t.val % 11 = 10 → idle0 4 (grid0.coords t) = false)
theorem live_5 : ∀ t : Fin cfg0.N, t.val % 11 = 10 → cfg0.idle 5 (grid0.coords t) = false :=
  (by decide +kernel : ∀ t : Fin grid0.N, t.val % 11 = 10 → idle0 5 (grid0.coords t) = false)
theorem noflush_4 (t : Fin cfg0.N) (h : ¬t.val % 11 = 10) : (cfg0.win 4).flush t = false :=
  Bool.eq_false_iff.mpr fun hf => h ((Gen.flush0_4 t).mp hf)
theorem noflush_5 (t : Fin cfg0.N) (h : ¬t.val % 11 = 10) : (cfg0.win 5).flush t = false :=
  Bool.eq_false_iff.mpr fun hf => h ((Gen.flush0_5 t).mp hf)
/-- The block indices: the weights' window walks the tiles, the outputs' the runs, the others stay. -/
theorem index_1 : ∀ t : Fin cfg0.N, win0_1.index t 0 = t.val ∧ win0_1.index t 1 = 0 :=
  (by decide +kernel : ∀ t : Fin grid0.N, win0_1.index t 0 = t.val ∧ win0_1.index t 1 = 0)
theorem index_4 : ∀ t : Fin cfg0.N, win0_4.index t 0 = t.val / 11 ∧ win0_4.index t 1 = 0 ∧ win0_4.index t 2 = 0 :=
  (by decide +kernel : ∀ t : Fin grid0.N, win0_4.index t 0 = t.val / 11 ∧ win0_4.index t 1 = 0 ∧ win0_4.index t 2 = 0)
theorem index_5 : ∀ t : Fin cfg0.N, win0_5.index t 0 = t.val / 11 ∧ win0_5.index t 1 = 0 ∧ win0_5.index t 2 = 0 :=
  (by decide +kernel : ∀ t : Fin grid0.N, win0_5.index t 0 = t.val / 11 ∧ win0_5.index t 1 = 0 ∧ win0_5.index t 2 = 0)

/-! ## The blocks the fetches read, entry by entry -/

/-- A coordinate the array still holds lies in the part of the block the transfer moves. -/
theorem lt_extent {ix k d : ℕ} {cl : Pipeline.Clip} (h : Pipeline.Clip.Ok ix k d cl) {q : ℕ} (hq : q < k) (hd : ix * k + q < d) :
    q < cl.extent k := by
  cases cl with
  | none => exact hq
  | some n => have := h.2.2; show q < n; omega

/-- The samples' block is the whole array. -/
theorem read_blk0 (t : Fin cfg0.N) (A : Vec Ideal S512x512 .bf16) (y : S512x512.Idx) :
    (win0_0.blk t).view.read (Elt Ideal) A y = A y := by
  rw [View.read_apply]
  show A _ = A _
  congr 1; funext a; apply Fin.ext
  match a with
  | ⟨0, _⟩ => show win0_0.index t 0 * 512 + 1 * (y 0).val = (y 0).val; rw [show win0_0.index t 0 = 0 from rfl]; omega
  | ⟨1, _⟩ => show win0_0.index t 1 * 512 + 1 * (y 1).val = (y 1).val; rw [show win0_0.index t 1 = 0 from rfl]; omega
/-- The label column's block is the whole column. -/
theorem read_blk2 (t : Fin cfg0.N) (A : Vec Ideal S512x1 .i32) (y : S512x1.Idx) :
    (win0_2.blk t).view.read (Elt Ideal) A y = A y := by
  rw [View.read_apply]
  show A _ = A _
  congr 1; funext a; apply Fin.ext
  match a with
  | ⟨0, _⟩ => show win0_2.index t 0 * 512 + 1 * (y 0).val = (y 0).val; rw [show win0_2.index t 0 = 0 from rfl]; omega
  | ⟨1, _⟩ => show win0_2.index t 1 * 1 + 1 * (y 1).val = (y 1).val; rw [show win0_2.index t 1 = 0 from rfl]; omega
/-- The margin column's block is the whole column. -/
theorem read_blk3 (t : Fin cfg0.N) (A : Vec Ideal S512x1 .f32) (y : S512x1.Idx) :
    (win0_3.blk t).view.read (Elt Ideal) A y = A y := by
  rw [View.read_apply]
  show A _ = A _
  congr 1; funext a; apply Fin.ext
  match a with
  | ⟨0, _⟩ => show win0_3.index t 0 * 512 + 1 * (y 0).val = (y 0).val; rw [show win0_3.index t 0 = 0 from rfl]; omega
  | ⟨1, _⟩ => show win0_3.index t 1 * 1 + 1 * (y 1).val = (y 1).val; rw [show win0_3.index t 1 = 0 from rfl]; omega
/-- The weights' block at point t, on the rows the array holds: rows t * 4080 onwards. -/
theorem read_blk1 (t : Fin cfg0.N) (A : Vec Ideal S85742x512 .f32) (y : (win0_1.xblock (grid0.coords t)).Idx)
    (h0 : t.val * 4080 + (y 0).val < 85742) (h1 : (y 1).val < 512) :
    (win0_1.blk t).view.read (Elt Ideal) A y = A (ix2 ⟨t.val * 4080 + (y 0).val, h0⟩ ⟨(y 1).val, h1⟩) := by
  rw [View.read_apply]
  show A _ = A _
  congr 1; funext a; apply Fin.ext
  match a with
  | ⟨0, _⟩ => show win0_1.index t 0 * 4080 + 1 * (y 0).val = t.val * 4080 + (y 0).val; rw [(index_1 t).1]; omega
  | ⟨1, _⟩ => show win0_1.index t 1 * 512 + 1 * (y 1).val = (y 1).val; rw [(index_1 t).2]; omega

/-- How much of the weights' block the transfer at point t moves: what the array still holds of it. -/
theorem xsize_1 : ∀ t : Fin cfg0.N, win0_1.xsize (grid0.coords t) 0 = min 4080 (85742 - t.val * 4080) ∧ win0_1.xsize (grid0.coords t) 1 = 512 :=
  (by decide +kernel : ∀ t : Fin grid0.N, win0_1.xsize (grid0.coords t) 0 = min 4080 (85742 - t.val * 4080) ∧ win0_1.xsize (grid0.coords t) 1 = 512)

/-- A staging buffer just fetched into holds, on a row the array holds, that row of the weights, whatever it held before. -/
theorem fill_blk1 (t : Fin cfg0.N) (A : Vec Ideal S85742x512 .f32) (d : Vec Ideal S4080x512 .f32) (q : Fin 4080) (k : Fin 512)
    (h : t.val * 4080 + q.val < 85742) :
    win0_1.fill (grid0.coords t) d ((win0_1.blk t).view.read (Elt Ideal) A) (ix2 q k) = A (ix2 ⟨t.val * 4080 + q.val, h⟩ k) := by
  have hq : q.val < win0_1.xsize (grid0.coords t) 0 := by
    rw [(xsize_1 t).1]; have := q.isLt; omega
  have hk : k.val < win0_1.xsize (grid0.coords t) 1 := by
    rw [(xsize_1 t).2]; exact k.isLt
  have hx := win0_1.fill_xinj (grid0.coords t) d ((win0_1.blk t).view.read (Elt Ideal) A)
    (fun a => match a with | ⟨0, _⟩ => ⟨q.val, hq⟩ | ⟨1, _⟩ => ⟨k.val, hk⟩)
  refine Eq.trans ?_ (hx.trans (read_blk1 t A _ h k.isLt))
  refine congrArg _ ?_
  funext a
  match a with
  | ⟨0, _⟩ => rfl
  | ⟨1, _⟩ => rfl

/-! ## One body step in the specification's terms -/

/-- The columns the step at point t starts from, in the specification's terms: run t / 11 after its first t % 11 tiles
    (bottom and zero at the first tile of a run, whatever the scratch holds). -/
theorem start_cols (c : Dev nD) (t : Fin cfg0.N) (M L : Vec Ideal S512x1 .f32)
    (hML : ¬t.val % 11 = 0 → M = colM m c (t.val - 1) ∧ L = colL m c (t.val - 1)) (n : Fin 512) :
    Cert.IdealBody.m0 (F := Ideal) (grid0.coords t) M (ix2 n 0) = (Cert.Spec.mlAt (Cert.KDefs.SK m c) (t.val / 11) (t.val % 11)).1 n
      ∧ Cert.IdealBody.l0 (F := Ideal) (grid0.coords t) L (ix2 n 0) = (Cert.Spec.mlAt (Cert.KDefs.SK m c) (t.val / 11) (t.val % 11)).2 n := by
  unfold Cert.IdealBody.m0 Cert.IdealBody.l0
  rw [coords_1 t]
  by_cases h0 : t.val % 11 = 0
  · rw [if_pos h0, if_pos h0, h0, Cert.Payloads.pay6_apply, Cert.Payloads.pay7_apply]
    exact ⟨rfl, rfl⟩
  · rw [if_neg h0, if_neg h0, (hML h0).1, (hML h0).2]
    have e1 : (t.val - 1) / 11 = t.val / 11 := by omega
    have e2 : (t.val - 1) % 11 + 1 = t.val % 11 := by omega
    unfold colM colL
    show (Cert.Spec.mlAt (Cert.KDefs.SK m c) ((t.val - 1) / 11) ((t.val - 1) % 11 + 1)).1 n = _
      ∧ (Cert.Spec.mlAt (Cert.KDefs.SK m c) ((t.val - 1) / 11) ((t.val - 1) % 11 + 1)).2 n = _
    rw [e1, e2]
    exact ⟨rfl, rfl⟩

/-- The step at point t, on buffers holding the samples, the tile's rows of the weights (on the rows the array holds), the
    labels and the margins, takes the scratch columns to the specification's columns after point t. -/
theorem step_cols (c : Dev nD) (t : Fin cfg0.N)
    (X0 : Vec Ideal S512x512 .bf16) (X1 : Vec Ideal S4080x512 .f32) (X2 : Vec Ideal S512x1 .i32) (X3 : Vec Ideal S512x1 .f32)
    (M L : Vec Ideal S512x1 .f32)
    (hX0 : ∀ n k, X0 (ix2 n k) = Cert.KDefs.xnK m c n k)
    (hX1 : ∀ (q : Fin 4080) (k : Fin 512) (h : t.val * 4080 + q.val < 85742), X1 (ix2 q k) = Cert.KDefs.wK m c ⟨t.val * 4080 + q.val, h⟩ k)
    (hX2 : ∀ n, X2 (ix2 n 0) = Cert.KDefs.labK m c n) (hX3 : ∀ n, X3 (ix2 n 0) = Cert.KDefs.mgK m c n)
    (hML : ¬t.val % 11 = 0 → M = colM m c (t.val - 1) ∧ L = colL m c (t.val - 1)) :
    Cert.IdealBody.newM (F := Ideal) (grid0.coords t) X1 X0 X2 X3 M = colM m c t.val
      ∧ Cert.IdealBody.newL (F := Ideal) (grid0.coords t) X1 X0 X2 X3 M L = colL m c t.val := by
  have key : ∀ n : Fin 512,
      Cert.IdealBody.newM (F := Ideal) (grid0.coords t) X1 X0 X2 X3 M (ix2 n 0) = colM m c t.val (ix2 n 0)
        ∧ Cert.IdealBody.newL (F := Ideal) (grid0.coords t) X1 X0 X2 X3 M L (ix2 n 0) = colL m c t.val (ix2 n 0) := fun n => by
    have hg : t.val = (grid0.coords t 0).val * 11 + (grid0.coords t 1).val := by rw [coords_0 t, coords_1 t]; omega
    have hs := Cert.Link.step_link (grid0.coords t) t.val hg X1 X0 X2 X3 (Cert.KDefs.xnK m c) (Cert.KDefs.wK m c)
      (Cert.KDefs.labK m c) (Cert.KDefs.mgK m c) hX0 hX1 hX2 hX3
      (Cert.IdealBody.m0 (F := Ideal) (grid0.coords t) M) (Cert.IdealBody.l0 (F := Ideal) (grid0.coords t) L)
      (Cert.Spec.mlAt (Cert.KDefs.SK m c) (t.val / 11) (t.val % 11)).1 (Cert.Spec.mlAt (Cert.KDefs.SK m c) (t.val / 11) (t.val % 11)).2
      (fun n => (start_cols m c t M L hML n).1) (fun n => (start_cols m c t M L hML n).2) n
    have e : 11 * (t.val / 11) + t.val % 11 = t.val := Nat.div_add_mod _ _
    unfold Cert.IdealBody.newM Cert.IdealBody.newL colM colL
    show _ = Cert.Spec.stepM (Cert.Spec.tile (Cert.KDefs.SK m c) (11 * (t.val / 11) + t.val % 11))
          (Cert.Spec.mlAt (Cert.KDefs.SK m c) (t.val / 11) (t.val % 11)).1 n
      ∧ _ = Cert.Spec.stepL (Cert.Spec.tile (Cert.KDefs.SK m c) (11 * (t.val / 11) + t.val % 11))
          (Cert.Spec.mlAt (Cert.KDefs.SK m c) (t.val / 11) (t.val % 11)).1 (Cert.Spec.mlAt (Cert.KDefs.SK m c) (t.val / 11) (t.val % 11)).2 n
    rw [e]
    exact hs
  constructor
  · funext j
    obtain ⟨a, b, rfl⟩ : ∃ (a : Fin 512) (b : Fin 1), j = ix2 a b := ⟨j 0, j 1, eq_ix2 j⟩
    obtain rfl : b = 0 := Subsingleton.elim _ _
    exact (key a).1
  · funext j
    obtain ⟨a, b, rfl⟩ : ∃ (a : Fin 512) (b : Fin 1), j = ix2 a b := ⟨j 0, j 1, eq_ix2 j⟩
    obtain rfl : b = 0 := Subsingleton.elim _ _
    exact (key a).2

/-- At the last tile of a run the output blocks receive the scratch columns, relaid. -/
theorem out_cols (c : Dev nD) (t : Fin cfg0.N) (h10 : t.val % 11 = 10) :
    k0_pay4 (F := Ideal) (colM m c t.val) = outM m c t.val ∧ k0_pay5 (F := Ideal) (colL m c t.val) = outL m c t.val := by
  constructor
  · funext j
    obtain ⟨a, n, b, rfl⟩ : ∃ (a : Fin 1) (n : Fin 512) (b : Fin 1), j = ix3 a n b := ⟨j 0, j 1, j 2, eq_ix3 j⟩
    obtain rfl : a = 0 := Subsingleton.elim _ _
    obtain rfl : b = 0 := Subsingleton.elim _ _
    rw [Cert.Payloads.pay4_apply]
    unfold colM outM
    show (Cert.Spec.mlAt (Cert.KDefs.SK m c) (t.val / 11) (t.val % 11 + 1)).1 n = (Cert.Spec.mlAt (Cert.KDefs.SK m c) (t.val / 11) 11).1 n
    rw [h10]
  · funext j
    obtain ⟨a, n, b, rfl⟩ : ∃ (a : Fin 1) (n : Fin 512) (b : Fin 1), j = ix3 a n b := ⟨j 0, j 1, j 2, eq_ix3 j⟩
    obtain rfl : a = 0 := Subsingleton.elim _ _
    obtain rfl : b = 0 := Subsingleton.elim _ _
    rw [Cert.Payloads.pay5_apply]
    unfold colL outL
    show (Cert.Spec.mlAt (Cert.KDefs.SK m c) (t.val / 11) (t.val % 11 + 1)).2 n = (Cert.Spec.mlAt (Cert.KDefs.SK m c) (t.val / 11) 11).2 n
    rw [h10]

/-- What the input windows' blocks hold, in the arrays' terms. -/
theorem iblk0_apply (c : Dev nD) (t : Fin cfg0.N) (n k : Fin 512) : (Gen.iblk m c 0 t : Vec Ideal S512x512 .bf16) (ix2 n k) = Cert.KDefs.xnK m c n k := by
  unfold Gen.iblk Cert.KDefs.xnK
  exact read_blk0 t _ _
theorem iblk2_apply (c : Dev nD) (t : Fin cfg0.N) (n : Fin 512) : (Gen.iblk m c 2 t : Vec Ideal S512x1 .i32) (ix2 n 0) = Cert.KDefs.labK m c n := by
  unfold Gen.iblk Cert.KDefs.labK
  exact read_blk2 t _ _
theorem iblk3_apply (c : Dev nD) (t : Fin cfg0.N) (n : Fin 512) : (Gen.iblk m c 3 t : Vec Ideal S512x1 .f32) (ix2 n 0) = Cert.KDefs.mgK m c n := by
  unfold Gen.iblk Cert.KDefs.mgK
  exact read_blk3 t _ _
theorem fill1_apply (c : Dev nD) (t : Fin cfg0.N) (d : Vec Ideal S4080x512 .f32) (q : Fin 4080) (k : Fin 512) (h : t.val * 4080 + q.val < 85742) :
    win0_1.fill (grid0.coords t) d (Gen.iblk m c 1 t) (ix2 q k) = Cert.KDefs.wK m c ⟨t.val * 4080 + q.val, h⟩ k := by
  unfold Gen.iblk Cert.KDefs.wK
  exact fill_blk1 t _ d q k h

/-! ## The invariant and the proof data, unfolded position by position -/

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare (colM m c n) ∗ owns (c : Thread nD τ) scM1 fullShare (colL m c n)) ∗ (∃ r, prngReg c r)) := rfl
theorem PhiS_pos (c : Dev nD) (n : ℕ) (h : n ≤ cfg0.N) (hz : n ≠ 0) :
    PhiS m c n h = iprop(iprop(owns (c : Thread nD τ) scM0 fullShare (colM m c (n - 1)) ∗ owns (c : Thread nD τ) scM1 fullShare (colL m c (n - 1))) ∗ (∃ r, prngReg c r)) := by
  cases n with
  | zero => exact absurd rfl hz
  | succ n => rfl
/-- The class's invariant with the two scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after_0 (c : Dev nD) (t : Fin cfg0.N) : (dats m 0 c).after 0 t = Gen.iblk m c 0 t := by dsimp only [dats]
theorem after_1 (c : Dev nD) (t : Fin cfg0.N) :
    (dats m 0 c).after 1 t = win0_1.fill (grid0.coords t) (fun _ => (0 : EReal)) (Gen.iblk m c 1 t) := by dsimp only [dats]
theorem after_2 (c : Dev nD) (t : Fin cfg0.N) : (dats m 0 c).after 2 t = Gen.iblk m c 2 t := by dsimp only [dats]
theorem after_3 (c : Dev nD) (t : Fin cfg0.N) : (dats m 0 c).after 3 t = Gen.iblk m c 3 t := by dsimp only [dats]
theorem after_4 (c : Dev nD) (t : Fin cfg0.N) : (dats m 0 c).after 4 t = outM m c t.val := by dsimp only [dats]
theorem after_5 (c : Dev nD) (t : Fin cfg0.N) : (dats m 0 c).after 5 t = outL m c t.val := by dsimp only [dats]

/-- What the body finds in the input windows' buffers: the samples, the labels and the margins at every point, fetched there
    or not; the weights' block just fetched, the rest of the buffer at anything. -/
theorem before_0 (c : Dev nD) (t : Fin cfg0.N) (d) : (dats m 0 c).before 0 t d = Gen.iblk m c 0 t :=
  Gen.before0_0_of m (dats m 0 c) (dats_A m c 0) (after_0 m c) t d
theorem before_2 (c : Dev nD) (t : Fin cfg0.N) (d) : (dats m 0 c).before 2 t d = Gen.iblk m c 2 t :=
  Gen.before0_2_of m (dats m 0 c) (dats_A m c 2) (after_2 m c) t d
theorem before_3 (c : Dev nD) (t : Fin cfg0.N) (d) : (dats m 0 c).before 3 t d = Gen.iblk m c 3 t :=
  Gen.before0_3_of m (dats m 0 c) (dats_A m c 3) (after_3 m c) t d
theorem before_1 (c : Dev nD) (t : Fin cfg0.N) (d) :
    (dats m 0 c).before 1 t d = win0_1.fill (grid0.coords t) d (Gen.iblk m c 1 t) := by
  rw [(dats m 0 c).before_fetched 1 t (Gen.fetch0_1 t)]
  unfold Dat.fetched Dat.blockOf Gen.iblk; rw [dats_A]; try rfl

/-! ## The body's obligation -/

/-- What the obligation's post says of each window's current buffer: the four inputs' at what the proof data names (the
    weights' on the rows the transfer moves), the outputs' at the run's columns where the body stores them and as found elsewhere. -/
theorem leaves_0 (c : Dev nD) (t : Fin cfg0.N) :
    (dats m 0 c).leaves 0 t = owns (c : Thread nD τ) (st0_0 t) fullShare ((dats m 0 c).after 0 t) := rfl
theorem leaves_1 (c : Dev nD) (t : Fin cfg0.N) :
    (dats m 0 c).leaves 1 t = iprop(∃ d, owns (c : Thread nD τ) (st0_1 t) fullShare
      (win0_1.fill (grid0.coords t) d (win0_1.cut (grid0.coords t) ((dats m 0 c).after 1 t)))) := rfl
theorem leaves_2 (c : Dev nD) (t : Fin cfg0.N) :
    (dats m 0 c).leaves 2 t = owns (c : Thread nD τ) (st0_2 t) fullShare ((dats m 0 c).after 2 t) := rfl
theorem leaves_3 (c : Dev nD) (t : Fin cfg0.N) :
    (dats m 0 c).leaves 3 t = owns (c : Thread nD τ) (st0_3 t) fullShare ((dats m 0 c).after 3 t) := rfl
theorem leaves_4_live (c : Dev nD) (t : Fin cfg0.N) (h : t.val % 11 = 10) :
    (dats m 0 c).leaves 4 t = owns (c : Thread nD τ) (st0_4 t) fullShare ((dats m 0 c).after 4 t) := by
  unfold Dat.leaves; rw [live_4 t h]
theorem leaves_5_live (c : Dev nD) (t : Fin cfg0.N) (h : t.val % 11 = 10) :
    (dats m 0 c).leaves 5 t = owns (c : Thread nD τ) (st0_5 t) fullShare ((dats m 0 c).after 5 t) := by
  unfold Dat.leaves; rw [live_5 t h]

/-- The eight buffers the body touches at point t — the six windows' current staging buffers and the two scratch columns —
    at given contents. -/
def bufs (c : Dev nD) (t : Fin cfg0.N) (X0 : Vec Ideal S512x512 .bf16) (X1 : Vec Ideal S4080x512 .f32) (X2 : Vec Ideal S512x1 .i32)
    (X3 : Vec Ideal S512x1 .f32) (X4 X5 : Vec Ideal S1x512x1 .f32) (M L : Vec Ideal S512x1 .f32) : sProp 𝕄 :=
  iprop(owns (c : Thread nD τ) (st0_0 t) fullShare X0 ∗ owns (c : Thread nD τ) (st0_1 t) fullShare X1
    ∗ owns (c : Thread nD τ) (st0_2 t) fullShare X2 ∗ owns (c : Thread nD τ) (st0_3 t) fullShare X3
    ∗ owns (c : Thread nD τ) (st0_4 t) fullShare X4 ∗ owns (c : Thread nD τ) (st0_5 t) fullShare X5
    ∗ owns (c : Thread nD τ) scM0 fullShare M ∗ owns (c : Thread nD τ) scM1 fullShare L)

/-- The body at point t, on the blocks the fetches left and scratch columns that are the point before's (anything at the first
    tile of a run): it leaves the inputs as found, the scratch at this point's columns, and the outputs at the run's columns at
    the run's last tile, as found elsewhere. -/
theorem step_point (c : Dev nD) (t : Fin cfg0.N) (M L : Vec Ideal S512x1 .f32)
    (hML : ¬t.val % 11 = 0 → M = colM m c (t.val - 1) ∧ L = colL m c (t.val - 1))
    (d1 : Vec Ideal S4080x512 .f32) (X4 X5 : Vec Ideal S1x512x1 .f32) (K : PUnit → sProp 𝕄) :
    iprop(bufs c t (Gen.iblk m c 0 t) (win0_1.fill (grid0.coords t) d1 (Gen.iblk m c 1 t)) (Gen.iblk m c 2 t) (Gen.iblk m c 3 t) X4 X5 M L
          ∗ (bufs c t (Gen.iblk m c 0 t) (win0_1.fill (grid0.coords t) d1 (Gen.iblk m c 1 t)) (Gen.iblk m c 2 t) (Gen.iblk m c 3 t)
              (if t.val % 11 = 10 then outM m c t.val else X4) (if t.val % 11 = 10 then outL m c t.val else X5)
              (colM m c t.val) (colL m c t.val) -∗ K ⟨⟩))
      ⊢ wp frame (wpE (defs₀ (F := Ideal)) Cert.IdealBody.𝒱₀ c none) Set.univ (Gen.bodyAt0 t) K := by
  have hc := step_cols m c t (Gen.iblk m c 0 t) (win0_1.fill (grid0.coords t) d1 (Gen.iblk m c 1 t)) (Gen.iblk m c 2 t) (Gen.iblk m c 3 t) M L
    (iblk0_apply m c t) (fill1_apply m c t d1) (iblk2_apply m c t) (iblk3_apply m c t) hML
  have hs := Cert.IdealBody.sound_body (F := Ideal) c Set.univ (grid0.coords t) (cfg0.slots t 0) (cfg0.slots t 1) (cfg0.slots t 2)
    (cfg0.slots t 3) (cfg0.slots t 4) (cfg0.slots t 5) (Gen.iblk m c 0 t) (win0_1.fill (grid0.coords t) d1 (Gen.iblk m c 1 t))
    (Gen.iblk m c 2 t) (Gen.iblk m c 3 t) X4 X5 M L K
  rw [hc.1, hc.2] at hs
  unfold bufs
  by_cases h10 : t.val % 11 = 10
  · rw [if_pos ((cond2_iff t).mpr h10), if_pos ((cond2_iff t).mpr h10), (out_cols m c t h10).1, (out_cols m c t h10).2] at hs
    rw [if_pos h10, if_pos h10]
    exact hs
  · rw [if_neg (fun h => h10 ((cond2_iff t).mp h)), if_neg (fun h => h10 ((cond2_iff t).mp h))] at hs
    rw [if_neg h10, if_neg h10]
    exact hs

/-- What the body is called with at point t (the obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t ∗ (dats m 0 c).leaves 5 t)

set_option maxHeartbeats 1600000 in
/-- The body at any point: the invariant hands it the scratch columns at what the point before left (at anything before the
    first point), the inputs' buffers hold their blocks, the outputs' whatever they hold; the step applies; the invariant takes
    the scratch back at this point's columns, and each output's buffer goes back at the run's column at the last tile of a
    run, as it was found elsewhere. The core owes nothing throughout. -/
theorem sound_point (c : Dev nD) (t : Fin cfg0.N) :
    bodyPre m c t ⊢ wp frame (wpE (defs₀ (F := Ideal)) Cert.IdealBody.𝒱₀ c none) Set.univ (Gen.bodyAt0 t) (fun _ => bodyPost m c t) := by
  unfold bodyPre bodyPost
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, after_0, after_1, after_2, after_3, win0_1.cut_fill]
  have hN : t.val < 22 := lt_of_lt_of_eq t.isLt (show cfg0.N = 22 from N_0)
  by_cases h10 : t.val % 11 = 10
  · rw [leaves_4_live m c t h10, leaves_5_live m c t h10, after_4, after_5]
    have hz : t.val ≠ 0 := by omega
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    have hs := step_point m c t (colM m c (t.val - 1)) (colL m c (t.val - 1)) (fun _ => ⟨rfl, rfl⟩) d1
      ((dats m 0 c).before 4 t d4) ((dats m 0 c).before 5 t d5)
    unfold bufs at hs
    rw [if_pos h10, if_pos h10] at hs
    iapply (hs _)
    isplitl [H0 H1 H2 H3 H4 H5 HS0 HS1]
    · isplitl [H0]; · iexact H0
      isplitl [H1]; · iexact H1
      isplitl [H2]; · iexact H2
      isplitl [H3]; · iexact H3
      isplitl [H4]; · iexact H4
      isplitl [H5]; · iexact H5
      isplitl [HS0]; · iexact HS0
      iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexists d1; iexact H1
    isplitl [H2]; · iexact H2
    isplitl [H3]; · iexact H3
    isplitl [H4]; · iexact H4
    iexact H5
  · rw [Dat.leaves_idle (dats m 0 c) 4 t (idle_4 t h10) (noflush_4 t h10),
      Dat.leaves_idle (dats m 0 c) 5 t (idle_5 t h10) (noflush_5 t h10)]
    by_cases hz : t.val = 0
    · rw [PhiS_castSucc m c t, PhiS_zero m c _ _ hz, PhiA0_eq]
      iintro ⟨⟨⟨⟨%M, HS0⟩, ⟨%L, HS1⟩⟩, Hg⟩, Ho, ⟨%d0, H0⟩, ⟨%d1, H1⟩, ⟨%d2, H2⟩, ⟨%d3, H3⟩, ⟨%d4, H4⟩, ⟨%d5, H5⟩⟩
      have hs := step_point m c t M L (fun h => absurd (by rw [hz]) h) d1
        ((dats m 0 c).before 4 t d4) ((dats m 0 c).before 5 t d5)
      unfold bufs at hs
      rw [if_neg h10, if_neg h10] at hs
      iapply (hs _)
      isplitl [H0 H1 H2 H3 H4 H5 HS0 HS1]
      · isplitl [H0]; · iexact H0
        isplitl [H1]; · iexact H1
        isplitl [H2]; · iexact H2
        isplitl [H3]; · iexact H3
        isplitl [H4]; · iexact H4
        isplitl [H5]; · iexact H5
        isplitl [HS0]; · iexact HS0
        iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexists d1; iexact H1
      isplitl [H2]; · iexact H2
      isplitl [H3]; · iexact H3
      isplitl [H4]; · iexists d4; iexact H4
      iexists d5; iexact H5
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      have hs := step_point m c t (colM m c (t.val - 1)) (colL m c (t.val - 1)) (fun _ => ⟨rfl, rfl⟩) d1
        ((dats m 0 c).before 4 t d4) ((dats m 0 c).before 5 t d5)
      unfold bufs at hs
      rw [if_neg h10, if_neg h10] at hs
      iapply (hs _)
      isplitl [H0 H1 H2 H3 H4 H5 HS0 HS1]
      · isplitl [H0]; · iexact H0
        isplitl [H1]; · iexact H1
        isplitl [H2]; · iexact H2
        isplitl [H3]; · iexact H3
        isplitl [H4]; · iexact H4
        isplitl [H5]; · iexact H5
        isplitl [HS0]; · iexact HS0
        iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexists d1; iexact H1
      isplitl [H2]; · iexact H2
      isplitl [H3]; · iexact H3
      isplitl [H4]; · iexists d4; iexact H4
      iexists d5; iexact H5

/-- The library's body obligation, at every point. -/
theorem body_obligation (c : Dev nD) : BodyObligationLoose (dats m 0 c) (defs₀ (F := Ideal)) Cert.IdealBody.𝒱₀ () Set.univ := fun t => by
  rw [Gen.bigSep_W0, Gen.bigSep_W0]
  exact sound_point m c t

/-! ## The launch -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the scratch columns' named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 22 := N_0; omega), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- At the compiled mesh, from any memory with zero counters: every weakly fair execution of the program on the TensorCores
    terminates, and every final state has every array of the pipeline at what the library computes from the proof data and every
    other unscoped buffer as the lines after the region leave it. -/
theorem run_main : θ_run defs (onTc (τ := τ) (main (F := Ideal))) (s₀ m ρ) (Pipeline.FramePost cfgs (dats m) 0 (Pipeline.afterTail₀ cfgs (dats m) 0 (Gen.V0 m) [hostOps1, hostOps1_1, hostOps1_2])) :=
  Pipeline.θ_run_frame_around_track cfgs (dats m) (0 : Fin 1) launch0 defs₀ Cert.IdealBody.𝒱₀ m ρ main
    (hbody := body_obligation m) (hshare := fun c => (dats m 0 c).share_full fun _ => rfl)
    (howed := fun _ _ => rfl) (V₀ := Gen.V0 m) (opss := [hostOps1, hostOps1_1, hostOps1_2]) (hsub := Gen.sfx_sub) (hfresh := Gen.sfx_fresh)
    (hkeep := Gen.sfx_keeps) (hmain := Gen.hmain m Cert.IdealBody.𝒱₀) (hA := dats_A m) (hin := hin m) (hout := hout m)

end Cert.IdealRun

end
-- ==== Proof.IdealOut.lean ====
/-
  The two output arrays after the kernel region, in closed form.

  Each output is an array 2 x 512 x 1 written back in blocks 1 x 512 x 1, block number the run; only the last point of a
  run (the points 10 and 21 of the 22) writes its block back, and what it writes is the run's column after its eleven tiles,
  relaid. The two blocks tile the array, so after the region entry (core, n, 0) of the first array is the running maximum of
  run core after eleven tiles at row n, and of the second the running sum. An array the region only reads is unchanged.
-/
import proofs.«421507_j48103633715511_2_alg».proof.Proof.IdealRun
import Idealize.ShloMosaic.Lib.Pipeline.Value
import Idealize.ShloMosaic.Lib.ValueIdx

set_option maxRecDepth 16384

noncomputable section

namespace Cert.IdealOut

open Cert.KernelIdeal Cert.KernelIdeal.Gen Cert.KDefs Cert.IdealRun
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- An array the region only reads is, after every point, what the region found. -/
theorem arrAt_in (c : Dev nD) (w : Fin cfg0.W) (hw : (cfg0.win w).isOut = false) :
    (dats m 0 c).arrAt w cfg0.N = Gen.V m c (Pipeline.arrRef spec0 w) :=
  ((dats m 0 c).arrAt_in w hw cfg0.N).trans (dats_A m c w)

/-- The first output array in closed form: entry (core, n, u) is the maximum of run core after its eleven tiles, at row n. -/
def finM (c : Dev nD) : S2x512x1.Idx → EReal := fun j => (Cert.Spec.mlAt (SK m c) (j 0).val 11).1 (j 1)
/-- The second likewise: the run's sum. -/
def finL (c : Dev nD) : S2x512x1.Idx → EReal := fun j => (Cert.Spec.mlAt (SK m c) (j 0).val 11).2 (j 1)

/-! ## The first output -/

/-- What point t writes back of the first output is block t of the closed form. -/
theorem flushed4_eq (c : Dev nD) (t : Fin cfg0.N) :
    (dats m 0 c).flushed 4 t = ((cfg0.win 4).blk t).view.read (Elt Ideal) (finM m c) := by
  funext y
  have e0 : ((((cfg0.win 4).blk t).view.emb y) 0).val = t.val / 11 := by
    show win0_4.index t 0 * 1 + 1 * (y 0).val = t.val / 11
    have hy : (y 0).val < 1 := (y 0).isLt
    rw [(index_4 t).1]; omega
  have e1 : (((cfg0.win 4).blk t).view.emb y) 1 = y 1 := by
    apply Fin.ext
    show win0_4.index t 1 * 512 + 1 * (y 1).val = (y 1).val
    rw [(index_4 t).2.1]; omega
  show (Cert.Spec.mlAt (SK m c) (t.val / 11) 11).1 (y 1)
    = (Cert.Spec.mlAt (SK m c) ((((cfg0.win 4).blk t).view.emb y) 0).val 11).1 ((((cfg0.win 4).blk t).view.emb y) 1)
  rw [e0, e1]

/-- An index of the first output array is in point t's block iff each coordinate is in the block's range on its axis. -/
theorem mem_blk4 (t : Fin cfg0.N) (i : S2x512x1.Idx) :
    i ∈ ((cfg0.win 4).blk t).view.set ↔ ∀ a : Fin 3, win0_4.index t a * S1x512x1.size a ≤ (i a).val
      ∧ (i a).val < win0_4.index t a * S1x512x1.size a + S1x512x1.size a := by
  show i ∈ ((View.whole main_v16_0).slice (win0_4.rect t)).set ↔ _
  rw [View.set_slice_whole, Rect.mem_set_unit]
  exact Iff.rfl

/-- Every index of the first output array is in the block of a point that writes back: the last point of its run. -/
theorem cover4 (i : S2x512x1.Idx) :
    ∃ t : Fin cfg0.N, (cfg0.win 4).flush t = true ∧ i ∈ ((cfg0.win 4).blk t).view.set := by
  have h0 : (i 0).val < 2 := (i 0).isLt
  have h1 : (i 1).val < 512 := (i 1).isLt
  have h2 : (i 2).val < 1 := (i 2).isLt
  have hN : (i 0).val * 11 + 10 < cfg0.N := by
    show (i 0).val * 11 + 10 < grid0.N
    rw [Gen.N_0]; omega
  refine ⟨⟨(i 0).val * 11 + 10, hN⟩, (Gen.flush0_4 _).mpr (by show ((i 0).val * 11 + 10) % 11 = 10; omega), ?_⟩
  rw [mem_blk4]
  obtain ⟨q0, q1, q2⟩ := index_4 ⟨(i 0).val * 11 + 10, hN⟩
  have q0' : win0_4.index ⟨(i 0).val * 11 + 10, hN⟩ 0 = (i 0).val := by
    rw [q0]; show ((i 0).val * 11 + 10) / 11 = (i 0).val; omega
  intro a
  match a with
  | ⟨0, _⟩ =>
    show win0_4.index ⟨(i 0).val * 11 + 10, hN⟩ 0 * 1 ≤ (i 0).val ∧ (i 0).val < win0_4.index ⟨(i 0).val * 11 + 10, hN⟩ 0 * 1 + 1
    rw [q0']; omega
  | ⟨1, _⟩ =>
    show win0_4.index ⟨(i 0).val * 11 + 10, hN⟩ 1 * 512 ≤ (i 1).val ∧ (i 1).val < win0_4.index ⟨(i 0).val * 11 + 10, hN⟩ 1 * 512 + 512
    rw [q1]; omega
  | ⟨2, _⟩ =>
    show win0_4.index ⟨(i 0).val * 11 + 10, hN⟩ 2 * 1 ≤ (i 2).val ∧ (i 2).val < win0_4.index ⟨(i 0).val * 11 + 10, hN⟩ 2 * 1 + 1
    rw [q2]; omega

/-- The first output array after the run is the closed form. -/
theorem final4 (c : Dev nD) : (dats m 0 c).arrAt 4 cfg0.N = finM m c :=
  (dats m 0 c).arrAt_eq_of_cover 4 (finM m c) (fun t _ => flushed4_eq m c t) cover4

/-- Entry (core, n, 0) of the first output array after the run: the maximum of run core after its eleven tiles, at row n. -/
theorem arrAt4 (c : Dev nD) (core : Fin 2) (n : Fin 512) :
    ((dats m 0 c).arrAt 4 cfg0.N : S2x512x1.Idx → EReal) (ValueIdx.ix3 core n 0) = (Cert.Spec.mlAt (Cert.KDefs.SK m c) core.val 11).1 n := by
  rw [final4]
  rfl

/-! ## The second output -/

/-- What point t writes back of the second output is block t of the closed form. -/
theorem flushed5_eq (c : Dev nD) (t : Fin cfg0.N) :
    (dats m 0 c).flushed 5 t = ((cfg0.win 5).blk t).view.read (Elt Ideal) (finL m c) := by
  funext y
  have e0 : ((((cfg0.win 5).blk t).view.emb y) 0).val = t.val / 11 := by
    show win0_5.index t 0 * 1 + 1 * (y 0).val = t.val / 11
    have hy : (y 0).val < 1 := (y 0).isLt
    rw [(index_5 t).1]; omega
  have e1 : (((cfg0.win 5).blk t).view.emb y) 1 = y 1 := by
    apply Fin.ext
    show win0_5.index t 1 * 512 + 1 * (y 1).val = (y 1).val
    rw [(index_5 t).2.1]; omega
  show (Cert.Spec.mlAt (SK m c) (t.val / 11) 11).2 (y 1)
    = (Cert.Spec.mlAt (SK m c) ((((cfg0.win 5).blk t).view.emb y) 0).val 11).2 ((((cfg0.win 5).blk t).view.emb y) 1)
  rw [e0, e1]

/-- An index of the second output array is in point t's block iff each coordinate is in the block's range on its axis. -/
theorem mem_blk5 (t : Fin cfg0.N) (i : S2x512x1.Idx) :
    i ∈ ((cfg0.win 5).blk t).view.set ↔ ∀ a : Fin 3, win0_5.index t a * S1x512x1.size a ≤ (i a).val
      ∧ (i a).val < win0_5.index t a * S1x512x1.size a + S1x512x1.size a := by
  show i ∈ ((View.whole main_v16_1).slice (win0_5.rect t)).set ↔ _
  rw [View.set_slice_whole, Rect.mem_set_unit]
  exact Iff.rfl

/-- Every index of the second output array is in the block of a point that writes back: the last point of its run. -/
theorem cover5 (i : S2x512x1.Idx) :
    ∃ t : Fin cfg0.N, (cfg0.win 5).flush t = true ∧ i ∈ ((cfg0.win 5).blk t).view.set := by
  have h0 : (i 0).val < 2 := (i 0).isLt
  have h1 : (i 1).val < 512 := (i 1).isLt
  have h2 : (i 2).val < 1 := (i 2).isLt
  have hN : (i 0).val * 11 + 10 < cfg0.N := by
    show (i 0).val * 11 + 10 < grid0.N
    rw [Gen.N_0]; omega
  refine ⟨⟨(i 0).val * 11 + 10, hN⟩, (Gen.flush0_5 _).mpr (by show ((i 0).val * 11 + 10) % 11 = 10; omega), ?_⟩
  rw [mem_blk5]
  obtain ⟨q0, q1, q2⟩ := index_5 ⟨(i 0).val * 11 + 10, hN⟩
  have q0' : win0_5.index ⟨(i 0).val * 11 + 10, hN⟩ 0 = (i 0).val := by
    rw [q0]; show ((i 0).val * 11 + 10) / 11 = (i 0).val; omega
  intro a
  match a with
  | ⟨0, _⟩ =>
    show win0_5.index ⟨(i 0).val * 11 + 10, hN⟩ 0 * 1 ≤ (i 0).val ∧ (i 0).val < win0_5.index ⟨(i 0).val * 11 + 10, hN⟩ 0 * 1 + 1
    rw [q0']; omega
  | ⟨1, _⟩ =>
    show win0_5.index ⟨(i 0).val * 11 + 10, hN⟩ 1 * 512 ≤ (i 1).val ∧ (i 1).val < win0_5.index ⟨(i 0).val * 11 + 10, hN⟩ 1 * 512 + 512
    rw [q1]; omega
  | ⟨2, _⟩ =>
    show win0_5.index ⟨(i 0).val * 11 + 10, hN⟩ 2 * 1 ≤ (i 2).val ∧ (i 2).val < win0_5.index ⟨(i 0).val * 11 + 10, hN⟩ 2 * 1 + 1
    rw [q2]; omega

/-- The second output array after the run is the closed form. -/
theorem final5 (c : Dev nD) : (dats m 0 c).arrAt 5 cfg0.N = finL m c :=
  (dats m 0 c).arrAt_eq_of_cover 5 (finL m c) (fun t _ => flushed5_eq m c t) cover5

/-- Entry (core, n, 0) of the second output array after the run: the sum of run core after its eleven tiles, at row n. -/
theorem arrAt5 (c : Dev nD) (core : Fin 2) (n : Fin 512) :
    ((dats m 0 c).arrAt 5 cfg0.N : S2x512x1.Idx → EReal) (ValueIdx.ix3 core n 0) = (Cert.Spec.mlAt (Cert.KDefs.SK m c) core.val 11).2 n := by
  rw [final5]
  rfl

end Cert.IdealOut

end
-- ==== Proof.LibGather.lean ====
/-
  A row gather read at an index.  The operand is [N, C], the start indices a column [R, 1], the result [R, C]:
  result row r is operand row idx[r], the index word read signed and clamped into the row axis.
-/
import Idealize.ShloMosaic.PureOps
import Idealize.ShloMosaic.Lib.ValueIdx

noncomputable section

namespace Cert.LibGather

open Idealize.ShloMosaic Idealize.ShloMosaic.ValueIdx

/-- The dimension numbers of a row gather: offset axis 1, collapsed axis 0, the one index component addressing
    axis 0, the index vector along axis 1, slices of one whole row. -/
abbrev rowGather (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (r, k): the operand at row idx[r, 0] (read signed, clamped into [0, N − 1]), column k. -/
theorem gather_row_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowGather N R C wf) x idx (ix2 r k)
      = x (ix2 ⟨min (idx (ix2 r (⟨0, Nat.one_pos⟩ : Fin 1))).toInt.toNat (N - 1), by omega⟩ k) := by
  unfold Host.gather
  congr 1
  -- the collapsed axis: no batching or offset coordinate, the start is the clamped index word
  have h0 : (rowGather N R C wf).start (ix2 r k) idx (0 : Fin 2) + (rowGather N R C wf).batchCoord (ix2 r k) (0 : Fin 2)
      + (rowGather N R C wf).offCoord (ix2 r k) (0 : Fin 2) = min (idx (ix2 r (⟨0, Nat.one_pos⟩ : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    have hsi : (rowGather N R C wf).siIdx (ix2 r k) ⟨List.idxOf (0 : Fin 2) (rowGather N R C wf).startIndexMap,
        List.idxOf_lt_length_iff.2 (List.mem_singleton.mpr rfl)⟩ = ix2 r (⟨0, Nat.one_pos⟩ : Fin 1) := by
      funext b; refine Fin.ext ?_
      match b with
      | ⟨0, _⟩ => rfl
      | ⟨1, _⟩ => rfl
    rw [hsi]
    rfl
  -- the offset axis: the start is zero, the offset coordinate is the result's column
  have h1 : (rowGather N R C wf).start (ix2 r k) idx (1 : Fin 2) + (rowGather N R C wf).batchCoord (ix2 r k) (1 : Fin 2)
      + (rowGather N R C wf).offCoord (ix2 r k) (1 : Fin 2) = k.val := by
    have hm : (1 : Fin 2) ∉ (rowGather N R C wf).startIndexMap :=
      show (1 : Fin 2) ∉ ([0] : List (Fin 2)) by decide
    have hs : (rowGather N R C wf).start (ix2 r k) idx (1 : Fin 2) = 0 := by
      unfold GatherDims.start; rw [dif_neg hm]
    have hk : (1 : Fin 2) ∈ (rowGather N R C wf).sKept :=
      (GatherDims.mem_sKept _ _).mpr ⟨show (1 : Fin 2) ∉ ([0] : List (Fin 2)) by decide, List.not_mem_nil⟩
    have ho : (rowGather N R C wf).offCoord (ix2 r k) (1 : Fin 2) = k.val := by
      unfold GatherDims.offCoord; rw [dif_pos hk]; rfl
    rw [GatherDims.batchCoord_eq_zero _ _ _ List.not_mem_nil, hs, ho, Nat.add_zero, Nat.zero_add]
  funext a
  refine Fin.ext ?_
  match a with
  | ⟨0, _⟩ => exact h0
  | ⟨1, _⟩ => exact h1

end Cert.LibGather

end
-- ==== Proof.KTail.lean ====
/-
  The host lines after the kernel region, read at their one result entry: from the two output arrays (a maximum and a sum per
  run and row) they form each row's log-sum-exp, subtract the row's logit at its label, average over the rows, and take off
  one hundred times the mean of the four exponentiated margins.
-/
import proofs.«421507_j48103633715511_2_alg».proof.Proof.Spec
import proofs.«421507_j48103633715511_2_alg».proof.Proof.KDefs
import proofs.«421507_j48103633715511_2_alg».proof.Proof.LibGather
import Idealize.ShloMosaic.Lib.Pipeline.FrameSuffix
import Idealize.ShloMosaic.Lib.Pipeline.Value
import Idealize.ShloMosaic.Lib.StableHlo.Run
import Idealize.ShloMosaic.Lib.StableHlo.Predicate
import Idealize.ShloMosaic.Lib.ValueIdx
import Idealize.ShloMosaic.PureOps.Ideal.Laws

noncomputable section

namespace Cert.KTail

open Idealize.ShloMosaic Idealize.ShloMosaic.ValueIdx Idealize.ShloMosaic.TcCoe Idealize.SL.Sem Cert.KernelIdeal Cert.KernelIdeal.Gen Cert.KDefs

/-! ## The stages of the lines after the region, as functions of the arrays they read -/

theorem hlog_apply {s : Shape} {φ : FTy} (x : FVec Ideal s φ) (i : s.Idx) : Host.log x i = Ideal.log (x i) := rfl
theorem hexp_apply {s : Shape} {φ : FTy} (x : FVec Ideal s φ) (i : s.Idx) : Host.exp x i = Ideal.exp (x i) := rfl
theorem hsqrt_apply {s : Shape} {φ : FTy} (x : FVec Ideal s φ) (i : s.Idx) : Host.sqrt x i = Ideal.sqrt (x i) := rfl
theorem hdivf_apply {s : Shape} {φ : FTy} (x y : FVec Ideal s φ) (i : s.Idx) : Host.divf x y i = Ideal.div (x i) (y i) := rfl

/-- One run's column of a [2, 512, 1] output: the slice at the run, as a [512, 1] column. -/
def col (off : Fin 3 → Nat) (h : S2x512x1.Slices off S1x512x1) (o : FVec Ideal S2x512x1 .f32) : FVec Ideal S512x1 .f32 :=
  fun i => shapeCast S512x1 (extractStridedSlice S1x512x1 off o h) shapeCasts_S1x512x1_S512x1 i

theorem col_apply (q : Fin 2) (h : S2x512x1.Slices ![q.val, 0, 0] S1x512x1) (o : FVec Ideal S2x512x1 .f32) (n : Fin 512) :
    (col ![q.val, 0, 0] h o : S512x1.Idx → EReal) (ix2 n 0) = (o : S2x512x1.Idx → EReal) (ix3 q n 0) := by
  unfold col
  refine (shapeCast_apply _ shapeCasts_S1x512x1_S512x1 (ix2 n 0) (ix3 (0 : Fin 1) n (0 : Fin 1)) ?_).trans ?_
  · rw [Shape.rowMajor_val_three, Shape.rowMajor_val_two]
    show ((0 : Nat) * 512 + n.val) * 1 + 0 = n.val * 1 + 0
    omega
  · refine extractStridedSlice_apply _ o h _ (ix3 q n 0) (fun a => ?_)
    match a with
    | ⟨0, _⟩ => show q.val = q.val + 0; omega
    | ⟨1, _⟩ => show n.val = 0 + n.val; omega
    | ⟨2, _⟩ => show (0 : Nat) = 0 + 0; omega

/-- The log-sum-exp column: the two runs' maxima and sums joined. -/
def lseCol (o0 o1 : FVec Ideal S2x512x1 .f32) : FVec Ideal S512x1 .f32 :=
  let m0 := col ![0, 0, 0] slices_S2x512x1_S1x512x1_0_0_0 o0
  let m1 := col ![1, 0, 0] slices_S2x512x1_S1x512x1_1_0_0 o0
  let l0 := col ![0, 0, 0] slices_S2x512x1_S1x512x1_0_0_0 o1
  let l1 := col ![1, 0, 0] slices_S2x512x1_S1x512x1_1_0_0 o1
  let M := maximumf m0 m1
  addf M (Host.log (addf (mulf l0 (Host.exp (subf m0 M))) (mulf l1 (Host.exp (subf m1 M)))))

theorem lseCol_apply (o0 o1 : FVec Ideal S2x512x1 .f32) (n : Fin 512) :
    (lseCol o0 o1 : S512x1.Idx → EReal) (ix2 n 0)
      = Cert.Spec.lse2 ((o0 : S2x512x1.Idx → EReal) (ix3 0 n 0)) ((o0 : S2x512x1.Idx → EReal) (ix3 1 n 0))
          ((o1 : S2x512x1.Idx → EReal) (ix3 0 n 0)) ((o1 : S2x512x1.Idx → EReal) (ix3 1 n 0)) := by
  have a0 := col_apply 0 slices_S2x512x1_S1x512x1_0_0_0 o0 n
  have a1 := col_apply 1 slices_S2x512x1_S1x512x1_1_0_0 o0 n
  have b0 := col_apply 0 slices_S2x512x1_S1x512x1_0_0_0 o1 n
  have b1 := col_apply 1 slices_S2x512x1_S1x512x1_1_0_0 o1 n
  simp only [lseCol, addf_apply, maximumf_apply, mulf_apply, subf_apply, hlog_apply, hexp_apply, Cert.Spec.lse2]
  rw [← a0, ← a1, ← b0, ← b1]
  rfl

/-- The label with a negative one wrapped round by the class count. -/
def wrapLab (lab : IVec S512 32) : IVec S512 32 :=
  select (cmpi .slt lab (broadcastInDim S512 ![] bcast_S_S512 (constantI S_ 32 0#32)))
    (addi lab (broadcastInDim S512 ![] bcast_S_S512 (constantI S_ 32 85742#32))) lab

theorem wrapLab_apply (lab : IVec S512 32) (n : Fin 512) (j : Fin 85742) (h : lab (ix1 n) = BitVec.ofNat 32 j.val) :
    wrapLab lab (ix1 n) = BitVec.ofNat 32 j.val := by
  have hj : j.val < 2 ^ 31 := by have := j.isLt; omega
  have hc : IntOp.cmpi .slt (BitVec.ofNat 32 j.val) 0#32 = 0#1 := by
    refine eq_zero_of_ne_one (fun hc => ?_)
    have h1 := IntOp.cmpi_slt.1 hc
    rw [StableHlo.Predicate.toInt_ofNat_small _ hj] at h1
    have h0 : (0#32 : BitVec 32).toInt = 0 := by decide
    omega
  show Scalar.select (IntOp.cmpi .slt (lab (ix1 n)) 0#32) _ (lab (ix1 n)) = _
  rw [h, hc, select_zero]

/-- The class rows the labels pick. -/
def gRows (w : FVec Ideal S85742x512 .f32) (lab : IVec S512 32) : FVec Ideal S512x512 .f32 :=
  Host.gather gather_S85742x512_S512x1_S512x512_1_0_n_n_0_1_1512 w (broadcastInDim S512x1 ![0] bcast_S512_S512x1_0 (wrapLab lab))

theorem gRows_apply (w : FVec Ideal S85742x512 .f32) (lab : IVec S512 32) (n k : Fin 512) (j : Fin 85742)
    (h : lab (ix1 n) = BitVec.ofNat 32 j.val) :
    (gRows w lab : S512x512.Idx → EReal) (ix2 n k) = (w : S85742x512.Idx → EReal) (ix2 j k) := by
  have hj : j.val < 2 ^ 31 := by have := j.isLt; omega
  have hb : broadcastInDim S512x1 ![0] bcast_S512_S512x1_0 (wrapLab lab) (ix2 n (⟨0, Nat.one_pos⟩ : Fin 1)) = BitVec.ofNat 32 j.val := by
    refine (broadcastInDim_apply _ bcast_S512_S512x1_0 (wrapLab lab) _ (ix1 n) (fun a => ?_)).trans (wrapLab_apply lab n j h)
    match a with
    | ⟨0, _⟩ => rfl
  show Host.gather (Cert.LibGather.rowGather 85742 512 512 gather_S85742x512_S512x1_S512x512_1_0_n_n_0_1_1512_wf) w _ (ix2 n k) = _
  rw [Cert.LibGather.gather_row_apply (by norm_num)]
  refine congrArg w (congrArg (fun r : Fin 85742 => (ix2 r k : S85742x512.Idx)) (Fin.ext ?_))
  show min (broadcastInDim S512x1 ![0] bcast_S512_S512x1_0 (wrapLab lab) (ix2 n (⟨0, Nat.one_pos⟩ : Fin 1))).toInt.toNat (85742 - 1) = j.val
  have := j.isLt
  rw [hb, StableHlo.Predicate.toInt_ofNat_small _ hj, Int.toNat_natCast]
  omega

/-- The Euclidean norm of each row, as a column. -/
def nrmCol (g : FVec Ideal S512x512 .f32) : FVec Ideal S512x1 .f32 :=
  Host.sqrt (broadcastInDim S512x1 ![0] bcast_S512_S512x1_0
    (Host.reduceAdd (mulf g g) (constant (F := Ideal) S_ .f32 0x00000000#32) reducesTo_S512x512_S512_d1 h_S_))

/-- A row sum of a [512, 512] array, from zero. -/
theorem rowSum_apply (y : FVec Ideal S512x512 .f32) (n : Fin 512) :
    (Host.reduceAdd y (constant (F := Ideal) S_ .f32 0x00000000#32) reducesTo_S512x512_S512_d1 h_S_ : S512.Idx → EReal) (ix1 n)
      = ∑ k : Fin 512, (y : S512x512.Idx → EReal) (ix2 n k) := by
  simp only [Host.reduceAdd, Ideal.hostReduceAdd_def]
  rw [Ideal.hostReduceAdd_single reducesTo_S512x512_S512_d1 (by decide)]
  rw [show (constant (F := Ideal) S_ .f32 0x00000000#32 (Shape.Idx.first h_S_) : EReal) = 0 from Ideal.ofBits_zero_f32, zero_add]
  refine Finset.sum_congr rfl fun k _ => ?_
  exact congrArg y (funext fun a => Fin.ext (by match a with | ⟨0, _⟩ => rfl | ⟨1, _⟩ => rfl))

/-- A [512] vector laid as a column reads the vector at the row. -/
theorem bcastCol_apply {α : Type} (v : S512.Idx → α) (n : Fin 512) :
    broadcastInDim S512x1 ![0] bcast_S512_S512x1_0 v (ix2 n 0) = v (ix1 n) := by
  refine broadcastInDim_apply _ bcast_S512_S512x1_0 v _ (ix1 n) (fun a => ?_)
  match a with
  | ⟨0, _⟩ => rfl

theorem nrmCol_apply (g : FVec Ideal S512x512 .f32) (n : Fin 512) :
    (nrmCol g : S512x1.Idx → EReal) (ix2 n 0)
      = Ideal.sqrt (∑ k : Fin 512, (g : S512x512.Idx → EReal) (ix2 n k) * (g : S512x512.Idx → EReal) (ix2 n k)) := by
  unfold nrmCol
  rw [hsqrt_apply, bcastCol_apply, rowSum_apply]
  rfl

/-- Each row divided by its norm clamped below. -/
def wnRows (g : FVec Ideal S512x512 .f32) : FVec Ideal S512x512 .f32 :=
  Host.divf g (broadcastInDim S512x512 ![0, 1] bcast_S512x1_S512x512_0_1
    (maximumf (nrmCol g) (broadcastInDim S512x1 ![] bcast_S_S512x1 (constant (F := Ideal) S_ .f32 0x2B8CBCCC#32))))

theorem wnRows_apply (g : FVec Ideal S512x512 .f32) (n k : Fin 512) :
    (wnRows g : S512x512.Idx → EReal) (ix2 n k)
      = Cert.Spec.normRow (fun r k' => (g : S512x512.Idx → EReal) (ix2 r k')) n k := by
  unfold wnRows Cert.Spec.normRow
  rw [hdivf_apply]
  refine congrArg (Ideal.div _) ?_
  refine (broadcastInDim_apply _ bcast_S512x1_S512x512_0_1 _ _ (ix2 n 0) (fun a => ?_)).trans ?_
  · match a with
    | ⟨0, _⟩ => rfl
    | ⟨1, _⟩ => rfl
  · rw [maximumf_apply, nrmCol_apply]
    rfl

/-- The scaled logit at the label, as a column. -/
def tgtCol (x4 wn : FVec Ideal S512x512 .f32) (mg : FVec Ideal S512x1 .f32) : FVec Ideal S512x1 .f32 :=
  mulf (broadcastInDim S512x1 ![] bcast_S_S512x1 (constant (F := Ideal) S_ .f32 0x42800000#32))
    (subf (broadcastInDim S512x1 ![0] bcast_S512_S512x1_0
      (Host.reduceAdd (mulf x4 wn) (constant (F := Ideal) S_ .f32 0x00000000#32) reducesTo_S512x512_S512_d1 h_S_)) mg)

theorem tgtCol_apply (x4 wn : FVec Ideal S512x512 .f32) (mg : FVec Ideal S512x1 .f32) (n : Fin 512) :
    (tgtCol x4 wn mg : S512x1.Idx → EReal) (ix2 n 0)
      = Cert.Spec.scale * ((∑ k : Fin 512, (x4 : S512x512.Idx → EReal) (ix2 n k) * (wn : S512x512.Idx → EReal) (ix2 n k))
          - (mg : S512x1.Idx → EReal) (ix2 n 0)) := by
  unfold tgtCol
  rw [mulf_apply, subf_apply, bcastCol_apply, rowSum_apply]
  rfl

/-- The lines after the region, as one function of the seven arrays they read. -/
def tailFn (o0 o1 : FVec Ideal S2x512x1 .f32) (lab : IVec S512 32) (w : FVec Ideal S85742x512 .f32)
    (x4 : FVec Ideal S512x512 .f32) (mg : FVec Ideal S512x1 .f32) (t6 : FVec Ideal S4 .f32) : FVec Ideal S_ .f32 :=
  subf
    (Host.divf
      (Host.reduceAdd (subf (lseCol o0 o1) (tgtCol x4 (wnRows (gRows w lab)) mg)) (constant (F := Ideal) S_ .f32 0x00000000#32)
        reducesTo_S512x1_S_d0_1 h_S_)
      (constant (F := Ideal) S_ .f32 0x44000000#32))
    (mulf (constant (F := Ideal) S_ .f32 0x42C80000#32)
      (Host.divf (Host.reduceAdd t6 (constant (F := Ideal) S_ .f32 0x00000000#32) reducesTo_S4_S_d0 h_S_)
        (constant (F := Ideal) S_ .f32 0x40800000#32)))

/-- A sum over the entries of a [512, 1] column is the sum over its rows. -/
theorem sum_col (f : S512x1.Idx → EReal) : ∑ i : S512x1.Idx, f i = ∑ n : Fin 512, f (ix2 n 0) := by
  rw [sum_idx2]
  refine Finset.sum_congr rfl fun n _ => ?_
  exact Fin.sum_univ_one (fun b : Fin 1 => f (ix2 n b))

/-- A sum over the entries of a [4] vector is the sum over its positions. -/
theorem sum_vec4 (f : S4.Idx → EReal) : ∑ i : S4.Idx, f i = ∑ d : Fin 4, f (ix1 d) := by
  refine Fintype.sum_equiv ⟨fun i => i 0, fun d => ix1 d, fun i => (eq_ix1 i).symm, fun _ => rfl⟩ _ _ (fun i => ?_)
  exact congrArg f (eq_ix1 i)

theorem tailFn_apply (o0 o1 : FVec Ideal S2x512x1 .f32) (lab : IVec S512 32) (w : FVec Ideal S85742x512 .f32)
    (x4 : FVec Ideal S512x512 .f32) (mg : FVec Ideal S512x1 .f32) (t6 : FVec Ideal S4 .f32) (i : S_.Idx) :
    (tailFn o0 o1 lab w x4 mg t6 : S_.Idx → EReal) i
      = Ideal.div (∑ n : Fin 512, ((lseCol o0 o1 : S512x1.Idx → EReal) (ix2 n 0)
            - (tgtCol x4 (wnRows (gRows w lab)) mg : S512x1.Idx → EReal) (ix2 n 0))) Cert.Spec.c512
          - Cert.Spec.c100 * Ideal.div (∑ d : Fin 4, (t6 : S4.Idx → EReal) (ix1 d)) Cert.Spec.c4 := by
  unfold tailFn
  rw [subf_apply, hdivf_apply, mulf_apply, hdivf_apply]
  simp only [Host.reduceAdd, Ideal.hostReduceAdd_def]
  rw [Ideal.hostReduceAdd_total reducesTo_S512x1_S_d0_1 (fun b => b.elim0),
    Ideal.hostReduceAdd_total reducesTo_S4_S_d0 (fun b => b.elim0)]
  rw [show (constant (F := Ideal) S_ .f32 0x00000000#32 (Shape.Idx.first h_S_) : EReal) = 0 from Ideal.ofBits_zero_f32,
    zero_add, zero_add, sum_col, sum_vec4]
  rfl

/-- THE TAIL'S VALUE: where the label words are the classes lb, the mean over the rows of (log-sum-exp minus the scaled logit
    at the label), less one hundred times the mean of the four entries of t6. -/
theorem tailFn_eq (o0 o1 : FVec Ideal S2x512x1 .f32) (lab : IVec S512 32) (w : FVec Ideal S85742x512 .f32)
    (x4 : FVec Ideal S512x512 .f32) (mg : FVec Ideal S512x1 .f32) (t6 : FVec Ideal S4 .f32)
    (lb : Fin 512 → Fin 85742) (hlb : ∀ n, lab (ix1 n) = BitVec.ofNat 32 (lb n).val) :
    (tailFn o0 o1 lab w x4 mg t6 : S_.Idx → EReal)
      = fun _ => Ideal.div (∑ n : Fin 512,
            (Cert.Spec.lse2 ((o0 : S2x512x1.Idx → EReal) (ix3 0 n 0)) ((o0 : S2x512x1.Idx → EReal) (ix3 1 n 0))
                ((o1 : S2x512x1.Idx → EReal) (ix3 0 n 0)) ((o1 : S2x512x1.Idx → EReal) (ix3 1 n 0))
              - Cert.Spec.scale * ((∑ k : Fin 512, (x4 : S512x512.Idx → EReal) (ix2 n k)
                    * Cert.Spec.normRow (fun j k' => (w : S85742x512.Idx → EReal) (ix2 j k')) (lb n) k)
                  - (mg : S512x1.Idx → EReal) (ix2 n 0)))) Cert.Spec.c512
          - Cert.Spec.c100 * Ideal.div (∑ d : Fin 4, (t6 : S4.Idx → EReal) (ix1 d)) Cert.Spec.c4 := by
  funext i
  rw [tailFn_apply]
  refine congrArg (fun s => Ideal.div s Cert.Spec.c512 - Cert.Spec.c100 * Ideal.div (∑ d : Fin 4, (t6 : S4.Idx → EReal) (ix1 d)) Cert.Spec.c4)
    (Finset.sum_congr rfl fun n _ => ?_)
  rw [lseCol_apply, tgtCol_apply]
  have hg : ∀ k' : Fin 512, (gRows w lab : S512x512.Idx → EReal) (ix2 n k') = (w : S85742x512.Idx → EReal) (ix2 (lb n) k') :=
    fun k' => gRows_apply w lab n k' (lb n) (hlb n)
  have hrow : ∀ k : Fin 512, (wnRows (gRows w lab) : S512x512.Idx → EReal) (ix2 n k)
      = Cert.Spec.normRow (fun j k' => (w : S85742x512.Idx → EReal) (ix2 j k')) (lb n) k := by
    intro k
    rw [wnRows_apply]
    show Ideal.div ((gRows w lab : S512x512.Idx → EReal) (ix2 n k))
        (max (Ideal.sqrt (∑ k' : Fin 512, (gRows w lab : S512x512.Idx → EReal) (ix2 n k') * (gRows w lab : S512x512.Idx → EReal) (ix2 n k'))) Cert.Spec.eps)
      = Ideal.div ((w : S85742x512.Idx → EReal) (ix2 (lb n) k))
        (max (Ideal.sqrt (∑ k' : Fin 512, (w : S85742x512.Idx → EReal) (ix2 (lb n) k') * (w : S85742x512.Idx → EReal) (ix2 (lb n) k'))) Cert.Spec.eps)
    simp only [hg]
  simp only [hrow]

variable (m : (ℓ : Loc nD τ sig) → Buf (Elt Ideal) ℓ)

/-- The four exponentiated margins. -/
def tempK (c : Dev nD) (d : Fin 4) : EReal := Ideal.exp ((m ((c : Thread nD τ).loc main_arg4) : S4.Idx → EReal) (ix1 d))

/-- The normalised samples before the change of format: sample n, feature k. -/
def x4K (c : Dev nD) (n k : Fin 512) : EReal := (Gen.V m c main_v4 : S512x512.Idx → EReal) (ix2 n k)

/-! ## What the lines before the region leave in the buffers the tail reads -/

/-- The staged samples are the normalised samples (the change of format is the identity on extended reals). -/
theorem V_v5 (c : Dev nD) : (Gen.V m c main_v5 : S512x512.Idx → EReal) = (Gen.V m c main_v4 : S512x512.Idx → EReal) := by
  dsimp only [Gen.V, Gen.V0]
  simp only [hostOps0, hostOps0_1, List.flatten_cons, List.flatten_nil, List.append_nil, List.cons_append, List.nil_append]
  after_results_simp
  rfl

/-- The exponentiated margins. -/
theorem V_v6 (c : Dev nD) : (Gen.V m c main_v6 : S4.Idx → EReal)
    = fun i => Ideal.exp ((m ((c : Thread nD τ).loc main_arg4) : S4.Idx → EReal) i) := by
  dsimp only [Gen.V, Gen.V0]
  simp only [hostOps0, hostOps0_1, List.flatten_cons, List.flatten_nil, List.append_nil, List.cons_append, List.nil_append]
  after_results
  rfl

/-- The label column is the label vector, reshaped. -/
theorem V_v15 (c : Dev nD) (n : Fin 512) : (Gen.V m c main_v15 : S512x1.Idx → BitVec 32) (ix2 n 0)
    = (Gen.V m c main_arg1 : S512.Idx → BitVec 32) (ix1 n) := by
  have e : (Gen.V m c main_v15 : S512x1.Idx → BitVec 32)
      = fun i => shapeCast S512x1 (Gen.V m c main_arg1 : S512.Idx → BitVec 32) shapeCasts_S512_S512x1 i := by
    dsimp only [Gen.V, Gen.V0]
    simp only [hostOps0, hostOps0_1, List.flatten_cons, List.flatten_nil, List.append_nil, List.cons_append, List.nil_append]
    after_results
    rfl
  rw [e]
  refine shapeCast_apply _ shapeCasts_S512_S512x1 (ix2 n 0) (ix1 n) ?_
  rw [Shape.rowMajor_val_one, Shape.rowMajor_val_two]
  show n.val = n.val * 1 + 0
  omega

set_option maxHeartbeats 4000000 in
theorem tail_value (c : Dev nD) (Afin : (w : Fin 6) → Buf (Elt Ideal) ((spec0 w).arr.view.loc (c.tc : Thread nD τ)))
    (h1 : Afin 1 = Gen.V m c main_arg3) (h3 : Afin 3 = Gen.V m c main_v14)
    (Mo Lo : Fin 2 → Fin 512 → EReal)
    (h4 : ∀ (core : Fin 2) (n : Fin 512), (Afin 4 : S2x512x1.Idx → EReal) (ix3 core n 0) = Mo core n)
    (h5 : ∀ (core : Fin 2) (n : Fin 512), (Afin 5 : S2x512x1.Idx → EReal) (ix3 core n 0) = Lo core n)
    (lb : Fin 512 → Fin 85742) (hlb : ∀ n, labK m c n = BitVec.ofNat 32 (lb n).val) :
    (StableHlo.after (List.flatten [hostOps1, hostOps1_1, hostOps1_2]) (Pipeline.withArrays spec0 c (Gen.V0 m c) Afin) (Proc.devRef .tc main_v59) : S_.Idx → EReal)
      = fun _ => Ideal.div (∑ n : Fin 512, (Cert.Spec.lse2 (Mo 0 n) (Mo 1 n) (Lo 0 n) (Lo 1 n) - SK m c n (lb n))) Cert.Spec.c512
          - Cert.Spec.c100 * Ideal.div (∑ d : Fin 4, tempK m c d) Cert.Spec.c4 := by
  have hbridge : (StableHlo.after (List.flatten [hostOps1, hostOps1_1, hostOps1_2]) (Pipeline.withArrays spec0 c (Gen.V0 m c) Afin) (Proc.devRef .tc main_v59) : S_.Idx → EReal)
      = tailFn (Pipeline.withArrays spec0 c (Gen.V0 m c) Afin (Proc.devRef .tc main_v16_0))
          (Pipeline.withArrays spec0 c (Gen.V0 m c) Afin (Proc.devRef .tc main_v16_1))
          (Pipeline.withArrays spec0 c (Gen.V0 m c) Afin (Proc.devRef .tc main_arg1))
          (Pipeline.withArrays spec0 c (Gen.V0 m c) Afin (Proc.devRef .tc main_arg3))
          (Pipeline.withArrays spec0 c (Gen.V0 m c) Afin (Proc.devRef .tc main_v4))
          (Pipeline.withArrays spec0 c (Gen.V0 m c) Afin (Proc.devRef .tc main_v14))
          (Pipeline.withArrays spec0 c (Gen.V0 m c) Afin (Proc.devRef .tc main_v6)) := by
    simp only [hostOps1, hostOps1_1, hostOps1_2, List.flatten_cons, List.flatten_nil, List.append_nil, List.cons_append, List.nil_append]
    after_results_simp
    rfl
  have hW4 : (Pipeline.withArrays spec0 c (Gen.V0 m c) Afin (Proc.devRef .tc main_v16_0) : S2x512x1.Idx → EReal) = Afin 4 :=
    Pipeline.withArrays_arr spec0 launch0.win.arr_inj c _ _ 4
  have hW5 : (Pipeline.withArrays spec0 c (Gen.V0 m c) Afin (Proc.devRef .tc main_v16_1) : S2x512x1.Idx → EReal) = Afin 5 :=
    Pipeline.withArrays_arr spec0 launch0.win.arr_inj c _ _ 5
  have hW1 : Pipeline.withArrays spec0 c (Gen.V0 m c) Afin (Proc.devRef .tc main_arg3) = Gen.V m c main_arg3 :=
    (Pipeline.withArrays_arr spec0 launch0.win.arr_inj c (Gen.V0 m c) Afin 1).trans h1
  have hW3 : Pipeline.withArrays spec0 c (Gen.V0 m c) Afin (Proc.devRef .tc main_v14) = Gen.V m c main_v14 :=
    (Pipeline.withArrays_arr spec0 launch0.win.arr_inj c (Gen.V0 m c) Afin 3).trans h3
  have hWl : Pipeline.withArrays spec0 c (Gen.V0 m c) Afin (Proc.devRef .tc main_arg1) = Gen.V m c main_arg1 :=
    Pipeline.withArrays_of_ne spec0 c (Gen.V0 m c) Afin main_arg1 (by decide)
  have hWx : Pipeline.withArrays spec0 c (Gen.V0 m c) Afin (Proc.devRef .tc main_v4) = Gen.V m c main_v4 :=
    Pipeline.withArrays_of_ne spec0 c (Gen.V0 m c) Afin main_v4 (by decide)
  have hWt : Pipeline.withArrays spec0 c (Gen.V0 m c) Afin (Proc.devRef .tc main_v6) = Gen.V m c main_v6 :=
    Pipeline.withArrays_of_ne spec0 c (Gen.V0 m c) Afin main_v6 (by decide)
  rw [hbridge, hW4, hW5, hW1, hW3, hWl, hWx, hWt]
  have hlab : ∀ n, (Gen.V m c main_arg1 : S512.Idx → BitVec 32) (ix1 n) = BitVec.ofNat 32 (lb n).val :=
    fun n => (V_v15 m c n).symm.trans (hlb n)
  rw [tailFn_eq _ _ _ _ _ _ _ lb hlab]
  have hSK : ∀ n, SK m c n (lb n)
      = Cert.Spec.scale * ((∑ k : Fin 512, x4K m c n k * Cert.Spec.normRow (wK m c) (lb n) k) - mgK m c n) := by
    intro n
    show Cert.Spec.scale * (if BitVec.ofNat 32 (lb n).val = labK m c n then Cert.Spec.cosine (xnK m c) (wK m c) n (lb n) - mgK m c n
      else Cert.Spec.cosine (xnK m c) (wK m c) n (lb n)) = _
    rw [if_pos (hlb n).symm]
    have hx : ∀ k, xnK m c n k = x4K m c n k := fun k => congrFun (V_v5 m c) (ix2 n k)
    unfold Cert.Spec.cosine
    simp only [hx]
  have ht : ∀ d, (Gen.V m c main_v6 : S4.Idx → EReal) (ix1 d) = tempK m c d := fun d => congrFun (V_v6 m c) (ix1 d)
  funext _
  simp only [h4, h5, ht]
  refine congrArg (fun s => Ideal.div s Cert.Spec.c512 - Cert.Spec.c100 * Ideal.div (∑ d : Fin 4, tempK m c d) Cert.Spec.c4)
    (Finset.sum_congr rfl fun n _ => ?_)
  rw [hSK n]
  rfl

/-- The second result is the exponentiated margins, which no line after the region writes. -/
theorem tail_temp (c : Dev nD) (Afin : (w : Fin 6) → Buf (Elt Ideal) ((spec0 w).arr.view.loc (c.tc : Thread nD τ))) :
    (StableHlo.after (List.flatten [hostOps1, hostOps1_1, hostOps1_2]) (Pipeline.withArrays spec0 c (Gen.V0 m c) Afin) (Proc.devRef .tc main_v6) : S4.Idx → EReal)
      = fun i => Ideal.exp ((m ((c : Thread nD τ).loc main_arg4) : S4.Idx → EReal) i) := by
  have hne : (StableHlo.after (List.flatten [hostOps1, hostOps1_1, hostOps1_2]) (Pipeline.withArrays spec0 c (Gen.V0 m c) Afin) (Proc.devRef .tc main_v6) : S4.Idx → EReal)
      = Pipeline.withArrays spec0 c (Gen.V0 m c) Afin (Proc.devRef .tc main_v6) := by
    simp only [hostOps1, hostOps1_1, hostOps1_2, List.flatten_cons, List.flatten_nil, List.append_nil, List.cons_append, List.nil_append]
    after_results_simp
  rw [hne, Pipeline.withArrays_of_ne spec0 c (Gen.V0 m c) Afin main_v6 (by decide)]
  exact V_v6 m c

end Cert.KTail

end
-- ==== Proof.KValue.lean ====
/-
  The idealized kernel program's run with its results named: the first result is the kernel's form of the loss over the logits
  of the arrays the region finds, the second the exponentiated margins; the arguments end unchanged.
-/
import proofs.«421507_j48103633715511_2_alg».proof.Proof.IdealRun
import proofs.«421507_j48103633715511_2_alg».proof.Proof.IdealOut
import proofs.«421507_j48103633715511_2_alg».proof.Proof.KTail

set_option maxRecDepth 16384

noncomputable section

namespace Cert.KValue

open Cert.KernelIdeal Cert.KernelIdeal.Gen Cert.KDefs
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Every weakly fair execution ends with the loss in its kernel form, the exponentiated margins, and the arguments as launched:
    the two output arrays hold each run's final maximum and sum per row, and the host lines after the region join them. -/
theorem kernel_run (lb : Dev nD → Fin 512 → Fin 85742) (hlb : ∀ c n, labK m c n = BitVec.ofNat 32 (lb c n).val) :
    θ_run defs (onTc (τ := τ) (main (F := Ideal))) ⟨m, fun _ => 0, ρ⟩ (fun r => ∀ c : Dev nD,
      r.2.mem ((c.tc : Thread nD τ).loc main_v59) = (fun _ => Cert.Spec.kloss (SK m c) (fun n => SK m c n (lb c n)) (Cert.KTail.tempK m c))
      ∧ r.2.mem ((c.tc : Thread nD τ).loc main_v6) = (fun i => Ideal.exp ((m ((c : Thread nD τ).loc main_arg4) : S4.Idx → EReal) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v59 (Pipeline.mem_restRefs_of main_v59 (by decide) (by decide))).trans (by
        unfold Pipeline.afterTail₀
        exact Cert.KTail.tail_value m c (fun w => (Cert.IdealRun.dats m 0 c).arrAt w cfg0.N)
          (Cert.IdealOut.arrAt_in m c 1 rfl) (Cert.IdealOut.arrAt_in m c 3 rfl)
          (fun core n => (Cert.Spec.mlAt (SK m c) core.val 11).1 n) (fun core n => (Cert.Spec.mlAt (SK m c) core.val 11).2 n)
          (Cert.IdealOut.arrAt4 m c) (Cert.IdealOut.arrAt5 m c) (lb c) (hlb c)),
      ((h c).2 main_v6 (Pipeline.mem_restRefs_of main_v6 (by decide) (by decide))).trans (by
        unfold Pipeline.afterTail₀
        exact Cert.KTail.tail_temp m c _),
      (((h c).2 main_arg0 (Pipeline.mem_restRefs_of main_arg0 (by decide) (by decide))).trans (W_main_arg0 m (Cert.IdealRun.dats m) c)),
      (((h c).2 main_arg1 (Pipeline.mem_restRefs_of main_arg1 (by decide) (by decide))).trans (W_main_arg1 m (Cert.IdealRun.dats m) c)),
      (((h c).2 main_arg2 (Pipeline.mem_restRefs_of main_arg2 (by decide) (by decide))).trans (W_main_arg2 m (Cert.IdealRun.dats m) c)),
      ((h c).1 1).trans (((Cert.IdealRun.dats m 0 c).arrAt_in 1 rfl _).trans ((Cert.IdealRun.dats_A m c 1).trans (V_main_arg3 m c))),
      (((h c).2 main_arg4 (Pipeline.mem_restRefs_of main_arg4 (by decide) (by decide))).trans (W_main_arg4 m (Cert.IdealRun.dats m) c))⟩)
    (Cert.IdealRun.run_main m ρ)

end Cert.KValue

end
-- ==== Proof.KPrefix.lean ====
/-
  What the kernel region's four input arrays hold when the region is entered, read off the host lines before it: the staged
  samples are the launched samples with each row divided by its Euclidean norm clamped below; the class weights and the label
  words are the launched ones; each margin is the exponential of one of the four launched margin words, chosen by the second
  label vector.
-/
import proofs.«421507_j48103633715511_2_alg».proof.Proof.KDefs
import proofs.«421507_j48103633715511_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KPrefix

open Idealize.ShloMosaic Idealize.ShloMosaic.ValueIdx Idealize.ShloMosaic.TcCoe Idealize.SL.Sem Idealize.ShloMosaic.StableHlo Cert.KernelIdeal Cert.KernelIdeal.Gen Cert.KDefs

variable (m : (ℓ : Loc nD τ sig) → Buf (Elt Ideal) ℓ)

/-! ## Layout operations of these shapes read at an index -/

/-- A column spread along the rows reads, at (n, k), the column's entry n. -/
theorem bcast_col_read {α : Type} (v : S512x1.Idx → α) (n k : Fin 512) :
    broadcastInDim S512x512 ![0, 1] bcast_S512x1_S512x512_0_1 v (ix2 n k) = v (ix2 n 0) :=
  broadcastInDim_apply _ bcast_S512x1_S512x512_0_1 v (ix2 n k) (ix2 n 0) (fun d => match d with
    | ⟨0, _⟩ => by show n.val = if (512 : Nat) = 1 then 0 else n.val; rw [if_neg (by decide)]
    | ⟨1, _⟩ => by show 0 = if (1 : Nat) = 1 then 0 else k.val; rw [if_pos rfl])

/-- A vector stood up as a column reads, at (n, 0), the vector's entry n. -/
theorem bcast_vec_read {α : Type} (v : S512.Idx → α) (n : Fin 512) :
    broadcastInDim S512x1 ![0] bcast_S512_S512x1_0 v (ix2 n 0) = v (ix1 n) :=
  broadcastInDim_apply _ bcast_S512_S512x1_0 v (ix2 n 0) (ix1 n) (fun d => match d with
    | ⟨0, _⟩ => by show n.val = if (512 : Nat) = 1 then 0 else n.val; rw [if_neg (by decide)])

/-- A scalar spread over a column reads the scalar everywhere. -/
theorem bcast_scalar_read {α : Type} (v : S_.Idx → α) (j : S512x1.Idx) :
    broadcastInDim S512x1 ![] bcast_S_S512x1 v j = v ix0 :=
  broadcastInDim_apply _ bcast_S_S512x1 v j ix0 (fun d => d.elim0)

/-- A vector recast as a column reads, at (n, 0), the vector's entry n. -/
theorem cast_col_read {α : Type} (v : S512.Idx → α) (n : Fin 512) :
    shapeCast S512x1 v shapeCasts_S512_S512x1 (ix2 n 0) = v (ix1 n) :=
  shapeCast_apply v shapeCasts_S512_S512x1 (ix2 n 0) (ix1 n) (by
    rw [Shape.rowMajor_val_two, Shape.rowMajor_val_one]
    show n.val = n.val * 1 + 0
    omega)

/-! ## The normalised samples -/

/-- The host's sum of squares along a row, from the zero word, is the sum over the row's 512 entries. -/
theorem rowsum_read (a : FVec Ideal S512x512 .f32) (n : Fin 512) :
    (Host.reduceAdd (mulf a a) (constant (F := Ideal) S_ .f32 0x00000000#32) reducesTo_S512x512_S512_d1 h_S_ : FVec Ideal S512 .f32) (ix1 n)
      = ∑ k' : Fin 512, a (ix2 n k') * a (ix2 n k') := by
  simp only [Host.reduceAdd, Ideal.hostReduceAdd_def]
  rw [Ideal.hostReduceAdd_single reducesTo_S512x512_S512_d1 (by decide), constant_apply, Ideal.ofBits_zero_f32, zero_add]
  refine Finset.sum_congr rfl fun k' _ => ?_
  rw [mulf_apply]
  exact congrArg (fun z => a z * a z)
    (funext fun d => Fin.ext (by match d with | ⟨0, _⟩ => rfl | ⟨1, _⟩ => rfl))

/-- A quotient rounded to the narrower format (which the extended reals do not see) reads as the quotient of the entries. -/
theorem div_read (a b : FVec Ideal S512x512 .f32) (j : S512x512.Idx) :
    (truncf .bf16 (Host.divf a b) bitsLt_bf16_f32 : FVec Ideal S512x512 .bf16) j = Ideal.div (a j) (b j) := rfl

/-- The larger of a square root and a second column, at an entry. -/
theorem max_sqrt_read (r e : FVec Ideal S512x1 .f32) (j : S512x1.Idx) :
    maximumf (Host.sqrt r) e j = max (Ideal.sqrt (r j)) (e j) := rfl

/-- The host's normalisation of an array's rows, read at (n, k): the entry over its row's clamped Euclidean norm. -/
theorem norm_read (a : FVec Ideal S512x512 .f32) (n k : Fin 512) :
    (truncf .bf16 (Host.divf a
      (broadcastInDim S512x512 ![0, 1] bcast_S512x1_S512x512_0_1
        (maximumf (Host.sqrt (broadcastInDim S512x1 ![0] bcast_S512_S512x1_0
            (Host.reduceAdd (mulf a a) (constant (F := Ideal) S_ .f32 0x00000000#32) reducesTo_S512x512_S512_d1 h_S_)))
          (broadcastInDim S512x1 ![] bcast_S_S512x1 (constant (F := Ideal) S_ .f32 0x2B8CBCCC#32))))) bitsLt_bf16_f32
        : FVec Ideal S512x512 .bf16) (ix2 n k)
      = Cert.Spec.normRow (fun n k => a (ix2 n k)) n k := by
  rw [div_read, bcast_col_read, max_sqrt_read, bcast_vec_read, bcast_scalar_read, rowsum_read]
  rfl

/-! ## What the arrays hold when the region is entered -/

/-- The samples' array as launched. -/
abbrev A0 (c : Dev nD) : S512x512.Idx → EReal := m ((c : Thread nD τ).loc main_arg0)

/-- The staged samples are the host's normalisation of the samples as launched. -/
theorem V_main_v5 (c : Dev nD) : (Gen.V m c main_v5 : S512x512.Idx → EReal) =
    truncf .bf16 (Host.divf (A0 m c)
      (broadcastInDim S512x512 ![0, 1] bcast_S512x1_S512x512_0_1
        (maximumf (Host.sqrt (broadcastInDim S512x1 ![0] bcast_S512_S512x1_0
            (Host.reduceAdd (mulf (A0 m c) (A0 m c)) (constant (F := Ideal) S_ .f32 0x00000000#32) reducesTo_S512x512_S512_d1 h_S_)))
          (broadcastInDim S512x1 ![] bcast_S_S512x1 (constant (F := Ideal) S_ .f32 0x2B8CBCCC#32))))) bitsLt_bf16_f32 := by
  dsimp only [Gen.V, Gen.V0]
  simp only [Gen.hostOps0, Gen.hostOps0_1, List.flatten_cons, List.flatten_nil, List.append_nil, List.cons_append, List.nil_append]
  after_results
  rfl

/-- The label column is the label vector as launched, recast. -/
theorem V_main_v15 (c : Dev nD) : (Gen.V m c main_v15 : S512x1.Idx → BitVec 32) =
    shapeCast S512x1 (m ((c : Thread nD τ).loc main_arg1) : S512.Idx → BitVec 32) shapeCasts_S512_S512x1 := by
  dsimp only [Gen.V, Gen.V0]
  simp only [Gen.hostOps0, Gen.hostOps0_1, List.flatten_cons, List.flatten_nil, List.append_nil, List.cons_append, List.nil_append]
  after_results
  rfl

set_option maxHeartbeats 2000000 in
/-- The margin column is the gathered vector of exponentiated margins, recast. -/
theorem V_main_v14 (c : Dev nD) : (Gen.V m c main_v14 : S512x1.Idx → EReal) =
    shapeCast S512x1
      (Host.gather gather_S4_S512x1_S512_n_0_n_n_0_1_1 (Host.exp (m ((c : Thread nD τ).loc main_arg4) : FVec Ideal S4 .f32) : FVec Ideal S4 .f32)
        (broadcastInDim S512x1 ![0] bcast_S512_S512x1_0
          (select
            (cmpi .slt (m ((c : Thread nD τ).loc main_arg2) : S512.Idx → BitVec 32)
              (broadcastInDim S512 ![] bcast_S_S512 (constantI S_ 32 0#32)))
            (addi (m ((c : Thread nD τ).loc main_arg2) : S512.Idx → BitVec 32) (broadcastInDim S512 ![] bcast_S_S512 (constantI S_ 32 4#32)))
            (m ((c : Thread nD τ).loc main_arg2) : S512.Idx → BitVec 32))) : S512.Idx → EReal)
      shapeCasts_S512_S512x1 := by
  dsimp only [Gen.V, Gen.V0]
  simp only [Gen.hostOps0, Gen.hostOps0_1, List.flatten_cons, List.flatten_nil, List.append_nil, List.cons_append, List.nil_append]
  after_results_simp
  rfl

/-! ## The four arrays of the specification -/

/-- The staged samples: each row of the launched samples over its clamped Euclidean norm. -/
theorem xnK_eq (c : Dev nD) (n k : Fin 512) :
    xnK m c n k = Cert.Spec.normRow (fun n k => (m ((c : Thread nD τ).loc main_arg0) : S512x512.Idx → EReal) (ix2 n k)) n k := by
  unfold xnK
  rw [V_main_v5]
  exact norm_read (A0 m c) n k

/-- The class weights are the launched ones: no host line writes them. -/
theorem wK_eq (c : Dev nD) (j : Fin 85742) (k : Fin 512) :
    wK m c j k = (m ((c : Thread nD τ).loc main_arg3) : S85742x512.Idx → EReal) (ix2 j k) := by
  unfold wK
  rw [Gen.V_main_arg3]

/-- The label words are the launched label vector's. -/
theorem labK_eq (c : Dev nD) (n : Fin 512) :
    labK m c n = (m ((c : Thread nD τ).loc main_arg1) : S512.Idx → BitVec 32) (ix1 n) := by
  unfold labK
  rw [V_main_v15]
  exact cast_col_read _ n

/-- The margins: the exponentiated margin table gathered at the second label vector, a negative entry moved up by four. -/
theorem mgK_eq (c : Dev nD) (n : Fin 512) :
    mgK m c n =
      (Host.gather gather_S4_S512x1_S512_n_0_n_n_0_1_1 (Host.exp (m ((c : Thread nD τ).loc main_arg4) : FVec Ideal S4 .f32) : FVec Ideal S4 .f32)
        (broadcastInDim S512x1 ![0] bcast_S512_S512x1_0
          (select
            (cmpi .slt (m ((c : Thread nD τ).loc main_arg2) : S512.Idx → BitVec 32)
              (broadcastInDim S512 ![] bcast_S_S512 (constantI S_ 32 0#32)))
            (addi (m ((c : Thread nD τ).loc main_arg2) : S512.Idx → BitVec 32) (broadcastInDim S512 ![] bcast_S_S512 (constantI S_ 32 4#32)))
            (m ((c : Thread nD τ).loc main_arg2) : S512.Idx → BitVec 32))) : S512.Idx → EReal) (ix1 n) := by
  unfold mgK
  rw [V_main_v14]
  exact cast_col_read _ n

/-- Each margin is the exponential of one of the four launched margin words. -/
theorem mgK_real (c : Dev nD) (n : Fin 512) :
    ∃ i : S4.Idx, mgK m c n = Ideal.exp ((m ((c : Thread nD τ).loc main_arg4) : S4.Idx → EReal) i) := by
  rw [mgK_eq]
  exact ⟨_, rfl⟩

end Cert.KPrefix

end
-- ==== Proof.PreFacts.lean ====
/-
  The precondition read back: where the printed predicate holds, every entry of the three float arguments is a real number
  (its absolute value is below plus infinity, so it is neither infinity), and every entry of the first integer argument,
  read signed, lies in [0, 85742).
-/
import Mathlib.Data.EReal.Basic
import Mathlib.Data.EReal.Operations
import Idealize.ShloMosaic.PureOps.Ideal
import Idealize.ShloMosaic.PureOps.Ideal.Laws
import Idealize.ShloMosaic.Lib.Affine
import Idealize.ShloMosaic.Lib.ReduceAll
import Idealize.ShloMosaic.Lib.StableHlo.Predicate
import Idealize.ShloMosaic.Lib.ValueIdx
import proofs.«421507_j48103633715511_2_alg».proof.Pre_finite_inputs

noncomputable section

namespace Cert.PreFacts

open Idealize.ShloMosaic

instance : Subsingleton Cert.Pre_finite_inputs.S_.Idx := ⟨fun a b => funext fun d => d.elim0⟩

/-- The word 0x7F800000 denotes plus infinity. -/
theorem inf_word : Ideal.ofBits .f32 0x7F800000#32 = (⊤ : EReal) := by simp [Ideal.ofBits, Ideal.ieee]

/-- An extended real whose absolute value is below plus infinity is a real. -/
theorem real_of_abs_lt (x : EReal) (h : Ideal.cmp .olt (max x (-x)) (Ideal.ofBits .f32 0x7F800000#32) = 1#1) :
    ∃ r : ℝ, x = ((r : ℝ) : EReal) := by
  rw [inf_word] at h
  induction x using EReal.rec with
  | bot => simp [Ideal.cmp] at h
  | coe r => exact ⟨r, rfl⟩
  | top => simp [Ideal.cmp] at h

theorem of_pre [Cert.Pre_finite_inputs.Facts] (a0 : FVec Ideal Cert.Pre_finite_inputs.S512x512 .f32) (a1 a2 : IVec Cert.Pre_finite_inputs.S512 32) (a3 : FVec Ideal Cert.Pre_finite_inputs.S85742x512 .f32) (a4 : FVec Ideal Cert.Pre_finite_inputs.S4 .f32)
    (h : Cert.Pre_finite_inputs.fn (F := Ideal) a0 a1 a2 a3 a4 = fun _ => 1#1) :
    (∀ i, ∃ x : ℝ, a0 i = ((x : ℝ) : EReal)) ∧ (∀ i, ∃ x : ℝ, a3 i = ((x : ℝ) : EReal)) ∧ (∀ i, ∃ x : ℝ, a4 i = ((x : ℝ) : EReal))
      ∧ (∀ i, 0 ≤ (a1 i).toInt ∧ (a1 i).toInt < 85742) := by
  have e := congrFun h ValueIdx.ix0
  dsimp only [Cert.Pre_finite_inputs.fn, Cert.Pre_finite_inputs.fn_part1] at e
  simp only [andi, IntOp.andi_eq_one] at e
  obtain ⟨⟨⟨h0, h3⟩, h4⟩, h1⟩ := e
  refine ⟨fun i => ?_, fun i => ?_, fun i => ?_, fun i => ?_⟩
  · exact real_of_abs_lt (a0 i) (Host.reduce_andi_all _ _ _ _ _ h0 i)
  · exact real_of_abs_lt (a3 i) (Host.reduce_andi_all _ _ _ _ _ h3 i)
  · exact real_of_abs_lt (a4 i) (Host.reduce_andi_all _ _ _ _ _ h4 i)
  · have hi := Host.reduce_andi_all _ _ _ _ _ h1 i
    obtain ⟨hge, hlt⟩ := IntOp.andi_eq_one.1 hi
    have hge' : IntOp.cmpi .sge (a1 i) 0#32 = 1#1 := hge
    have hlt' : IntOp.cmpi .slt (a1 i) 85742#32 = 1#1 := hlt
    have h0' : (0#32 : BitVec 32).toInt = 0 := by decide
    have h8' : (85742#32 : BitVec 32).toInt = 85742 := by decide
    have hge'' := IntOp.cmpi_sge.1 hge'
    have hlt'' := IntOp.cmpi_slt.1 hlt'
    omega

end Cert.PreFacts

end
-- ==== Proof.MathOnline.lean ====
/-
  The online logarithm of a sum of exponentials, walked tile by tile, equals the plain one.

  For one row n whose entries are real, the columns 0 .. 85741 are extended to all natural numbers by the weight
  zero: G m i is exp (r n i - m) for i < 85742 and 0 beyond. The invariant of a run is: the running maximum is some
  real m, and the running sum is the sum of G m over the interval of natural numbers the run has walked. A tile's
  columns past the last class hold bottom, whose shifted exponential is zero, which is G there. Nothing about m is
  needed beyond its being real: m + log (Σ exp (r - m)) is log (Σ exp r) for every real m.
-/
import proofs.«421507_j48103633715511_2_alg».proof.Proof.Spec
import Mathlib.Analysis.SpecialFunctions.Log.Basic
import Mathlib.Data.EReal.Basic
import Mathlib.Data.EReal.Operations
import Mathlib.Data.Finset.Fold
import Mathlib.Algebra.BigOperators.Intervals
import Mathlib.Data.Fintype.BigOperators

noncomputable section

namespace Cert.MathOnline

open Idealize.ShloMosaic Finset

/-! ### Small facts on the extended reals -/

theorem exp_coe (x : ℝ) : Ideal.exp ((x : ℝ) : EReal) = ((Real.exp x : ℝ) : EReal) := rfl

theorem exp_bot : Ideal.exp (⊥ : EReal) = 0 := rfl

theorem log_coe_pos {x : ℝ} (hx : 0 < x) : Ideal.log ((x : ℝ) : EReal) = ((Real.log x : ℝ) : EReal) := by
  show (if x ≤ 0 then (⊥ : EReal) else ((Real.log x : ℝ) : EReal)) = _
  rw [if_neg (not_le.mpr hx)]

theorem coe_max (x y : ℝ) : max ((x : ℝ) : EReal) ((y : ℝ) : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The embedding of the reals carries finite sums to finite sums. -/
theorem coe_sum {ι : Type*} (t : Finset ι) (f : ι → ℝ) :
    ((∑ i ∈ t, f i : ℝ) : EReal) = ∑ i ∈ t, ((f i : ℝ) : EReal) := by
  classical
  induction t using Finset.induction_on with
  | empty => simp
  | insert a t ha ih => rw [sum_insert ha, sum_insert ha, EReal.coe_add, ih]

/-- A fold of max from bottom over entries that are real or bottom, one of them real, is real. -/
theorem fold_max_real {ι : Type*} (t : Finset ι) (f : ι → EReal)
    (hf : ∀ q ∈ t, f q = ⊥ ∨ ∃ x : ℝ, f q = ((x : ℝ) : EReal))
    (q0 : ι) (hq0 : q0 ∈ t) (x0 : ℝ) (h0 : f q0 = ((x0 : ℝ) : EReal)) :
    ∃ x : ℝ, t.fold max ⊥ f = ((x : ℝ) : EReal) := by
  have htop : t.fold max ⊥ f ≠ ⊤ := by
    apply ne_of_lt
    rw [fold_max_lt]
    refine ⟨bot_lt_top, fun q hq => ?_⟩
    rcases hf q hq with h | ⟨x, h⟩
    · rw [h]; exact bot_lt_top
    · rw [h]; exact EReal.coe_lt_top x
  have hbot : t.fold max ⊥ f ≠ ⊥ := by
    apply ne_of_gt
    rw [lt_fold_max]
    exact Or.inr ⟨q0, hq0, by rw [h0]; exact EReal.bot_lt_coe x0⟩
  exact ⟨(t.fold max ⊥ f).toReal, (EReal.coe_toReal htop hbot).symm⟩

/-! ### The weights of a row and their sums over intervals -/

/-- The weight of column i of row n shifted by m: exp (r n i - m) for a class, zero past the last class. -/
def G (r : Fin 512 → Fin 85742 → ℝ) (n : Fin 512) (m : ℝ) (i : ℕ) : ℝ :=
  if h : i < 85742 then Real.exp (r n ⟨i, h⟩ - m) else 0

theorem G_rescale (r : Fin 512 → Fin 85742 → ℝ) (n : Fin 512) (m m' : ℝ) (i : ℕ) :
    Real.exp (m - m') * G r n m i = G r n m' i := by
  unfold G
  by_cases h : i < 85742
  · rw [dif_pos h, dif_pos h, ← Real.exp_add]; congr 1; ring
  · rw [dif_neg h, dif_neg h, mul_zero]

theorem sum_G_rescale (r : Fin 512 → Fin 85742 → ℝ) (n : Fin 512) (m m' : ℝ) (t : Finset ℕ) :
    Real.exp (m - m') * ∑ i ∈ t, G r n m i = ∑ i ∈ t, G r n m' i := by
  rw [mul_sum]
  exact sum_congr rfl (fun i _ => G_rescale r n m m' i)

/-- The shifted exponential of an entry of tile g is the weight of its column. -/
theorem exp_tile (s : Fin 512 → Fin 85742 → EReal) (r : Fin 512 → Fin 85742 → ℝ)
    (hs : ∀ n j, s n j = ((r n j : ℝ) : EReal)) (n : Fin 512) (g : ℕ) (m : ℝ) (q : Fin 4080) :
    Ideal.exp (Cert.Spec.tile s g n q - ((m : ℝ) : EReal)) = ((G r n m (g * 4080 + q.val) : ℝ) : EReal) := by
  unfold Cert.Spec.tile G
  by_cases h : g * 4080 + q.val < 85742
  · rw [dif_pos h, dif_pos h, hs, ← EReal.coe_sub, exp_coe]
  · rw [dif_neg h, dif_neg h, EReal.bot_sub, exp_bot, EReal.coe_zero]

/-- The sum of a tile's shifted exponentials is the sum of the weights over the tile's interval. -/
theorem sum_tile (s : Fin 512 → Fin 85742 → EReal) (r : Fin 512 → Fin 85742 → ℝ)
    (hs : ∀ n j, s n j = ((r n j : ℝ) : EReal)) (n : Fin 512) (g : ℕ) (m : ℝ) :
    ∑ q : Fin 4080, Ideal.exp (Cert.Spec.tile s g n q - ((m : ℝ) : EReal))
      = ((∑ i ∈ Ico (g * 4080) ((g + 1) * 4080), G r n m i : ℝ) : EReal) := by
  have h1 : ∀ q : Fin 4080, Ideal.exp (Cert.Spec.tile s g n q - ((m : ℝ) : EReal))
      = (((fun k : ℕ => G r n m (g * 4080 + k)) q.val : ℝ) : EReal) := fun q => exp_tile s r hs n g m q
  rw [sum_congr rfl (fun q _ => h1 q), ← coe_sum,
    Fin.sum_univ_eq_sum_range (fun k : ℕ => G r n m (g * 4080 + k)) 4080, sum_Ico_eq_sum_range]
  have h2 : (g + 1) * 4080 - g * 4080 = 4080 := by omega
  rw [h2]

/-- Every entry of a tile is real or bottom. -/
theorem tile_real_or_bot (s : Fin 512 → Fin 85742 → EReal) (r : Fin 512 → Fin 85742 → ℝ)
    (hs : ∀ n j, s n j = ((r n j : ℝ) : EReal)) (n : Fin 512) (g : ℕ) (q : Fin 4080) :
    Cert.Spec.tile s g n q = ⊥ ∨ ∃ x : ℝ, Cert.Spec.tile s g n q = ((x : ℝ) : EReal) := by
  unfold Cert.Spec.tile
  by_cases h : g * 4080 + q.val < 85742
  · rw [dif_pos h]; exact Or.inr ⟨_, hs _ _⟩
  · rw [dif_neg h]; exact Or.inl rfl

/-! ### One step of a run, and a run -/

/-- The state of a run that has walked the columns a .. b-1: nothing yet (bottom and zero), or a real maximum m
    and the sum of the weights shifted by m. -/
def Inv (r : Fin 512 → Fin 85742 → ℝ) (n : Fin 512) (M L : EReal) (a b : ℕ) : Prop :=
  (M = ⊥ ∧ L = 0 ∧ a = b) ∨ ∃ m : ℝ, M = ((m : ℝ) : EReal) ∧ L = ((∑ i ∈ Ico a b, G r n m i : ℝ) : EReal)

/-- Column 0 of a tile that starts below the last class is a class, hence real. -/
theorem tile_zero (s : Fin 512 → Fin 85742 → EReal) (r : Fin 512 → Fin 85742 → ℝ)
    (hs : ∀ n j, s n j = ((r n j : ℝ) : EReal)) (n : Fin 512) (g : ℕ) (hg : g * 4080 < 85742) :
    Cert.Spec.tile s g n ⟨0, by norm_num⟩ = ((r n ⟨g * 4080, hg⟩ : ℝ) : EReal) := by
  unfold Cert.Spec.tile
  rw [dif_pos (show g * 4080 + 0 < 85742 from hg)]
  exact hs _ _

theorem step (s : Fin 512 → Fin 85742 → EReal) (r : Fin 512 → Fin 85742 → ℝ)
    (hs : ∀ n j, s n j = ((r n j : ℝ) : EReal)) (n : Fin 512) (g a : ℕ) (hg : g * 4080 < 85742)
    (ha : a ≤ g * 4080) (M L : Fin 512 → EReal) (h : Inv r n (M n) (L n) a (g * 4080)) :
    ∃ m' : ℝ, Cert.Spec.stepM (Cert.Spec.tile s g) M n = ((m' : ℝ) : EReal) ∧
      Cert.Spec.stepL (Cert.Spec.tile s g) M L n = ((∑ i ∈ Ico a ((g + 1) * 4080), G r n m' i : ℝ) : EReal) := by
  obtain ⟨x, hx⟩ := fold_max_real (univ : Finset (Fin 4080)) (Cert.Spec.tile s g n)
    (fun q _ => tile_real_or_bot s r hs n g q) ⟨0, by norm_num⟩ (mem_univ _) _ (tile_zero s r hs n g hg)
  rcases h with ⟨hM, hL, hab⟩ | ⟨m, hM, hL⟩
  · -- the first tile of a run: the old sum is zero and contributes nothing
    have hM' : Cert.Spec.stepM (Cert.Spec.tile s g) M n = ((x : ℝ) : EReal) := by
      unfold Cert.Spec.stepM
      rw [hM, hx]
      exact max_eq_right bot_le
    refine ⟨x, hM', ?_⟩
    unfold Cert.Spec.stepL
    rw [hM', hL, mul_zero, zero_add, sum_tile s r hs n g x, hab]
  · -- a later tile: the old sum is rescaled to the new maximum and the tile's weights are added
    have hM' : Cert.Spec.stepM (Cert.Spec.tile s g) M n = ((max m x : ℝ) : EReal) := by
      unfold Cert.Spec.stepM
      rw [hM, hx, coe_max]
    refine ⟨max m x, hM', ?_⟩
    unfold Cert.Spec.stepL
    rw [hM', hM, hL, ← EReal.coe_sub, exp_coe, ← EReal.coe_mul, sum_G_rescale, sum_tile s r hs n g (max m x),
      ← EReal.coe_add, sum_Ico_consecutive _ ha (by omega)]

/-- A run after k tiles, each starting below the last class, is in the state of the columns it has walked. -/
theorem run (s : Fin 512 → Fin 85742 → EReal) (r : Fin 512 → Fin 85742 → ℝ)
    (hs : ∀ n j, s n j = ((r n j : ℝ) : EReal)) (n : Fin 512) (c0 k : ℕ)
    (hk : (11 * c0 + k) * 4080 < 85742 + 4080) :
    Inv r n ((Cert.Spec.mlAt s c0 k).1 n) ((Cert.Spec.mlAt s c0 k).2 n) (11 * c0 * 4080) ((11 * c0 + k) * 4080) := by
  induction k with
  | zero => exact Or.inl ⟨rfl, rfl, rfl⟩
  | succ k ih =>
    have hg : (11 * c0 + k) * 4080 < 85742 := by omega
    obtain ⟨m', h1, h2⟩ := step s r hs n (11 * c0 + k) (11 * c0 * 4080) hg (by omega)
      (Cert.Spec.mlAt s c0 k).1 (Cert.Spec.mlAt s c0 k).2 (ih (by omega))
    exact Or.inr ⟨m', h1, h2⟩

/-- All the weights of a row, shifted by m, sum to exp (-m) times the plain sum of exponentials. -/
theorem sum_all (r : Fin 512 → Fin 85742 → ℝ) (n : Fin 512) (m : ℝ) :
    ∑ i ∈ Ico 0 89760, G r n m i = Real.exp (-m) * ∑ j : Fin 85742, Real.exp (r n j) := by
  rw [← sum_Ico_consecutive (G r n m) (Nat.zero_le 85742) (by norm_num : 85742 ≤ 89760)]
  have hz : ∑ i ∈ Ico 85742 89760, G r n m i = 0 := sum_eq_zero (fun i hi => by
    unfold G
    rw [dif_neg (not_lt.mpr (mem_Ico.mp hi).1)])
  rw [hz, add_zero, ← range_eq_Ico, ← Fin.sum_univ_eq_sum_range (G r n m) 85742, mul_sum]
  refine sum_congr rfl (fun j _ => ?_)
  unfold G
  rw [dif_pos j.isLt, ← Real.exp_add]
  congr 1
  ring

theorem klse_eq (s : Fin 512 → Fin 85742 → EReal) (r : Fin 512 → Fin 85742 → ℝ)
    (hs : ∀ n j, s n j = ((r n j : ℝ) : EReal)) (n : Fin 512) :
    Cert.Spec.klse s n = ((Real.log (∑ j : Fin 85742, Real.exp (r n j)) : ℝ) : EReal) := by
  have hS : 0 < ∑ j : Fin 85742, Real.exp (r n j) :=
    sum_pos (fun j _ => Real.exp_pos _) ⟨⟨0, by norm_num⟩, mem_univ _⟩
  have h0 := run s r hs n 0 11 (by norm_num)
  have h1 := run s r hs n 1 11 (by norm_num)
  rw [show (11 * 0 * 4080 : ℕ) = 0 from by norm_num, show ((11 * 0 + 11) * 4080 : ℕ) = 44880 from by norm_num] at h0
  rw [show (11 * 1 * 4080 : ℕ) = 44880 from by norm_num,
    show ((11 * 1 + 11) * 4080 : ℕ) = 89760 from by norm_num] at h1
  rcases h0 with ⟨_, _, h⟩ | ⟨m0, hM0, hL0⟩
  · exact absurd h (by norm_num)
  rcases h1 with ⟨_, _, h⟩ | ⟨m1, hM1, hL1⟩
  · exact absurd h (by norm_num)
  unfold Cert.Spec.klse Cert.Spec.lse2
  rw [hM0, hM1, hL0, hL1, coe_max, ← EReal.coe_sub, ← EReal.coe_sub, exp_coe, exp_coe, ← EReal.coe_mul,
    ← EReal.coe_mul, mul_comm _ (Real.exp (m0 - max m0 m1)), mul_comm _ (Real.exp (m1 - max m0 m1)),
    sum_G_rescale, sum_G_rescale, ← EReal.coe_add,
    sum_Ico_consecutive _ (Nat.zero_le 44880) (by norm_num : 44880 ≤ 89760), sum_all,
    log_coe_pos (mul_pos (Real.exp_pos _) hS), ← EReal.coe_add,
    Real.log_mul (Real.exp_pos _).ne' hS.ne', Real.log_exp]
  congr 1
  ring

end Cert.MathOnline

end
-- ==== Proof.MathRef.lean ====
/-
  The reference's log-softmax and the two losses, over the reals.

  Where every logit of a row is a real number, the row's maximum is a real number M, each shifted logit r - M is real, the sum
  of the exponentials of the shifted logits is a positive real, and the log-softmax (r - M) - log (Σ exp (r' - M)) equals
  r - log (Σ exp r'), whatever M is. With the kernel's logarithm of the row sum equal to log (Σ exp r'), the two losses are the
  same mean, one written as the mean of (log Σ exp r' - r) and the other as minus the mean of (r - log Σ exp r').

  A row of reals divided by its clamped Euclidean norm is a row of reals (the clamp is a positive real, so the divisor is never
  zero); the cosine, a finite sum of products of reals, is real; and so is every scaled logit.
-/
import Mathlib.Data.EReal.Basic
import Mathlib.Data.EReal.Operations
import Mathlib.Data.EReal.Inv
import Mathlib.Data.Finset.Fold
import Mathlib.Analysis.Real.Sqrt
import Mathlib.Algebra.BigOperators.Group.Finset.Basic
import Mathlib.Analysis.SpecialFunctions.Exp
import Mathlib.Analysis.SpecialFunctions.Log.Basic
import Mathlib.Tactic.Choose
import Mathlib.Tactic.NormNum.Basic
import Mathlib.Tactic.Positivity
import proofs.«421507_j48103633715511_2_alg».proof.Proof.Spec

noncomputable section

namespace Cert.Math

open Idealize.ShloMosaic

/-- The coercion of a finite sum of reals is the sum of the coercions. -/
theorem coe_sum {ι : Type*} (t : Finset ι) (f : ι → ℝ) :
    ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-- The coercion of the larger of two reals is the larger of the coercions. -/
theorem coe_max (a b : ℝ) : ((max a b : ℝ) : EReal) = max ((a : ℝ) : EReal) ((b : ℝ) : EReal) :=
  EReal.coe_strictMono.monotone.map_max

/-- Joining a real with the running maximum of a finite family of reals gives a real. -/
theorem max_fold_real {ι : Type*} (t : Finset ι) (f : ι → ℝ) (b : ℝ) :
    ∃ M : ℝ, max ((b : ℝ) : EReal) (t.fold max ⊥ (fun i => ((f i : ℝ) : EReal))) = ((M : ℝ) : EReal) := by
  classical
  induction t using Finset.induction_on generalizing b with
  | empty => exact ⟨b, by simp⟩
  | insert a t ha ih =>
    obtain ⟨M, hM⟩ := ih (f a)
    refine ⟨max b M, ?_⟩
    rw [Finset.fold_insert ha, hM, coe_max]

/-- The running maximum of a nonempty finite family of reals is a real. -/
theorem fold_real {ι : Type*} [Fintype ι] (f : ι → ℝ) (i0 : ι) :
    ∃ M : ℝ, (Finset.univ : Finset ι).fold max ⊥ (fun i => ((f i : ℝ) : EReal)) = ((M : ℝ) : EReal) := by
  classical
  obtain ⟨M, hM⟩ := max_fold_real (Finset.univ.erase i0) f (f i0)
  refine ⟨M, ?_⟩
  have h : (Finset.univ : Finset ι) = insert i0 (Finset.univ.erase i0) :=
    (Finset.insert_erase (Finset.mem_univ i0)).symm
  rw [h, Finset.fold_insert (Finset.notMem_erase i0 _)]
  exact hM

/-- The reference's row maximum is a real where every logit is. -/
theorem rmax_real (s : Fin 512 → Fin 85742 → EReal) (r : Fin 512 → Fin 85742 → ℝ)
    (hs : ∀ n j, s n j = ((r n j : ℝ) : EReal)) (n : Fin 512) :
    ∃ M : ℝ, Cert.Spec.rmax s n = ((M : ℝ) : EReal) := by
  obtain ⟨M, hM⟩ := fold_real (r n) ⟨0, by norm_num⟩
  refine ⟨M, ?_⟩
  have hfun : s n = fun j => ((r n j : ℝ) : EReal) := funext (hs n)
  rw [Cert.Spec.rmax, hfun, hM, max_eq_right bot_le]

/-- Shifting every exponent by M divides the sum of exponentials by exp M. -/
theorem log_sum_exp_shift {ι : Type*} [Fintype ι] [Nonempty ι] (f : ι → ℝ) (M : ℝ) :
    Real.log (∑ i, Real.exp (f i - M)) = Real.log (∑ i, Real.exp (f i)) - M := by
  have hpos : 0 < ∑ i, Real.exp (f i) := Finset.sum_pos (fun i _ => Real.exp_pos _) Finset.univ_nonempty
  have h : ∑ i, Real.exp (f i - M) = (∑ i, Real.exp (f i)) * Real.exp (-M) := by
    rw [Finset.sum_mul]
    refine Finset.sum_congr rfl (fun i _ => ?_)
    rw [sub_eq_add_neg, Real.exp_add]
  rw [h, Real.log_mul hpos.ne' (Real.exp_pos _).ne', Real.log_exp, sub_eq_add_neg]

theorem rlogp_eq (s : Fin 512 → Fin 85742 → EReal) (r : Fin 512 → Fin 85742 → ℝ) (hs : ∀ n j, s n j = ((r n j : ℝ) : EReal)) (n : Fin 512) (j : Fin 85742) :
    Cert.Spec.rlogp s n j = ((r n j - Real.log (∑ j' : Fin 85742, Real.exp (r n j')) : ℝ) : EReal) := by
  obtain ⟨M, hM⟩ := rmax_real s r hs n
  haveI : Nonempty (Fin 85742) := ⟨⟨0, by norm_num⟩⟩
  have hpos : 0 < ∑ j' : Fin 85742, Real.exp (r n j' - M) :=
    Finset.sum_pos (fun i _ => Real.exp_pos _) Finset.univ_nonempty
  have hsum : (∑ j' : Fin 85742, Ideal.exp (s n j' - Cert.Spec.rmax s n))
      = ((∑ j' : Fin 85742, Real.exp (r n j' - M) : ℝ) : EReal) := by
    rw [coe_sum]
    refine Finset.sum_congr rfl (fun j' _ => ?_)
    rw [hs, hM, ← EReal.coe_sub, Ideal.exp_coe]
  rw [Cert.Spec.rlogp, hsum, Ideal.log_coe, if_neg (not_le.mpr hpos), hs, hM, ← EReal.coe_sub, ← EReal.coe_sub,
    log_sum_exp_shift, sub_sub_sub_cancel_right]

/-- The word for 512 denotes 512. -/
theorem c512_eq : Cert.Spec.c512 = ((512 : ℝ) : EReal) := by
  simp [Cert.Spec.c512, Ideal.ofBits, Ideal.ieee, -EReal.coe_mul]; norm_num

/-- The word for the logit scale denotes 64. -/
theorem scale_eq : Cert.Spec.scale = ((64 : ℝ) : EReal) := by
  simp [Cert.Spec.scale, Ideal.ofBits, Ideal.ieee, -EReal.coe_mul]; norm_num

/-- The clamp word denotes a positive real. -/
theorem eps_pos : ∃ e : ℝ, 0 < e ∧ Cert.Spec.eps = ((e : ℝ) : EReal) := by
  refine ⟨(2 ^ 23 + 834764 : ℕ) * (2 : ℝ) ^ ((87 : ℤ) - (2 ^ (8 - 1) - 1 : ℤ) - 23), by positivity, ?_⟩
  simp [Cert.Spec.eps, Ideal.ofBits, Ideal.ieee, -EReal.coe_mul]

theorem kloss_eq_rloss (s : Fin 512 → Fin 85742 → EReal) (r : Fin 512 → Fin 85742 → ℝ) (hs : ∀ n j, s n j = ((r n j : ℝ) : EReal))
    (hk : ∀ n, Cert.Spec.klse s n = ((Real.log (∑ j : Fin 85742, Real.exp (r n j)) : ℝ) : EReal))
    (lb : Fin 512 → Fin 85742) (tl : Fin 512 → EReal) (htl : ∀ n, tl n = s n (lb n)) (temp : Fin 4 → EReal) :
    Cert.Spec.kloss s tl temp = Cert.Spec.rloss s lb temp := by
  have h1 : (∑ n : Fin 512, (Cert.Spec.klse s n - tl n))
      = ((∑ n : Fin 512, (Real.log (∑ j : Fin 85742, Real.exp (r n j)) - r n (lb n)) : ℝ) : EReal) := by
    rw [coe_sum]
    refine Finset.sum_congr rfl (fun n _ => ?_)
    rw [hk, htl, hs, ← EReal.coe_sub]
  have h2 : (∑ n : Fin 512, Cert.Spec.rlogp s n (lb n))
      = ((∑ n : Fin 512, (r n (lb n) - Real.log (∑ j : Fin 85742, Real.exp (r n j))) : ℝ) : EReal) := by
    rw [coe_sum]
    refine Finset.sum_congr rfl (fun n _ => ?_)
    rw [rlogp_eq s r hs]
  have h3 : (∑ n : Fin 512, (r n (lb n) - Real.log (∑ j : Fin 85742, Real.exp (r n j))))
      = -(∑ n : Fin 512, (Real.log (∑ j : Fin 85742, Real.exp (r n j)) - r n (lb n))) := by
    rw [← Finset.sum_neg_distrib]
    refine Finset.sum_congr rfl (fun n _ => ?_)
    rw [neg_sub]
  have h512 : (512 : ℝ) ≠ 0 := by norm_num
  rw [Cert.Spec.kloss, Cert.Spec.rloss, h1, h2, h3, c512_eq, Ideal.div_coe h512, Ideal.div_coe h512, ← EReal.coe_mul,
    ← EReal.coe_mul, ← EReal.coe_neg, neg_mul, neg_neg]

theorem normRow_real {R : ℕ} (a : Fin R → Fin 512 → EReal) (ar : Fin R → Fin 512 → ℝ) (ha : ∀ r k, a r k = ((ar r k : ℝ) : EReal)) (r : Fin R) (k : Fin 512) :
    ∃ x : ℝ, Cert.Spec.normRow a r k = ((x : ℝ) : EReal) := by
  obtain ⟨e, he, hE⟩ := eps_pos
  have hsum : (∑ k' : Fin 512, a r k' * a r k') = ((∑ k' : Fin 512, ar r k' * ar r k' : ℝ) : EReal) := by
    rw [coe_sum]
    refine Finset.sum_congr rfl (fun k' _ => ?_)
    rw [ha, EReal.coe_mul]
  have hnn : ¬ (∑ k' : Fin 512, ar r k' * ar r k') < 0 :=
    not_lt.mpr (Finset.sum_nonneg (fun k' _ => mul_self_nonneg _))
  have hy : 0 < max (Real.sqrt (∑ k' : Fin 512, ar r k' * ar r k')) e := lt_max_of_lt_right he
  refine ⟨ar r k * (1 / max (Real.sqrt (∑ k' : Fin 512, ar r k' * ar r k')) e), ?_⟩
  rw [Cert.Spec.normRow, hsum, Ideal.sqrt_coe, if_neg hnn, hE, ← coe_max, Ideal.div_coe hy.ne', ha, EReal.coe_mul]

theorem logit_real (xn : Fin 512 → Fin 512 → EReal) (w : Fin 85742 → Fin 512 → EReal) (lab : Fin 512 → BitVec 32) (mg : Fin 512 → EReal)
    (hx : ∀ n k, ∃ x : ℝ, xn n k = ((x : ℝ) : EReal)) (hw : ∀ j k, ∃ x : ℝ, w j k = ((x : ℝ) : EReal)) (hm : ∀ n, ∃ x : ℝ, mg n = ((x : ℝ) : EReal)) :
    ∃ r : Fin 512 → Fin 85742 → ℝ, ∀ n j, Cert.Spec.logit xn w lab mg n j = ((r n j : ℝ) : EReal) := by
  choose xr hxr using hx
  choose wr hwr using hw
  choose mr hmr using hm
  have hn : ∀ j k, ∃ y : ℝ, Cert.Spec.normRow w j k = ((y : ℝ) : EReal) := fun j k => normRow_real w wr hwr j k
  choose nr hnr using hn
  have hc : ∀ n j, Cert.Spec.cosine xn w n j = ((∑ k : Fin 512, xr n k * nr j k : ℝ) : EReal) := by
    intro n j
    rw [Cert.Spec.cosine, coe_sum]
    refine Finset.sum_congr rfl (fun k _ => ?_)
    rw [hxr, hnr, EReal.coe_mul]
  refine ⟨fun n j => 64 * (if BitVec.ofNat 32 j.val = lab n then (∑ k : Fin 512, xr n k * nr j k) - mr n
    else ∑ k : Fin 512, xr n k * nr j k), fun n j => ?_⟩
  rw [Cert.Spec.logit, scale_eq, hc, hmr, EReal.coe_mul]
  by_cases hl : BitVec.ofNat 32 j.val = lab n
  · rw [if_pos hl, if_pos hl, EReal.coe_sub]
  · rw [if_neg hl, if_neg hl]

theorem exp_real (x : ℝ) : ∃ y : ℝ, Idealize.ShloMosaic.Ideal.exp ((x : ℝ) : EReal) = ((y : ℝ) : EReal) :=
  ⟨Real.exp x, rfl⟩

end Cert.Math

end
-- ==== Proof.Glue.lean ====
/-
  The two forms of the loss agree on real logits, and the logits are real when the samples, the class weights and the margins are.
-/
import proofs.«421507_j48103633715511_2_alg».proof.Proof.Spec
import proofs.«421507_j48103633715511_2_alg».proof.Proof.MathOnline
import proofs.«421507_j48103633715511_2_alg».proof.Proof.MathRef

noncomputable section

namespace Cert.Glue

open Idealize.ShloMosaic

/-- On real logits the kernel's tiled running log-sum-exp loss is the reference's log-softmax loss. -/
theorem loss_eq (S : Fin 512 → Fin 85742 → EReal) (hS : ∃ r : Fin 512 → Fin 85742 → ℝ, ∀ n j, S n j = ((r n j : ℝ) : EReal))
    (lb : Fin 512 → Fin 85742) (temp : Fin 4 → EReal) :
    Cert.Spec.kloss S (fun n => S n (lb n)) temp = Cert.Spec.rloss S lb temp := by
  obtain ⟨r, hr⟩ := hS
  exact Cert.Math.kloss_eq_rloss S r hr (Cert.MathOnline.klse_eq S r hr) lb _ (fun _ => rfl) temp

/-- Real samples, real class weights and real margins give real logits: each normalised row is real, so each cosine is. -/
theorem logits_real (inp : Fin 512 → Fin 512 → EReal) (w : Fin 85742 → Fin 512 → EReal) (lab : Fin 512 → BitVec 32) (mg : Fin 512 → EReal)
    (hinp : ∀ n k, ∃ x : ℝ, inp n k = ((x : ℝ) : EReal)) (hw : ∀ j k, ∃ x : ℝ, w j k = ((x : ℝ) : EReal))
    (hmg : ∀ n, ∃ x : ℝ, mg n = ((x : ℝ) : EReal)) :
    ∃ r : Fin 512 → Fin 85742 → ℝ, ∀ n j, Cert.Spec.logit (Cert.Spec.normRow inp) w lab mg n j = ((r n j : ℝ) : EReal) := by
  choose ir hir using hinp
  exact Cert.Math.logit_real (Cert.Spec.normRow inp) w lab mg (fun n k => Cert.Math.normRow_real inp ir hir n k) hw hmg

end Cert.Glue

end
-- ==== Proof.RefValue.lean ====
/-
  The reference's first result, read entry by entry over the extended reals, is the specification's reference form: its
  logits are the specification's (the scatter adds the negated margin in each row's label column, and only there), its
  log-softmax is the specification's row by row, the gather picks each row's entry at its label, and the scalar tail is the
  mean, the negation and the regulariser.
-/
import proofs.«421507_j48103633715511_2_alg».proof.Proof.Spec
import proofs.«421507_j48103633715511_2_alg».proof.Proof.RefRead

noncomputable section

open scoped BigOperators

namespace Cert.RefValue

open Idealize.ShloMosaic Idealize.ShloMosaic.ValueIdx Cert.ReferenceIdeal Cert.ReferenceIdeal.Gen

/-! ## An element scatter-add and an element gather, read at an index

The operand is [N, C]; the indices are a two-column array [R, 2] (row word, column word), read signed; the updates, or the
gathered values, are a vector [R]. -/

/-- The dimension numbers of an element scatter: no window axis, both operand axes inserted and addressed by the index,
    the index vector along axis 1. -/
abbrev elemScatter (R N C : Nat) (wf : ScatterDims.WF ⟨2, ![N, C]⟩ ⟨2, ![R, 2]⟩ ⟨1, ![R]⟩ [] [0, 1] [0, 1] 1) :
    ScatterDims ⟨2, ![N, C]⟩ ⟨2, ![R, 2]⟩ ⟨1, ![R]⟩ where
  updateWindowDims := []
  insertedWindowDims := [0, 1]
  scatterDimsToOperandDims := [0, 1]
  indexVectorDim := 1
  wf := wf

section ScatterFacts
variable {R N C w : Nat} (wf : ScatterDims.WF ⟨2, ![N, C]⟩ ⟨2, ![R, 2]⟩ ⟨1, ![R]⟩ [] [0, 1] [0, 1] 1)
    (idx : IVec ⟨2, ![R, 2]⟩ w) (r : Fin R)

/-- Both operand axes are inserted: no window coordinate on either. -/
theorem es_window (a : Fin 2) : (elemScatter R N C wf).window (ix1 r) a = 0 := by
  match a with
  | ⟨0, _⟩ => rfl
  | ⟨1, _⟩ => rfl

/-- Operand axis 0 starts at update r's row word, read signed. -/
theorem es_start0 : (elemScatter R N C wf).start (ix1 r) idx 0 = (idx (ix2 r (0 : Fin 2))).toInt := by
  unfold ScatterDims.start
  rw [dif_pos (show (0 : Fin 2) ∈ (elemScatter R N C wf).scatterDimsToOperandDims from List.mem_cons_self ..)]
  congr 2
  funext b
  refine Fin.ext ?_
  match b with
  | ⟨0, _⟩ => rfl
  | ⟨1, _⟩ => rfl

/-- Operand axis 1 starts at update r's column word, read signed. -/
theorem es_start1 : (elemScatter R N C wf).start (ix1 r) idx 1 = (idx (ix2 r (1 : Fin 2))).toInt := by
  unfold ScatterDims.start
  rw [dif_pos (show (1 : Fin 2) ∈ (elemScatter R N C wf).scatterDimsToOperandDims from
    List.mem_cons_of_mem _ (List.mem_cons_self ..))]
  congr 2
  funext b
  refine Fin.ext ?_
  match b with
  | ⟨0, _⟩ => rfl
  | ⟨1, _⟩ => rfl
end ScatterFacts

/-- Update r lands on operand element (p, q) exactly when its row word is p and its column word is q. -/
theorem elemScatter_resultIdx {R N C w : Nat} (wf : ScatterDims.WF ⟨2, ![N, C]⟩ ⟨2, ![R, 2]⟩ ⟨1, ![R]⟩ [] [0, 1] [0, 1] 1)
    (idx : IVec ⟨2, ![R, 2]⟩ w) (r : Fin R) (p : Fin N) (q : Fin C) :
    (elemScatter R N C wf).resultIdx? (ix1 r) idx = some (ix2 p q)
      ↔ (idx (ix2 r (0 : Fin 2))).toInt = (p.val : ℤ) ∧ (idx (ix2 r (1 : Fin 2))).toInt = (q.val : ℤ) := by
  have hs0 := es_start0 wf idx r
  have hs1 := es_start1 wf idx r
  have hw0 := es_window wf r 0
  have hw1 := es_window wf r 1
  unfold ScatterDims.resultIdx?
  split
  · -- the landing point is inside the operand: compare it with (p, q) coordinate by coordinate
    rename_i h
    rw [Option.some.injEq]
    constructor
    · intro hf
      have h0 := congrArg Fin.val (congrFun hf 0)
      have h1 := congrArg Fin.val (congrFun hf 1)
      have hb0 := h 0
      have hb1 := h 1
      simp only [hs0, hs1, hw0, hw1] at h0 h1 hb0 hb1
      change _ = p.val at h0
      change _ = q.val at h1
      constructor <;> omega
    · rintro ⟨hp, hq⟩
      funext a
      refine Fin.ext ?_
      match a with
      | ⟨0, _⟩ =>
        show ((elemScatter R N C wf).start (ix1 r) idx 0 + (elemScatter R N C wf).window (ix1 r) 0).toNat = p.val
        rw [hs0, hw0, hp]; simp
      | ⟨1, _⟩ =>
        show ((elemScatter R N C wf).start (ix1 r) idx 1 + (elemScatter R N C wf).window (ix1 r) 1).toNat = q.val
        rw [hs1, hw1, hq]; simp
  · -- the landing point is outside the operand: then the words cannot be a row p < N and a column q < C
    rename_i h
    constructor
    · intro hf; exact absurd hf (by simp)
    · rintro ⟨hp, hq⟩
      exfalso
      apply h
      intro a
      match a with
      | ⟨0, _⟩ =>
        show 0 ≤ (elemScatter R N C wf).start (ix1 r) idx 0 + (elemScatter R N C wf).window (ix1 r) 0 ∧
          (elemScatter R N C wf).start (ix1 r) idx 0 + (elemScatter R N C wf).window (ix1 r) 0 < (N : ℤ)
        rw [hs0, hw0, hp]
        have := p.isLt
        constructor <;> omega
      | ⟨1, _⟩ =>
        show 0 ≤ (elemScatter R N C wf).start (ix1 r) idx 1 + (elemScatter R N C wf).window (ix1 r) 1 ∧
          (elemScatter R N C wf).start (ix1 r) idx 1 + (elemScatter R N C wf).window (ix1 r) 1 < (C : ℤ)
        rw [hs1, hw1, hq]
        have := q.isLt
        constructor <;> omega

/-- The element scatter-add read at (p, q): the operand there plus the sum of the updates whose two words are (p, q). -/
theorem elemScatter_apply {R N C w : Nat} (wf : ScatterDims.WF ⟨2, ![N, C]⟩ ⟨2, ![R, 2]⟩ ⟨1, ![R]⟩ [] [0, 1] [0, 1] 1)
    (x : (⟨2, ![N, C]⟩ : Shape).Idx → EReal) (idx : IVec ⟨2, ![R, 2]⟩ w) (upd : (⟨1, ![R]⟩ : Shape).Idx → EReal)
    (p : Fin N) (q : Fin C) :
    Ideal.hostScatterAdd (elemScatter R N C wf) x idx upd (ix2 p q)
      = x (ix2 p q) + ∑ r ∈ Finset.univ.filter (fun r : Fin R =>
          (idx (ix2 r (0 : Fin 2))).toInt = (p.val : ℤ) ∧ (idx (ix2 r (1 : Fin 2))).toInt = (q.val : ℤ)), upd (ix1 r) := by
  unfold Ideal.hostScatterAdd
  refine congrArg (x (ix2 p q) + ·) ?_
  symm
  refine Finset.sum_bij (fun r _ => ix1 r) ?_ ?_ ?_ ?_
  · intro r hr
    rw [Finset.mem_filter] at hr ⊢
    exact ⟨Finset.mem_univ _, (elemScatter_resultIdx wf idx r p q).mpr hr.2⟩
  · intro r₁ _ r₂ _ h
    exact congrFun h 0
  · intro j hj
    obtain ⟨a, rfl⟩ : ∃ a : Fin R, j = ix1 a := ⟨j 0, eq_ix1 j⟩
    rw [Finset.mem_filter] at hj
    exact ⟨a, by rw [Finset.mem_filter]; exact ⟨Finset.mem_univ _, (elemScatter_resultIdx wf idx a p q).mp hj.2⟩, rfl⟩
  · intro r _; rfl

/-- When update r's row word is r itself, element (p, q) meets at most the one update p: it gains that update when
    p's column word is q, and nothing otherwise. -/
theorem elemScatter_rows_apply {R C w : Nat} (wf : ScatterDims.WF ⟨2, ![R, C]⟩ ⟨2, ![R, 2]⟩ ⟨1, ![R]⟩ [] [0, 1] [0, 1] 1)
    (x : (⟨2, ![R, C]⟩ : Shape).Idx → EReal) (idx : IVec ⟨2, ![R, 2]⟩ w) (upd : (⟨1, ![R]⟩ : Shape).Idx → EReal)
    (h0 : ∀ r : Fin R, (idx (ix2 r (0 : Fin 2))).toInt = (r.val : ℤ)) (p : Fin R) (q : Fin C) :
    Ideal.hostScatterAdd (elemScatter R R C wf) x idx upd (ix2 p q)
      = x (ix2 p q) + if (idx (ix2 p (1 : Fin 2))).toInt = (q.val : ℤ) then upd (ix1 p) else 0 := by
  rw [elemScatter_apply]
  refine congrArg (x (ix2 p q) + ·) ?_
  by_cases hq : (idx (ix2 p (1 : Fin 2))).toInt = (q.val : ℤ)
  · rw [if_pos hq]
    have hset : Finset.univ.filter (fun r : Fin R =>
        (idx (ix2 r (0 : Fin 2))).toInt = (p.val : ℤ) ∧ (idx (ix2 r (1 : Fin 2))).toInt = (q.val : ℤ)) = {p} := by
      ext r
      rw [Finset.mem_filter, Finset.mem_singleton]
      constructor
      · rintro ⟨_, hr, _⟩
        rw [h0 r] at hr
        exact Fin.ext (by omega)
      · rintro rfl
        exact ⟨Finset.mem_univ _, h0 r, hq⟩
    rw [hset, Finset.sum_singleton]
  · rw [if_neg hq]
    have hset : Finset.univ.filter (fun r : Fin R =>
        (idx (ix2 r (0 : Fin 2))).toInt = (p.val : ℤ) ∧ (idx (ix2 r (1 : Fin 2))).toInt = (q.val : ℤ)) = ∅ := by
      ext r
      rw [Finset.mem_filter]
      constructor
      · rintro ⟨_, hr, hr1⟩
        rw [h0 r] at hr
        have : r = p := Fin.ext (by omega)
        subst this
        exact absurd hr1 hq
      · intro h; exact absurd h (Finset.notMem_empty r)
    rw [hset, Finset.sum_empty]

/-- The dimension numbers of an element gather: no offset axis, both operand axes collapsed and addressed by the start
    index, the index vector along axis 1, one-element slices. -/
abbrev elemGather (N C R : Nat) (wf : GatherDims.WF ⟨2, ![N, C]⟩ ⟨2, ![R, 2]⟩ ⟨1, ![R]⟩ [] [0, 1] [] [0, 1] [] 1 ![1, 1]) :
    GatherDims ⟨2, ![N, C]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The element gather read at r: when r's two words are a row p and a column q of the operand, the operand's (p, q). -/
theorem elemGather_apply {N C R w : Nat} {α : Type} (wf : GatherDims.WF ⟨2, ![N, C]⟩ ⟨2, ![R, 2]⟩ ⟨1, ![R]⟩ [] [0, 1] [] [0, 1] [] 1 ![1, 1])
    (x : (⟨2, ![N, C]⟩ : Shape).Idx → α) (idx : IVec ⟨2, ![R, 2]⟩ w) (r : Fin R) (p : Fin N) (q : Fin C)
    (hp : (idx (ix2 r (0 : Fin 2))).toInt = (p.val : ℤ)) (hq : (idx (ix2 r (1 : Fin 2))).toInt = (q.val : ℤ)) :
    Host.gather (elemGather N C R wf) x idx (ix1 r) = x (ix2 p q) := by
  show x ((elemGather N C R wf).operandIdx (ix1 r) idx) = x (ix2 p q)
  refine congrArg x (funext fun a => Fin.ext ?_)
  have hb : ∀ a : Fin 2, (elemGather N C R wf).batchCoord (ix1 r) a = 0 := fun a => by
    match a with
    | ⟨0, _⟩ => rfl
    | ⟨1, _⟩ => rfl
  have ho : ∀ a : Fin 2, (elemGather N C R wf).offCoord (ix1 r) a = 0 := fun a => by
    match a with
    | ⟨0, _⟩ => rfl
    | ⟨1, _⟩ => rfl
  have hs0 : (elemGather N C R wf).start (ix1 r) idx 0 = min (idx (ix2 r (0 : Fin 2))).toInt.toNat (N - 1) := by
    unfold GatherDims.start
    rw [dif_pos (show (0 : Fin 2) ∈ (elemGather N C R wf).startIndexMap from List.mem_cons_self ..)]
    congr 4
    funext b
    refine Fin.ext ?_
    match b with
    | ⟨0, _⟩ => rfl
    | ⟨1, _⟩ => rfl
  have hs1 : (elemGather N C R wf).start (ix1 r) idx 1 = min (idx (ix2 r (1 : Fin 2))).toInt.toNat (C - 1) := by
    unfold GatherDims.start
    rw [dif_pos (show (1 : Fin 2) ∈ (elemGather N C R wf).startIndexMap from List.mem_cons_of_mem _ (List.mem_cons_self ..))]
    congr 4
    funext b
    refine Fin.ext ?_
    match b with
    | ⟨0, _⟩ => rfl
    | ⟨1, _⟩ => rfl
  match a with
  | ⟨0, _⟩ =>
    show (elemGather N C R wf).start (ix1 r) idx 0 + (elemGather N C R wf).batchCoord (ix1 r) 0
      + (elemGather N C R wf).offCoord (ix1 r) 0 = p.val
    rw [hs0, hb 0, ho 0, hp]
    have := p.isLt
    omega
  | ⟨1, _⟩ =>
    show (elemGather N C R wf).start (ix1 r) idx 1 + (elemGather N C R wf).batchCoord (ix1 r) 1
      + (elemGather N C R wf).offCoord (ix1 r) 1 = q.val
    rw [hs1, hb 1, ho 1, hq]
    have := q.isLt
    omega

/-! ## The index words -/

/-- A word below 2^31 reads, signed, as itself. -/
theorem toInt_ofNat_small (k : Nat) (hk : k < 2147483648) : (BitVec.ofNat 32 k).toInt = (k : ℤ) := by
  rw [BitVec.toInt_eq_toNat_cond, BitVec.toNat_ofNat]
  have hm : k % 2 ^ 32 = k := Nat.mod_eq_of_lt (by omega)
  rw [hm, if_pos (by omega)]

/-- Two words below 2^32 that are equal come from equal numbers. -/
theorem ofNat_inj_small {a b : Nat} (ha : a < 4294967296) (hb : b < 4294967296) (h : BitVec.ofNat 32 a = BitVec.ofNat 32 b) :
    a = b := by
  have := congrArg BitVec.toNat h
  rw [BitVec.toNat_ofNat, BitVec.toNat_ofNat, Nat.mod_eq_of_lt (by omega), Nat.mod_eq_of_lt (by omega)] at this
  exact this

/-- The wrap of a negative index (add the extent when the word is negative) leaves a word below 2^31 alone. -/
theorem wrap_small (k : Nat) (hk : k < 2147483648) (m : BitVec 32) :
    Scalar.select (IntOp.cmpi .slt (BitVec.ofNat 32 k) 0#32) m (BitVec.ofNat 32 k) = BitVec.ofNat 32 k := by
  have h : IntOp.cmpi .slt (BitVec.ofNat 32 k) 0#32 = 0#1 := by
    show BitVec.ofBool ((BitVec.ofNat 32 k).slt 0#32) = 0#1
    have hf : (BitVec.ofNat 32 k).slt 0#32 = false := by
      unfold BitVec.slt
      rw [toInt_ofNat_small k hk]
      exact decide_eq_false (by rw [BitVec.toInt_zero]; omega)
    rw [hf]; rfl
  rw [h, select_zero]

/-- Two index columns side by side: column 0 is the first. -/
theorem cat_col0 (A B : S512x1.Idx → BitVec 32) (n : Fin 512) :
    concatenate S512x2 1 [⟨S512x1, A⟩, ⟨S512x1, B⟩] concatenates_S512x1_S512x1_S512x2_d1 (ix2 n (0 : Fin 2)) = A (ix2 n 0) :=
  concatenate_pair_apply_left 1 A B concatenates_S512x1_S512x1_S512x2_d1 (ix2 n (0 : Fin 2)) rfl (ix2 n 0)
    (fun b => match b with | ⟨0, _⟩ => rfl | ⟨1, _⟩ => rfl)

/-- Two index columns side by side: column 1 is the second. -/
theorem cat_col1 (A B : S512x1.Idx → BitVec 32) (n : Fin 512) :
    concatenate S512x2 1 [⟨S512x1, A⟩, ⟨S512x1, B⟩] concatenates_S512x1_S512x1_S512x2_d1 (ix2 n (1 : Fin 2)) = B (ix2 n 0) :=
  concatenate_pair_apply_right 1 A B concatenates_S512x1_S512x1_S512x2_d1 (ix2 n (1 : Fin 2)) rfl rfl (ix2 n 0)
    (fun b hb => match b, hb with | ⟨0, _⟩, _ => rfl | ⟨1, _⟩, hb => absurd rfl hb) rfl

open Cert.RefRead

/-- The scatter's row words are the row numbers. -/
theorem rowword_s (n : Fin 512) : (val_main_v57 (F := Ideal) : S512x1.Idx → BitVec 32) (ix2 n 0) = BitVec.ofNat 32 n.val := by
  rw [val_main_v57_apply, val_main_v51_apply, val_main_v48_apply, val_main_v47_apply, val_main_c_12_apply, val_main_v19_apply]
  exact wrap_small n.val (by have := n.isLt; omega) _

/-- The gather's row words are the row numbers. -/
theorem rowword_g (n : Fin 512) : (val_main_v74 (F := Ideal) : S512x1.Idx → BitVec 32) (ix2 n 0) = BitVec.ofNat 32 n.val := by
  rw [val_main_v74_apply, val_main_v68_apply, val_main_v65_apply, val_main_v64_apply, val_main_c_17_apply, val_main_v19_apply]
  exact wrap_small n.val (by have := n.isLt; omega) _

section Labels
variable (x1 : (⟨S512, .i32⟩ : BufTy).Contents (Elt Ideal)) (lb : Fin 512 → Fin 85742)
  (hlb : ∀ n, (x1 : S512.Idx → BitVec 32) (ix1 n) = BitVec.ofNat 32 (lb n).val)
include hlb

/-- The scatter's column words are the labels. -/
theorem colword_s (n : Fin 512) : (val_main_v58 (F := Ideal) x1 : S512x1.Idx → BitVec 32) (ix2 n 0) = BitVec.ofNat 32 (lb n).val := by
  rw [val_main_v58_apply, val_main_v56_apply, val_main_v53_apply, val_main_v52_apply, val_main_c_14_apply]
  have ei : idx_main_v58 (ix2 n 0) = ix1 n := funext fun a => by match a with | ⟨0, _⟩ => rfl
  rw [ei, hlb n]
  exact wrap_small _ (by have := (lb n).isLt; omega) _

/-- The gather's column words are the labels. -/
theorem colword_g (n : Fin 512) : (val_main_v75 (F := Ideal) x1 : S512x1.Idx → BitVec 32) (ix2 n 0) = BitVec.ofNat 32 (lb n).val := by
  rw [val_main_v75_apply, val_main_v73_apply, val_main_v70_apply, val_main_v69_apply, val_main_c_19_apply]
  have ei : idx_main_v75 (ix2 n 0) = ix1 n := funext fun a => by match a with | ⟨0, _⟩ => rfl
  rw [ei, hlb n]
  exact wrap_small _ (by have := (lb n).isLt; omega) _

/-- The scatter's index pairs, read signed: (n, label n). -/
theorem idx_s0 (n : Fin 512) : ((val_main_v59 (F := Ideal) x1 : S512x2.Idx → BitVec 32) (ix2 n (0 : Fin 2))).toInt = (n.val : ℤ) := by
  show ((concatenate S512x2 1 [⟨S512x1, val_main_v57 (F := Ideal)⟩, ⟨S512x1, val_main_v58 (F := Ideal) x1⟩]
    concatenates_S512x1_S512x1_S512x2_d1 : S512x2.Idx → BitVec 32) (ix2 n (0 : Fin 2))).toInt = _
  rw [cat_col0, rowword_s, toInt_ofNat_small _ (by have := n.isLt; omega)]
theorem idx_s1 (n : Fin 512) : ((val_main_v59 (F := Ideal) x1 : S512x2.Idx → BitVec 32) (ix2 n (1 : Fin 2))).toInt = ((lb n).val : ℤ) := by
  show ((concatenate S512x2 1 [⟨S512x1, val_main_v57 (F := Ideal)⟩, ⟨S512x1, val_main_v58 (F := Ideal) x1⟩]
    concatenates_S512x1_S512x1_S512x2_d1 : S512x2.Idx → BitVec 32) (ix2 n (1 : Fin 2))).toInt = _
  rw [cat_col1, colword_s x1 lb hlb, toInt_ofNat_small _ (by have := (lb n).isLt; omega)]

/-- The gather's index pairs, read signed: (n, label n). -/
theorem idx_g0 (n : Fin 512) : ((val_main_v76 (F := Ideal) x1 : S512x2.Idx → BitVec 32) (ix2 n (0 : Fin 2))).toInt = (n.val : ℤ) := by
  show ((concatenate S512x2 1 [⟨S512x1, val_main_v74 (F := Ideal)⟩, ⟨S512x1, val_main_v75 (F := Ideal) x1⟩]
    concatenates_S512x1_S512x1_S512x2_d1 : S512x2.Idx → BitVec 32) (ix2 n (0 : Fin 2))).toInt = _
  rw [cat_col0, rowword_g, toInt_ofNat_small _ (by have := n.isLt; omega)]
theorem idx_g1 (n : Fin 512) : ((val_main_v76 (F := Ideal) x1 : S512x2.Idx → BitVec 32) (ix2 n (1 : Fin 2))).toInt = ((lb n).val : ℤ) := by
  show ((concatenate S512x2 1 [⟨S512x1, val_main_v74 (F := Ideal)⟩, ⟨S512x1, val_main_v75 (F := Ideal) x1⟩]
    concatenates_S512x1_S512x1_S512x2_d1 : S512x2.Idx → BitVec 32) (ix2 n (1 : Fin 2))).toInt = _
  rw [cat_col1, colword_g x1 lb hlb, toInt_ofNat_small _ (by have := (lb n).isLt; omega)]
end Labels

/-! ## The logits -/

section Logits
variable (x0 : (⟨S512x512, .f32⟩ : BufTy).Contents (Elt Ideal)) (x1 x2 : (⟨S512, .i32⟩ : BufTy).Contents (Elt Ideal))
  (x3 : (⟨S85742x512, .f32⟩ : BufTy).Contents (Elt Ideal)) (x4 : (⟨S4, .f32⟩ : BufTy).Contents (Elt Ideal))

/-- The specification's scaled logits of the reference's arguments: the margins are the reference's gathered vector, unopened. -/
def SR : Fin 512 → Fin 85742 → EReal :=
  Cert.Spec.logit (Cert.Spec.normRow (fun n k => (x0 : S512x512.Idx → EReal) (ix2 n k))) (fun j k => (x3 : S85742x512.Idx → EReal) (ix2 j k))
    (fun n => (x1 : S512.Idx → BitVec 32) (ix1 n)) (fun n => (Cert.RefRead.val_main_v18 (F := Ideal) x2 x4 : S512.Idx → EReal) (ix1 n))

/-- The normalised samples at (n, k). -/
theorem v4_read (n k : Fin 512) :
    (val_main_v4 (F := Ideal) x0 : S512x512.Idx → EReal) (ix2 n k)
      = Cert.Spec.normRow (fun n k => (x0 : S512x512.Idx → EReal) (ix2 n k)) n k := by
  rw [val_main_v4_apply, val_main_v3_apply, val_main_v2_apply, val_main_v0_apply, val_main_call0_v2_apply,
    val_main_call0_v1_apply, val_main_v1_apply, val_main_cst_apply, val_main_call0_cst_apply]
  simp only [Ideal.hostDivf_def, Ideal.maximumf_def, Ideal.hostUnary_sqrt_def, Ideal.ofBits_def]
  rw [Ideal.ofBits_zero_f32, zero_add]
  have hs : (∑ k' : Fin 512, (val_main_call0_v0 (F := Ideal) x0) (idx_main_call0_v1 (idx_main_call0_v2 (idx_main_v3 (ix2 n k))) k'))
      = ∑ k' : Fin 512, (x0 : S512x512.Idx → EReal) (ix2 n k') * (x0 : S512x512.Idx → EReal) (ix2 n k') :=
    Finset.sum_congr rfl (fun k' _ => by
      have e : idx_main_call0_v1 (idx_main_call0_v2 (idx_main_v3 (ix2 n k))) k' = ix2 n k' :=
        funext fun a => by match a with | ⟨0, _⟩ => rfl | ⟨1, _⟩ => rfl
      rw [e]; rfl)
  rw [hs]
  rfl

/-- The normalised class weights at (j, k). -/
theorem v9_read (j : Fin 85742) (k : Fin 512) :
    (val_main_v9 (F := Ideal) x3 : S85742x512.Idx → EReal) (ix2 j k)
      = Cert.Spec.normRow (fun j k => (x3 : S85742x512.Idx → EReal) (ix2 j k)) j k := by
  rw [val_main_v9_apply, val_main_v8_apply, val_main_v7_apply, val_main_v5_apply, val_main_call1_v2_apply,
    val_main_call1_v1_apply, val_main_v6_apply, val_main_cst_0_apply, val_main_call1_cst_apply]
  simp only [Ideal.hostDivf_def, Ideal.maximumf_def, Ideal.hostUnary_sqrt_def, Ideal.ofBits_def]
  rw [Ideal.ofBits_zero_f32, zero_add]
  have hs : (∑ k' : Fin 512, (val_main_call1_v0 (F := Ideal) x3) (idx_main_call1_v1 (idx_main_call1_v2 (idx_main_v8 (ix2 j k))) k'))
      = ∑ k' : Fin 512, (x3 : S85742x512.Idx → EReal) (ix2 j k') * (x3 : S85742x512.Idx → EReal) (ix2 j k') :=
    Finset.sum_congr rfl (fun k' _ => by
      have e : idx_main_call1_v1 (idx_main_call1_v2 (idx_main_v8 (ix2 j k))) k' = ix2 j k' :=
        funext fun a => by match a with | ⟨0, _⟩ => rfl | ⟨1, _⟩ => rfl
      rw [e]; rfl)
  rw [hs]
  rfl

/-- The cosine of sample n against class j. -/
theorem v10_read (n : Fin 512) (j : Fin 85742) :
    (val_main_v10 (F := Ideal) x0 x3 : S512x85742.Idx → EReal) (ix2 n j)
      = Cert.Spec.cosine (Cert.Spec.normRow (fun n k => (x0 : S512x512.Idx → EReal) (ix2 n k)))
          (fun j k => (x3 : S85742x512.Idx → EReal) (ix2 j k)) n j := by
  rw [val_main_v10_apply]
  unfold Cert.Spec.cosine
  refine Finset.sum_congr rfl (fun k _ => ?_)
  have e1 : lidx_main_v10 (ix2 n j) k = ix2 n k :=
    funext fun a => by match a with | ⟨0, _⟩ => rfl | ⟨1, _⟩ => rfl
  have e2 : ridx_main_v10 (ix2 n j) k = ix2 j k :=
    funext fun a => by match a with | ⟨0, _⟩ => rfl | ⟨1, _⟩ => rfl
  rw [e1, e2, v4_read, v9_read]

/-- The program's scatter is the element scatter. -/
theorem scatter_eq : scatter_S512x85742_S512x2_S512_n_01_01_1
    = elemScatter 512 512 85742 scatter_S512x85742_S512x2_S512_n_01_01_1.wf := rfl

variable (lb : Fin 512 → Fin 85742) (hlb : ∀ n, (x1 : S512.Idx → BitVec 32) (ix1 n) = BitVec.ofNat 32 (lb n).val)
include hlb

/-- The cosines with the negated margin added at each row's label. -/
theorem v60_read (n : Fin 512) (j : Fin 85742) :
    (val_main_v60 (F := Ideal) x0 x1 x2 x3 x4 : S512x85742.Idx → EReal) (ix2 n j)
      = (val_main_v10 (F := Ideal) x0 x3 : S512x85742.Idx → EReal) (ix2 n j)
        + if lb n = j then -((val_main_v18 (F := Ideal) x2 x4 : S512.Idx → EReal) (ix1 n)) else 0 := by
  have hrows := elemScatter_rows_apply scatter_S512x85742_S512x2_S512_n_01_01_1.wf
    (val_main_v10 (F := Ideal) x0 x3 : S512x85742.Idx → EReal) (val_main_v59 (F := Ideal) x1 : S512x2.Idx → BitVec 32)
    (val_main_v46 (F := Ideal) x2 x4 : S512.Idx → EReal) (fun r => idx_s0 x1 lb hlb r) n j
  refine Eq.trans hrows ?_
  rw [idx_s1 x1 lb hlb n]
  refine congrArg (_ + ·) ?_
  by_cases hj : lb n = j
  · rw [if_pos hj, if_pos (by rw [hj])]; rfl
  · rw [if_neg hj, if_neg (fun h => hj (Fin.ext (by exact_mod_cast h)))]

/-- THE LOGITS: the reference's scaled, margin-adjusted cosines are the specification's logits. -/
theorem logits_apply (n : Fin 512) (j : Fin 85742) :
    (val_main_v62 (F := Ideal) x0 x1 x2 x3 x4 : S512x85742.Idx → EReal) (ix2 n j) = SR x0 x1 x2 x3 x4 n j := by
  rw [val_main_v62_apply, val_main_v61_apply, val_main_cst_16_apply, v60_read x0 x1 x2 x3 x4 lb hlb, v10_read]
  unfold SR Cert.Spec.logit
  dsimp only
  by_cases hj : lb n = j
  · have hc : BitVec.ofNat 32 j.val = (x1 : S512.Idx → BitVec 32) (ix1 n) := by rw [hlb n, hj]
    rw [if_pos hj, if_pos hc, ← sub_eq_add_neg]; rfl
  · have hc : ¬ BitVec.ofNat 32 j.val = (x1 : S512.Idx → BitVec 32) (ix1 n) := fun h =>
      hj (Fin.ext (ofNat_inj_small (by have := j.isLt; omega) (by have := (lb n).isLt; omega) (h.trans (hlb n))).symm)
    rw [if_neg hj, if_neg hc, add_zero]; rfl
end Logits

/-! ## The log-softmax, the picked entries and the scalar tail -/

/-- The words for minus infinity and zero. -/
theorem fninf : (FloatOps.ofBits (F := Ideal) .f32 0xFF800000#32 : EReal) = ⊥ := by
  show Ideal.ofBits .f32 0xFF800000#32 = ⊥
  simp [Ideal.ofBits, Ideal.ieee]
theorem fzero : (FloatOps.ofBits (F := Ideal) .f32 0x00000000#32 : EReal) = 0 := Ideal.ofBits_zero_f32

/-- A rank-1 index set is its one coordinate's range, so a sum over it is the sum over the coordinate. -/
def idxEquiv1 {n : Nat} : (⟨1, ![n]⟩ : Shape).Idx ≃ Fin n where
  toFun j := j 0
  invFun a := ix1 a
  left_inv j := (eq_ix1 j).symm
  right_inv _ := rfl
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- The host's row maximum: a reduce with a maximum body along axis 1 of an [R, C] array is, at row n, the fold of max from
    the initial value over the row's C entries. -/
theorem hostRowMax_apply {R C : Nat} (y : FVec Ideal ⟨2, ![R, C]⟩ .f32) (init : FVec Ideal ⟨0, ![]⟩ .f32)
    (h' : (⟨2, ![R, C]⟩ : Shape).ReducesTo [1] ⟨1, ![R]⟩) (h : (⟨2, ![R, C]⟩ : Shape).Reduces [1] ⟨1, ![R]⟩)
    (hu : 0 < (⟨0, ![]⟩ : Shape).numel) (n : Fin R) :
    Host.reduce (FloatOps.maximumf (F := Ideal) (φ := .f32)) y init h' hu (ix1 n)
      = (Finset.univ : Finset (Fin C)).fold max (init (Shape.Idx.first hu)) (fun k => y (ix2 n k)) := by
  rw [Host.reduce_eq_fold_single (FloatOps.maximumf (F := Ideal) (φ := .f32)) y init h' h hu (ix1 n)]
  show (Finset.univ : Finset (Fin C)).fold max (init (Shape.Idx.first hu)) (y ∘ h.lift (ix1 n)) = _
  refine Finset.fold_congr (fun k _ => ?_)
  exact congrArg y (funext fun c => Fin.ext (by fin_cases c <;> rfl))

section Softmax
variable (x0 : (⟨S512x512, .f32⟩ : BufTy).Contents (Elt Ideal)) (x1 x2 : (⟨S512, .i32⟩ : BufTy).Contents (Elt Ideal))
  (x3 : (⟨S85742x512, .f32⟩ : BufTy).Contents (Elt Ideal)) (x4 : (⟨S4, .f32⟩ : BufTy).Contents (Elt Ideal))
  (lb : Fin 512 → Fin 85742) (hlb : ∀ n, (x1 : S512.Idx → BitVec 32) (ix1 n) = BitVec.ofNat 32 (lb n).val)
include hlb

/-- The row maximum: the fold of max from bottom over the row's logits. -/
theorem rowfold_read (n : Fin 512) :
    (val_main_call2_v0 (F := Ideal) x0 x1 x2 x3 x4 : S512.Idx → EReal) (ix1 n)
      = (Finset.univ : Finset (Fin 85742)).fold max ⊥ (SR x0 x1 x2 x3 x4 n) := by
  unfold val_main_call2_v0
  rw [hostRowMax_apply _ _ reducesTo_S512x85742_S512_d1 (by decide) h_S_ n, val_main_call2_cst_apply, fninf]
  exact Finset.fold_congr (fun k _ => logits_apply x0 x1 x2 x3 x4 lb hlb n k)

/-- The reference's row maximum is the specification's. -/
theorem rowmax_read (n : Fin 512) :
    (val_main_call2_v2 (F := Ideal) x0 x1 x2 x3 x4 : S512.Idx → EReal) (ix1 n) = Cert.Spec.rmax (SR x0 x1 x2 x3 x4) n := by
  rw [val_main_call2_v2_apply, val_main_call2_v1_apply, val_main_call2_cst_0_apply, fninf, rowfold_read x0 x1 x2 x3 x4 lb hlb,
    Ideal.maximumf_def]
  unfold Cert.Spec.rmax
  rfl

/-- A logit less its row's maximum. -/
theorem shifted_read (n : Fin 512) (j : Fin 85742) :
    (val_main_call2_v5 (F := Ideal) x0 x1 x2 x3 x4 : S512x85742.Idx → EReal) (ix2 n j)
      = SR x0 x1 x2 x3 x4 n j - Cert.Spec.rmax (SR x0 x1 x2 x3 x4) n := by
  rw [val_main_call2_v5_apply, val_main_call2_v4_apply, val_main_call2_v3_apply, logits_apply x0 x1 x2 x3 x4 lb hlb]
  have e : idx_main_call2_v3 (idx_main_call2_v4 (ix2 n j)) = ix1 n := funext fun a => by match a with | ⟨0, _⟩ => rfl
  rw [e, rowmax_read x0 x1 x2 x3 x4 lb hlb, Ideal.subf_def]

/-- The row's sum of shifted exponentials. -/
theorem sumexp_read (n : Fin 512) :
    (val_main_call2_v7 (F := Ideal) x0 x1 x2 x3 x4 : S512.Idx → EReal) (ix1 n)
      = ∑ j' : Fin 85742, Ideal.exp (SR x0 x1 x2 x3 x4 n j' - Cert.Spec.rmax (SR x0 x1 x2 x3 x4) n) := by
  rw [val_main_call2_v7_apply, val_main_call2_cst_1_apply, fzero, zero_add]
  refine Finset.sum_congr rfl (fun k _ => ?_)
  have e : idx_main_call2_v7 (ix1 n) k = ix2 n k := funext fun a => by match a with | ⟨0, _⟩ => rfl | ⟨1, _⟩ => rfl
  rw [e, val_main_call2_v6_apply, shifted_read x0 x1 x2 x3 x4 lb hlb, Ideal.hostUnary_exp_def]

/-- THE LOG-SOFTMAX: the reference's is the specification's, entry by entry. -/
theorem logsoftmax_apply (n : Fin 512) (j : Fin 85742) :
    (val_main_v63 (F := Ideal) x0 x1 x2 x3 x4 : S512x85742.Idx → EReal) (ix2 n j)
      = Cert.Spec.rlogp (SR x0 x1 x2 x3 x4) n j := by
  rw [val_main_v63_apply, val_main_call2_v10_apply, val_main_call2_v9_apply, val_main_call2_v8_apply,
    shifted_read x0 x1 x2 x3 x4 lb hlb]
  have e : idx_main_call2_v8 (idx_main_call2_v10 (ix2 n j)) = ix1 n := funext fun a => by match a with | ⟨0, _⟩ => rfl
  rw [e, sumexp_read x0 x1 x2 x3 x4 lb hlb, Ideal.subf_def, Ideal.hostUnary_log_def]
  unfold Cert.Spec.rlogp
  rfl

/-- The program's gather is the element gather. -/
theorem gather_eq : gather_S512x85742_S512x2_S512_n_01_n_n_01_1_11
    = elemGather 512 85742 512 gather_S512x85742_S512x2_S512_n_01_n_n_01_1_11.wf := rfl

/-- THE PICKED ENTRIES: row n's log-softmax at its label. -/
theorem picked_apply (n : Fin 512) :
    (val_main_v77 (F := Ideal) x0 x1 x2 x3 x4 : S512.Idx → EReal) (ix1 n)
      = Cert.Spec.rlogp (SR x0 x1 x2 x3 x4) n (lb n) :=
  (elemGather_apply gather_S512x85742_S512x2_S512_n_01_n_n_01_1_11.wf
    (val_main_v63 (F := Ideal) x0 x1 x2 x3 x4 : S512x85742.Idx → EReal) (val_main_v76 (F := Ideal) x1 : S512x2.Idx → BitVec 32)
    n n (lb n) (idx_g0 x1 lb hlb n) (idx_g1 x1 lb hlb n)).trans (logsoftmax_apply x0 x1 x2 x3 x4 lb hlb n (lb n))

/-- THE RESULT: the reference's first result is the specification's reference form. -/
theorem ref_value :
    (Cert.RefRead.val_main_v84 (F := Ideal) x0 x1 x2 x3 x4 : S_.Idx → EReal)
      = fun _ => Cert.Spec.rloss (SR x0 x1 x2 x3 x4) lb (fun d => Ideal.exp ((x4 : S4.Idx → EReal) (ix1 d))) := by
  funext i
  rw [val_main_v84_apply, val_main_v80_apply, val_main_v79_apply, val_main_v78_apply, val_main_cst_21_apply, val_main_cst_22_apply,
    val_main_v83_apply, val_main_cst_25_apply, val_main_v82_apply, val_main_v81_apply, val_main_cst_23_apply, val_main_cst_24_apply,
    fzero, zero_add, zero_add, sum_idx1, sum_idx1]
  have h1 : (∑ a : Fin 512, (val_main_v77 (F := Ideal) x0 x1 x2 x3 x4 : S512.Idx → EReal) (ix1 a))
      = ∑ n : Fin 512, Cert.Spec.rlogp (SR x0 x1 x2 x3 x4) n (lb n) :=
    Finset.sum_congr rfl (fun n _ => picked_apply x0 x1 x2 x3 x4 lb hlb n)
  rw [h1]
  rfl
end Softmax

/-- Each margin is the exponential of one of the four margin words. -/
theorem mg_real (x2 : (⟨S512, .i32⟩ : BufTy).Contents (Elt Ideal)) (x4 : (⟨S4, .f32⟩ : BufTy).Contents (Elt Ideal)) (n : Fin 512) :
    ∃ i : S4.Idx, (Cert.RefRead.val_main_v18 (F := Ideal) x2 x4 : S512.Idx → EReal) (ix1 n) = Ideal.exp ((x4 : S4.Idx → EReal) i) :=
  ⟨_, rfl⟩

end Cert.RefValue

end
-- ==== Proof.lean ====
/-
  The claims. The word-level kernel runs and keeps its arguments from any memory; so do the idealized kernel and the idealized
  reference. The idealization named one constant, the finite stand-in the kernel masks with, as bottom. Under the precondition
  (every float input finite, every label a class number) the idealized kernel and the idealized reference end with equal results:
  both are the cross-entropy of the scaled, margin-adjusted cosines, the kernel's as a tiled running log-sum-exp joined over two
  runs, the reference's as a log-softmax, equal on real logits; the second result is the exponentiated margins on both sides.
-/
import proofs.«421507_j48103633715511_2_alg».proof.Defs
import proofs.«421507_j48103633715511_2_alg».proof.Proof.Gen.Kernel
import proofs.«421507_j48103633715511_2_alg».proof.Proof.Gen.KernelIdeal
import proofs.«421507_j48103633715511_2_alg».proof.Proof.Gen.ReferenceIdeal
import proofs.«421507_j48103633715511_2_alg».proof.Proof.Gen.Pre_finite_inputs
import proofs.«421507_j48103633715511_2_alg».proof.Proof.BitsFrame
import proofs.«421507_j48103633715511_2_alg».proof.Proof.KValue
import proofs.«421507_j48103633715511_2_alg».proof.Proof.KPrefix
import proofs.«421507_j48103633715511_2_alg».proof.Proof.PreFacts
import proofs.«421507_j48103633715511_2_alg».proof.Proof.Glue
import proofs.«421507_j48103633715511_2_alg».proof.Proof.RefRun
import proofs.«421507_j48103633715511_2_alg».proof.Proof.RefReadEq
import proofs.«421507_j48103633715511_2_alg».proof.Proof.RefValue
import Idealize.ShloMosaic.PureOps.IdealRules

set_option maxRecDepth 16384

noncomputable section

namespace Cert.Proof

open Idealize.ShloMosaic Idealize.ShloMosaic.TcCoe Idealize.ShloMosaic.ValueIdx Idealize.SL.Sem

/-- A label word that is a class number as a signed integer is that number as a natural, below the number of classes. -/
theorem label_word (a : BitVec 32) (h : 0 ≤ a.toInt ∧ a.toInt < 85742) : a.toNat < 85742 ∧ a = BitVec.ofNat 32 a.toNat := by
  refine ⟨?_, ?_⟩
  · have h1 := h.1; have h2 := h.2
    rw [BitVec.toInt_eq_toNat_cond] at h1 h2
    have := a.isLt
    split at h1 <;> omega
  · exact (BitVec.ofNat_toNat 32 a).symm

theorem frame_k : Cert.frame_Kernel := fun m ρ _ => Cert.BitsFrame.frame m ρ

theorem frame_ki : Cert.frame_KernelIdeal := fun m ρ _ =>
  Cert.KernelIdeal.Gen.frame_of m ρ (Cert.IdealRun.dats m) (fun c w => Cert.IdealRun.dats_A m c w) (Cert.IdealRun.run_main m ρ)

theorem frame_ri : Cert.frame_ReferenceIdeal := fun m ρ _ =>
  (θ_run Cert.ReferenceIdeal.defs _ _).mono (fun _ h c => (h c).2.2) (Cert.RefRun.run (F := Ideal) m ρ)

/-- The ledger's two entries, one per site of the masking constant: the table gives it the value bottom. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- Under the precondition both idealized programs end with the same two results. -/
theorem algebraic : Cert.algebraic_KernelIdeal_ReferenceIdeal := by
  intro m ρ m' ρ' hpre hagree
  -- what the precondition says of each core's arguments: real samples, weights and margins; labels that are class numbers
  have hf := fun c : Dev Cert.KernelIdeal.nD => Cert.PreFacts.of_pre _ _ _ _ _ (hpre c)
  -- each label is a class
  have hl : ∀ (c : Dev Cert.KernelIdeal.nD) (n : Fin 512), ∃ l : Fin 85742, Cert.KDefs.labK m c n = BitVec.ofNat 32 l.val := fun c n => by
    rw [Cert.KPrefix.labK_eq]
    obtain ⟨h1, h2⟩ := label_word _ ((hf c).2.2.2 (ix1 n))
    exact ⟨⟨_, h1⟩, h2⟩
  choose lb hlb using hl
  -- the arrays the region finds, in terms of the arguments
  have hA : ∀ c, Cert.KDefs.xnK m c = Cert.Spec.normRow (fun n k =>
      (m ((c : Thread Cert.KernelIdeal.nD Cert.KernelIdeal.τ).loc Cert.KernelIdeal.main_arg0) : Cert.KernelIdeal.S512x512.Idx → EReal) (ix2 n k)) :=
    fun c => funext fun n => funext fun k => Cert.KPrefix.xnK_eq m c n k
  have hB : ∀ c, Cert.KDefs.wK m c = fun j k =>
      (m ((c : Thread Cert.KernelIdeal.nD Cert.KernelIdeal.τ).loc Cert.KernelIdeal.main_arg3) : Cert.KernelIdeal.S85742x512.Idx → EReal) (ix2 j k) :=
    fun c => funext fun j => funext fun k => Cert.KPrefix.wK_eq m c j k
  have hC : ∀ c, Cert.KDefs.labK m c = fun n =>
      (m ((c : Thread Cert.KernelIdeal.nD Cert.KernelIdeal.τ).loc Cert.KernelIdeal.main_arg1) : Cert.KernelIdeal.S512.Idx → BitVec 32) (ix1 n) :=
    fun c => funext fun n => Cert.KPrefix.labK_eq m c n
  -- the logits are real
  have hS : ∀ c, ∃ r : Fin 512 → Fin 85742 → ℝ, ∀ n j, Cert.KDefs.SK m c n j = ((r n j : ℝ) : EReal) := fun c => by
    unfold Cert.KDefs.SK
    rw [hA c]
    exact Cert.Glue.logits_real _ _ _ _ (fun n k => (hf c).1 _)
      (fun j k => by rw [Cert.KPrefix.wK_eq]; exact (hf c).2.1 _)
      (fun n => by
        obtain ⟨i, hi⟩ := Cert.KPrefix.mgK_real m c n
        obtain ⟨x, hx4⟩ := (hf c).2.2.1 i
        rw [hi, hx4]; exact Cert.Math.exp_real x)
  refine ⟨fun c _ => Cert.Spec.kloss (Cert.KDefs.SK m c) (fun n => Cert.KDefs.SK m c n (lb c n)) (Cert.KTail.tempK m c),
    fun c i => Ideal.exp ((m ((c : Thread Cert.KernelIdeal.nD Cert.KernelIdeal.τ).loc Cert.KernelIdeal.main_arg4) : Cert.KernelIdeal.S4.Idx → EReal) i),
    Cert.KValue.kernel_run m ρ lb hlb, ?_⟩
  refine (θ_run Cert.ReferenceIdeal.defs _ _).mono (fun r h c => ?_) (Cert.RefRun.run (F := Ideal) m' ρ')
  obtain ⟨h84, h11, ha0, ha1, ha2, ha3, ha4⟩ := h c
  obtain ⟨e0, e1, e2, e3, e4⟩ := hagree c
  refine ⟨h84.trans ?_, h11.trans ?_, ha0, ha1, ha2, ha3, ha4⟩
  · rw [Cert.RefRead.val_main_v84_eq, e0, e1, e2, e3, e4,
      Cert.RefValue.ref_value _ _ _ _ _ (lb c) (fun n => (Cert.KPrefix.labK_eq m c n).symm.trans (hlb c n))]
    have hD : Cert.KDefs.mgK m c = fun n => (Cert.RefRead.val_main_v18 (F := Ideal)
        (m ((c : Thread Cert.KernelIdeal.nD Cert.KernelIdeal.τ).loc Cert.KernelIdeal.main_arg2))
        (m ((c : Thread Cert.KernelIdeal.nD Cert.KernelIdeal.τ).loc Cert.KernelIdeal.main_arg4)) : Cert.ReferenceIdeal.S512.Idx → EReal) (ix1 n) :=
      funext fun n => (Cert.KPrefix.mgK_eq m c n).trans rfl
    have hSR : Cert.RefValue.SR (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4)) = Cert.KDefs.SK m c := by
      unfold Cert.RefValue.SR Cert.KDefs.SK
      rw [hA c, hB c, hC c, hD]
    rw [hSR]
    funext _
    exact (Cert.Glue.loss_eq (Cert.KDefs.SK m c) (hS c) (lb c) _).symm
  · rw [e4]; rfl

/-- Everything the certificate claims, over the programs' proved side conditions. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
